-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64 : Shape := ⟨1, ![64]⟩
abbrev S64x64 : Shape := ⟨2, ![64, 64]⟩
abbrev S_ : Shape := ⟨0, ![]⟩
abbrev S1x1600000 : Shape := ⟨2, ![1, 1600000]⟩
abbrev S1600000 : Shape := ⟨1, ![1600000]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_c_13 : IVec S_ 1 := constantI S_ 1 1#1
  let main_v38 : IVec S_ 1 := (fun x v => Host.reduce IntOp.andi x v reducesTo_S1600000_S_d0 h_S_) main_v37 main_c_13
  let main_v39 : IVec S_ 1 := andi main_v33 main_v38
  let main_v40 : IVec S1x1600000 32 := (extractStridedSlice S1x1600000 ![0, 0] · slices_S2x1600000_S1x1600000_0_0) main_arg1
  let main_v41 : IVec S1600000 32 := shapeCast S1600000 main_v40 shapeCasts_S1x1600000_S1600000
  let main_c_14 : IVec S_ 32 := constantI S_ 32 100000#32
  let main_v42 : IVec S1600000 32 := broadcastInDim S1600000 ![] bcast_S_S1600000 main_c_14
  let main_v43 : IVec S1600000 1 := cmpi .slt main_v41 main_v42
  let main_c_15 : IVec S_ 1 := constantI S_ 1 1#1
  let main_v44 : IVec S_ 1 := (fun x v => Host.reduce IntOp.andi x v reducesTo_S1600000_S_d0 h_S_) main_v43 main_c_15
  let main_v45 : IVec S_ 1 := andi main_v39 main_v44
  main_v45

def fn_part1 {F : FTy → Type} [FloatOps F] (main_arg1 : IVec S2x1600000 32) (main_arg6 : FVec F S64x64 .f32) (main_arg7 : FVec F S64 .f32) (main_arg8 : FVec F S64x64 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_v33

def fn {F : FTy → Type} [FloatOps F] (main_arg0 : FVec F S100000x32 .f32) (main_arg1 : IVec S2x1600000 32) (main_arg2 : IVec S100000 32) (main_arg3 : FVec F S32x64 .f32) (main_arg4 : FVec F S64 .f32) (main_arg5 : FVec F S32x64 .f32) (main_arg6 : FVec F S64x64 .f32) (main_arg7 : FVec F S64 .f32) (main_arg8 : FVec F S64x64 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg5
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg1 main_arg6 main_arg7 main_arg8 main_v13 main_v16
-- ==== Kernel.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100096x32 : Shape := ⟨2, ![100096, 32]⟩
abbrev S1x64 : Shape := ⟨2, ![1, 64]⟩
abbrev S100096x64 : Shape := ⟨2, ![100096, 64]⟩
abbrev S2944x32 : Shape := ⟨2, ![2944, 32]⟩
abbrev S2944x64 : Shape := ⟨2, ![2944, 64]⟩
abbrev S1600000x64 : Shape := ⟨2, ![1600000, 64]⟩
abbrev S100096 : Shape := ⟨1, ![100096]⟩
abbrev S1x100096 : Shape := ⟨2, ![1, 100096]⟩
abbrev S2x256x64 : Shape := ⟨3, ![2, 256, 64]⟩
abbrev S1x2944 : Shape := ⟨2, ![1, 2944]⟩
abbrev S1x256x64 : Shape := ⟨3, ![1, 256, 64]⟩
abbrev S256x2944 : Shape := ⟨2, ![256, 2944]⟩
abbrev S256x64 : Shape := ⟨2, ![256, 64]⟩
abbrev S256 : Shape := ⟨1, ![256]⟩
abbrev S100000x1 : Shape := ⟨2, ![100000, 1]⟩
abbrev S256x1 : Shape := ⟨2, ![256, 1]⟩

abbrev nBuf : Space → Nat
  | .hbm => 67
  | .vmem => 21
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S100000, .i32⟩
  | .hbm, ⟨3, _⟩ => ⟨S32x64, .f32⟩
  | .hbm, ⟨4, _⟩ => ⟨S64, .f32⟩
  | .hbm, ⟨5, _⟩ => ⟨S32x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000x32, .bf16⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x32, .bf16⟩
  | .hbm, ⟨23, _⟩ => ⟨S1600000x32, .f32⟩
  | .hbm, ⟨24, _⟩ => ⟨S_, .f32⟩
  | .hbm, ⟨25, _⟩ => ⟨S100096x32, .f32⟩
  | .hbm, ⟨26, _⟩ => ⟨S1600000x1, .i32⟩
  | .hbm, ⟨27, _⟩ => ⟨S100096x32, .f32⟩
  | .hbm, ⟨28, _⟩ => ⟨S_, .i32⟩
  | .hbm, ⟨29, _⟩ => ⟨S_, .f32⟩
  | .hbm, ⟨30, _⟩ => ⟨S100096x32, .f32⟩
  | .hbm, ⟨31, _⟩ => ⟨S1x64, .f32⟩
  | .hbm, ⟨32, _⟩ => ⟨S100096x64, .bf16⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .bf16⟩
  | .hbm, ⟨42, _⟩ => ⟨S1600000x64, .f32⟩
  | .hbm, ⟨43, _⟩ => ⟨S_, .f32⟩
  | .hbm, ⟨44, _⟩ => ⟨S100096x64, .f32⟩
  | .hbm, ⟨45, _⟩ => ⟨S1600000x1, .i32⟩
  | .hbm, ⟨46, _⟩ => ⟨S100096x64, .f32⟩
  | .hbm, ⟨47, _⟩ => ⟨S_, .i32⟩
  | .hbm, ⟨48, _⟩ => ⟨S_, .i32⟩
  | .hbm, ⟨49, _⟩ => ⟨S100096, .i32⟩
  | .hbm, ⟨50, _⟩ => ⟨S1x100096, .i32⟩
  | .hbm, ⟨51, _⟩ => ⟨S1x64, .f32⟩
  | .hbm, ⟨52, _⟩ => ⟨S2x256x64, .f32⟩
  | .hbm, ⟨53, _⟩ => ⟨S_, .f32⟩
  | .hbm, ⟨54, _⟩ => ⟨S256x64, .f32⟩
  | .hbm, ⟨55, _⟩ => ⟨S_, .f32⟩
  | .hbm, ⟨56, _⟩ => ⟨S100000, .f32⟩
  | .hbm, ⟨57, _⟩ => ⟨S_, .f32⟩
  | .hbm, ⟨58, _⟩ => ⟨S256, .f32⟩
  | .hbm, ⟨59, _⟩ => ⟨S100000x1, .i32⟩
  | .hbm, ⟨60, _⟩ => ⟨S256, .f32⟩
  | .hbm, ⟨61, _⟩ => ⟨S_, .f32⟩
  | .hbm, ⟨62, _⟩ => ⟨S256, .f32⟩
  | .hbm, ⟨63, _⟩ => ⟨S256, .f32⟩
  | .hbm, ⟨64, _⟩ => ⟨S256x1, .f32⟩
  | .hbm, ⟨65, _⟩ => ⟨S256x64, .f32⟩
  | .hbm, ⟨66, _⟩ => ⟨S256x64, .f32⟩
  | .local _ .vmem, ⟨0, _⟩ => ⟨S2944x32, .f32⟩
  | .local _ .vmem, ⟨1, _⟩ => ⟨S2944x32, .f32⟩
  | .local _ .vmem, ⟨2, _⟩ => ⟨S2944x32, .f32⟩
  | .local _ .vmem, ⟨3, _⟩ => ⟨S2944x32, .f32⟩
  | .local _ .vmem, ⟨4, _⟩ => ⟨S32x64, .f32⟩
  | .local _ .vmem, ⟨5, _⟩ => ⟨S1x64, .f32⟩
  | .local _ .vmem, ⟨6, _⟩ => ⟨S32x64, .f32⟩
  | .local _ .vmem, ⟨7, _⟩ => ⟨S2944x64, .bf16⟩
  | .local _ .vmem, ⟨8, _⟩ => ⟨S2944x64, .bf16⟩
  | .local _ .vmem, ⟨9, _⟩ => ⟨S2944x64, .f32⟩
  | .local _ .vmem, ⟨10, _⟩ => ⟨S2944x64, .f32⟩
  | .local _ .vmem, ⟨11, _⟩ => ⟨S2944x64, .bf16⟩
  | .local _ .vmem, ⟨12, _⟩ => ⟨S2944x64, .bf16⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S1x2944, .i32⟩
  | .local _ .vmem, ⟨17, _⟩ => ⟨S1x2944, .i32⟩
  | .local _ .vmem, ⟨18, _⟩ => ⟨S1x256x64, .f32⟩
  | .local _ .vmem, ⟨19, _⟩ => ⟨S1x256x64, .f32⟩
  | .local _ .vmem, ⟨20, _⟩ => ⟨S1x256x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_call0_v0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_call1_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2944x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2944x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2944x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 17], ![false, false]⟩

def k1_cond2 (i : grid1.Coords) : BitVec 1 :=
  let arg1 : BitVec 32 := BitVec.ofNat 32 (i 1).val
  let c16_i32 : BitVec 32 := 16#32
  let v36 : BitVec 1 := Scalar.cmpi .eq arg1 c16_i32
  let v37 : BitVec 32 := Scalar.extui v36
  let c0_i32_20 : BitVec 32 := 0#32
  let v38 : BitVec 1 := Scalar.cmpi .ne v37 c0_i32_20
  v38

def cc1_transform_0 (i : grid1.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c17_i32 : BitVec 32 := 17#32
  let v0 : BitVec 32 := Scalar.muli arg0 c17_i32
  let v1 : BitVec 32 := Scalar.addi v0 arg1
  let c0_i32 : BitVec 32 := 0#32
  let c0_i32_0 : BitVec 32 := 0#32
  ![c0_i32.toNat, v1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2944x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2944x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x2944 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x256x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100096x32 : S_.BroadcastsInDim S100096x32 (![] : Fin 0 → Fin S100096x32.rank)
  pads_S100000x32_S100096x32_0960_000 : S100000x32.Pads (![0, 0] : Fin 2 → Nat) ![96, 0] ![0, 0] S100096x32
  h_S_ : 0 < S_.numel
  shapeCasts_S64_S1x64 : S64.ShapeCasts S1x64
  inb_S2944x32_S2944x32_0_0 : ∀ a, (![0, 0] : Fin 2 → Nat) a + S2944x32.size a ≤ S2944x32.size a
  h_S2944x32 : 0 < S2944x32.numel
  shapeCasts_S2944x32_S2944x32 : S2944x32.ShapeCasts S2944x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2944x64 : S1x64.Broadcasts S2944x64
  inb_S2944x64_S2944x64_0_0 : ∀ a, (![0, 0] : Fin 2 → Nat) a + S2944x64.size a ≤ S2944x64.size a
  h_S2944x64 : 0 < S2944x64.numel
  packedbf16_S2944x64_S2944x64_0_0 : (Rect.unit (s := S2944x64) ![0, 0] S2944x64.size inb_S2944x64_S2944x64_0_0).PackedRows (EltTy.packing .bf16)
  bcast_S_S100096x64 : S_.BroadcastsInDim S100096x64 (![] : Fin 0 → Fin S100096x64.rank)
  pads_S100000_S100096_0960 : S100000.Pads (![0] : Fin 1 → Nat) ![96] ![0] S100096
  shapeCasts_S100096_S1x100096 : S100096.ShapeCasts S1x100096
  inb_S1x256x64_S1x256x64_0_0_0 : ∀ a, (![0, 0, 0] : Fin 3 → Nat) a + S1x256x64.size a ≤ S1x256x64.size a
  h_S1x256x64 : 0 < S1x256x64.numel
  shapeCasts_S1x256x64_S1x256x64 : S1x256x64.ShapeCasts S1x256x64
  shapeCasts_S2944x64_S2944x64 : S2944x64.ShapeCasts S2944x64
  inb_S64x64_S64x64_0_0 : ∀ a, (![0, 0] : Fin 2 → Nat) a + S64x64.size a ≤ S64x64.size a
  h_S64x64 : 0 < S64x64.numel
  iota_S256x2944_d0_w32 : S256x2944.Iotas .tc 32 [0]
  inb_S1x2944_S1x2944_0_0 : ∀ a, (![0, 0] : Fin 2 → Nat) a + S1x2944.size a ≤ S1x2944.size a
  h_S1x2944 : 0 < S1x2944.numel
  shapeCasts_S1x2944_S1x2944 : S1x2944.ShapeCasts S1x2944
  broadcasts_S1x2944_S256x2944 : S1x2944.Broadcasts S256x2944
  natLt_1_32 : 1 < 32
  shapeCasts_S256x64_S1x256x64 : S256x64.ShapeCasts S1x256x64
  reducesTo_S2x256x64_S256x64_d0 : S2x256x64.ReducesTo [0] S256x64
  bcast_S_S100000 : S_.BroadcastsInDim S100000 (![] : Fin 0 → Fin S100000.rank)
  bcast_S_S256 : S_.BroadcastsInDim S256 (![] : Fin 0 → Fin S256.rank)
  bcast_S100000_S100000x1_0 : S100000.BroadcastsInDim S100000x1 (![0] : Fin 1 → Fin S100000x1.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  gather_S100000x32_S1600000x1_S1600000x32_1_0_n_n_0_1_132_wf : GatherDims.WF S100000x32 S1600000x1 S1600000x32 [1] [0] [] [0] [] 1 ![1, 32]
  scatter_S100096x32_S1600000x1_S1600000x32_1_0_0_1_wf : ScatterDims.WF S100096x32 S1600000x1 S1600000x32 [1] [0] [0] 1
  dot_S2944x32_S32x64_S2944x64_1_0_0_1_n_n_wf : DotDims.WF S2944x32 S32x64 S2944x64 [1] [0] [0] [1] [] []
  gather_S100096x64_S1600000x1_S1600000x64_1_0_n_n_0_1_164_wf : GatherDims.WF S100096x64 S1600000x1 S1600000x64 [1] [0] [] [0] [] 1 ![1, 64]
  scatter_S100096x64_S1600000x1_S1600000x64_1_0_0_1_wf : ScatterDims.WF S100096x64 S1600000x1 S1600000x64 [1] [0] [0] 1
  dot_S2944x64_S64x64_S2944x64_1_0_0_1_n_n_wf : DotDims.WF S2944x64 S64x64 S2944x64 [1] [0] [0] [1] [] []
  dot_S256x2944_S2944x64_S256x64_1_0_0_1_n_n_wf : DotDims.WF S256x2944 S2944x64 S256x64 [1] [0] [0] [1] [] []
  scatter_S256_S100000x1_S100000_n_0_0_1_wf : ScatterDims.WF S256 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2944x32.size a ≤ S100096x32.size a
  hwx0_0 : ∀ i : grid0.Coords, EltTy.bits .f32 = 32 ∨ (Rect.block (s := S100096x32) S2944x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2944x32.size a ≤ S100096x32.size a
  hwx0_1 : ∀ i : grid0.Coords, EltTy.bits .f32 = 32 ∨ (Rect.block (s := S100096x32) S2944x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x64.size a ≤ S32x64.size a
  hwx0_2 : ∀ i : grid0.Coords, EltTy.bits .f32 = 32 ∨ (Rect.block (s := S32x64) S32x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2944x64.size a ≤ S100096x64.size a
  hwx0_5 : ∀ i : grid0.Coords, EltTy.bits .bf16 = 32 ∨ (Rect.block (s := S100096x64) S2944x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2944x64.size a ≤ S100096x64.size a
  hwx1_0 : ∀ i : grid1.Coords, EltTy.bits .f32 = 32 ∨ (Rect.block (s := S100096x64) S2944x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2944x64.size a ≤ S100096x64.size a
  hwx1_1 : ∀ i : grid1.Coords, EltTy.bits .bf16 = 32 ∨ (Rect.block (s := S100096x64) S2944x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x2944.size a ≤ S1x100096.size a
  hwx1_5 : ∀ i : grid1.Coords, EltTy.bits .i32 = 32 ∨ (Rect.block (s := S1x100096) S1x2944.size (cc1_transform_5 i) (hinb1_5 i)).WholeWords (EltTy.packing .i32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x64.size a ≤ S2x256x64.size a
  hwx1_6 : ∀ i : grid1.Coords, EltTy.bits .f32 = 32 ∨ (Rect.block (s := S2x256x64) S1x256x64.size (cc1_transform_6 i) (hinb1_6 i)).WholeWords (EltTy.packing .f32)

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100096x32_S1600000x1_S1600000x32_1_0_0_1 : ScatterDims S100096x32 S1600000x1 S1600000x32 where
  updateWindowDims := [1]
  insertedWindowDims := [0]
  scatterDimsToOperandDims := [0]
  indexVectorDim := 1
  wf := scatter_S100096x32_S1600000x1_S1600000x32_1_0_0_1_wf
def dot_S2944x32_S32x64_S2944x64_1_0_0_1_n_n : DotDims S2944x32 S32x64 S2944x64 where
  lhsContracting := [1]
  rhsContracting := [0]
  lhsNonContracting := [0]
  rhsNonContracting := [1]
  lhsBatch := []
  rhsBatch := []
  wf := dot_S2944x32_S32x64_S2944x64_1_0_0_1_n_n_wf
def gather_S100096x64_S1600000x1_S1600000x64_1_0_n_n_0_1_164 : GatherDims S100096x64 S1600000x1 S1600000x64 where
  offsetDims := [1]
  collapsedSliceDims := [0]
  operandBatchingDims := []
  startIndicesBatchingDims := []
  startIndexMap := [0]
  indexVectorDim := 1
  sliceSizes := ![1, 64]
  wf := gather_S100096x64_S1600000x1_S1600000x64_1_0_n_n_0_1_164_wf
def scatter_S100096x64_S1600000x1_S1600000x64_1_0_0_1 : ScatterDims S100096x64 S1600000x1 S1600000x64 where
  updateWindowDims := [1]
  insertedWindowDims := [0]
  scatterDimsToOperandDims := [0]
  indexVectorDim := 1
  wf := scatter_S100096x64_S1600000x1_S1600000x64_1_0_0_1_wf
def dot_S2944x64_S64x64_S2944x64_1_0_0_1_n_n : DotDims S2944x64 S64x64 S2944x64 where
  lhsContracting := [1]
  rhsContracting := [0]
  lhsNonContracting := [0]
  rhsNonContracting := [1]
  lhsBatch := []
  rhsBatch := []
  wf := dot_S2944x64_S64x64_S2944x64_1_0_0_1_n_n_wf
def dot_S256x2944_S2944x64_S256x64_1_0_0_1_n_n : DotDims S256x2944 S2944x64 S256x64 where
  lhsContracting := [1]
  rhsContracting := [0]
  lhsNonContracting := [0]
  rhsNonContracting := [1]
  lhsBatch := []
  rhsBatch := []
  wf := dot_S256x2944_S2944x64_S256x64_1_0_0_1_n_n_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

abbrev win0_0 : Pipeline.Window sig grid0 :=
  Pipeline.Window.ofSpec (Memref.whole main_v15) S2944x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2944x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S2944x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S2944x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2944x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S1x2944.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x256x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S100000x32 : Shape := ⟨2, ![100000, 32]⟩
abbrev S2x1600000 : Shape := ⟨2, ![2, 1600000]⟩
abbrev S100000 : Shape := ⟨1, ![100000]⟩
abbrev S32x64 : Shape := ⟨2, ![32, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x32 : Shape := ⟨2, ![1600000, 32]⟩
abbrev S100000x64 : Shape := ⟨2, ![100000, 64]⟩
abbrev S1x64 : Shape := ⟨2, ![1, 64]⟩
abbrev S1600000x64 : Shape := ⟨2, ![1600000, 64]⟩
abbrev S256x64 : Shape := ⟨2, ![256, 64]⟩
abbrev S100000x1 : Shape := ⟨2, ![100000, 1]⟩
abbrev S256 : Shape := ⟨1, ![256]⟩
abbrev S256x1 : Shape := ⟨2, ![256, 1]⟩

abbrev nBuf : Space → Nat
  | .hbm => 69
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S100000, .i32⟩
  | .hbm, ⟨3, _⟩ => ⟨S32x64, .f32⟩
  | .hbm, ⟨4, _⟩ => ⟨S64, .f32⟩
  | .hbm, ⟨5, _⟩ => ⟨S32x64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x32, .f32⟩
  | .hbm, ⟨22, _⟩ => ⟨S_, .f32⟩
  | .hbm, ⟨23, _⟩ => ⟨S100000x32, .f32⟩
  | .hbm, ⟨24, _⟩ => ⟨S1600000x1, .i32⟩
  | .hbm, ⟨25, _⟩ => ⟨S100000x32, .f32⟩
  | .hbm, ⟨26, _⟩ => ⟨S100000x64, .f32⟩
  | .hbm, ⟨27, _⟩ => ⟨S1x64, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S100000x64, .f32⟩
  | .hbm, ⟨53, _⟩ => ⟨S_, .f32⟩
  | .hbm, ⟨54, _⟩ => ⟨S256x64, .f32⟩
  | .hbm, ⟨55, _⟩ => ⟨S100000x1, .i32⟩
  | .hbm, ⟨56, _⟩ => ⟨S256x64, .f32⟩
  | .hbm, ⟨57, _⟩ => ⟨S_, .f32⟩
  | .hbm, ⟨58, _⟩ => ⟨S100000, .f32⟩
  | .hbm, ⟨59, _⟩ => ⟨S_, .f32⟩
  | .hbm, ⟨60, _⟩ => ⟨S256, .f32⟩
  | .hbm, ⟨61, _⟩ => ⟨S100000x1, .i32⟩
  | .hbm, ⟨62, _⟩ => ⟨S256, .f32⟩
  | .hbm, ⟨63, _⟩ => ⟨S_, .f32⟩
  | .hbm, ⟨64, _⟩ => ⟨S256, .f32⟩
  | .hbm, ⟨65, _⟩ => ⟨S256, .f32⟩
  | .hbm, ⟨66, _⟩ => ⟨S256x1, .f32⟩
  | .hbm, ⟨67, _⟩ => ⟨S256x64, .f32⟩
  | .hbm, ⟨68, _⟩ => ⟨S256x64, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_5 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x32 : S_.BroadcastsInDim S100000x32 (![] : Fin 0 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S_S256x64 : S_.BroadcastsInDim S256x64 (![] : Fin 0 → Fin S256x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x64_0_1 : S256x1.BroadcastsInDim S256x64 (![0, 1] : Fin 2 → Fin S256x64.rank)
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  scatter_S256x64_S100000x1_S100000x64_1_0_0_1_wf : ScatterDims.WF S256x64 S100000x1 S100000x64 [1] [0] [0] 1
  scatter_S256_S100000x1_S100000_n_0_0_1_wf : ScatterDims.WF S256 S100000x1 S100000 [] [0] [0] 1

variable [Facts₀]

def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S256x64_S100000x1_S100000x64_1_0_0_1 : ScatterDims S256x64 S100000x1 S100000x64 where
  updateWindowDims := [1]
  insertedWindowDims := [0]
  scatterDimsToOperandDims := [0]
  indexVectorDim := 1
  wf := scatter_S256x64_S100000x1_S100000x64_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf

class Facts : Prop extends Facts₀ where

variable [Facts]
-- ==== Proof.K.Region0.lean ====
/-
  The first pallas_call (layer 1 of the graph convolution) as a pipeline region, for any float instance: at each of
  the 34 grid points the body loads a 2944-row block of the aggregated messages and of the padded node features,
  the two 32×64 weight matrices and the 1×64 bias, and stores the whole 2944×64 output block
  tanh((agg·W_rel + b) + x·W_root). One control case, every access a whole-buffer rectangle: the body is run once
  on symbolic blocks, and the proof data say each input buffer holds its block and the output buffer the stored value.
  Everything is stated at a parameter `V`, the buffer contents when the region is entered.
-/
import proofs.«410272_j33930241638933_2_alg».proof.Proof.Gen.Kernel.Launch
import proofs.«410272_j33930241638933_2_alg».proof.Proof.Gen.Kernel.Skeleton
import proofs.«410272_j33930241638933_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every point, fetched there or not
    (where it is not fetched its block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array at every point, fetched there or not
    (where it is not fetched its block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the array at every point, fetched there or not
    (where it is not fetched its block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the array at every point, fetched there or not
    (where it is not fetched its block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block of the array at every point, fetched there or not
    (where it is not fetched its block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev rRows0 : Rect S2944x32 := Rect.unit (s := S2944x32) ![0, 0] S2944x32.size inb_S2944x32_S2944x32_0_0
abbrev rWeight0 : Rect S32x64 := Rect.unit (s := S32x64) ![0, 0] S32x64.size inb_S32x64_S32x64_0_0
abbrev rBias0 : Rect S1x64 := Rect.unit (s := S1x64) ![0, 0] S1x64.size inb_S1x64_S1x64_0_0
abbrev rOut0 : Rect S2944x64 := Rect.unit (s := S2944x64) ![0, 0] S2944x64.size inb_S2944x64_S2944x64_0_0

/-- What the body leaves in the output window's buffer, from the five input blocks: its one store, the layer's
    value on the block (the skeleton's payload; note the order in which the body loads the bias and the root weights). -/
def hidden0 (agg x : Vec F S2944x32 .f32) (wrel : Vec F S32x64 .f32) (b : Vec F S1x64 .f32) (wroot : Vec F S32x64 .f32) : Vec F S2944x64 .bf16 :=
  View.canon [⟨rOut0, k0_pay1 (View.ld agg rRows0) (View.ld x rRows0) (View.ld wrel rWeight0) (View.ld wroot rWeight0) (View.ld b rBias0)⟩]

/-- The one store covers the output buffer. -/
theorem hidden0_cover (p0 : Vec F S2944x64 .bf16) (y : S2944x64.Idx) :
    ∃ pc ∈ ([⟨rOut0, p0⟩] : List (View.Piece (Elt F) S2944x64 .bf16)), y ∈ pc.1.set :=
  View.cover_of_tiled [⟨rOut0, p0⟩] S2944x64.size (by rfl) y

/-! ## The body's triple -/

set_option maxHeartbeats 4000000 in
/-- The body on whole staging memrefs — the inputs' at contents `agg x wrel b wroot`, the output's at anything — runs to
    the continuation with the inputs' as they were and the output's at `hidden0` of them. -/
theorem conv1_body (c : Dev nD) (E : Set ℕ) (i : grid0.Coords)
    (arg1 : Memref sig .tc .vmem S2944x32 .f32) (harg1 : arg1.IsWhole) (arg2 : Memref sig .tc .vmem S2944x32 .f32) (harg2 : arg2.IsWhole)
    (arg3 : Memref sig .tc .vmem S32x64 .f32) (harg3 : arg3.IsWhole) (arg4 : Memref sig .tc .vmem S1x64 .f32) (harg4 : arg4.IsWhole)
    (arg5 : Memref sig .tc .vmem S32x64 .f32) (harg5 : arg5.IsWhole) (arg6 : Memref sig .tc .vmem S2944x64 .bf16) (harg6 : arg6.IsWhole)
    (agg x : Vec F S2944x32 .f32) (wrel : Vec F S32x64 .f32) (b : Vec F S1x64 .f32) (wroot : Vec F S32x64 .f32) (K : PUnit → sProp 𝕄) :
    iprop(owns (c : Thread nD τ) arg1 fullShare agg ∗ owns (c : Thread nD τ) arg2 fullShare x ∗ owns (c : Thread nD τ) arg3 fullShare wrel
        ∗ owns (c : Thread nD τ) arg4 fullShare b ∗ owns (c : Thread nD τ) arg5 fullShare wroot ∗ (∃ d, owns (c : Thread nD τ) arg6 fullShare d)
        ∗ (iprop(owns (c : Thread nD τ) arg1 fullShare agg ∗ owns (c : Thread nD τ) arg2 fullShare x ∗ owns (c : Thread nD τ) arg3 fullShare wrel
            ∗ owns (c : Thread nD τ) arg4 fullShare b ∗ owns (c : Thread nD τ) arg5 fullShare wroot
            ∗ owns (c : Thread nD τ) arg6 fullShare (hidden0 agg x wrel b wroot)) -∗ K ⟨⟩))
      ⊢ wp frame (wpE (defs₀ (F := F)) Variants.none c none) E (cc0__conv1_kernel i arg1 harg1 arg2 harg2 arg3 harg3 arg4 harg4 arg5 harg5 arg6 harg6) K := by
  simp only [cc0__conv1_kernel_eq_skeleton]; unfold cc0__conv1_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (hidden0_cover _)

/-! ## The pipeline's proof data -/

/-- The proof data of this pipeline on core `c`: the arrays as the region finds them; after the body at point `t` each
    input's buffer at its block and the output's at the layer's value on the blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => hidden0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = hidden0 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (conv1_body c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1Runs.lean ====
import proofs.«410272_j33930241638933_2_alg».proof.Proof.Gen.Kernel.Launch
import proofs.«410272_j33930241638933_2_alg».proof.Proof.Gen.Kernel.Skeleton
import proofs.«410272_j33930241638933_2_alg».proof.Proof.Gen.Kernel.Points
import Idealize.ShloMosaic.Lib.Pipeline.FrameBody
import Idealize.ShloMosaic.Lib.Ring
import Idealize.ShloMosaic.Lib.Tactic

/-! # The pooling kernel's body, run whole in each of its three control cases

The second pallas_call sweeps a grid of 2 × 17 points; point `t` has coordinates `(t / 17, t % 17)`. Its body keeps a
`1 × 256 × 64` accumulator in a scratch buffer that lives across the points of one sweep of the second coordinate:

* where the second coordinate is `0` it first resets the accumulator to zero;
* at every point it loads its six input blocks, and adds their pooled contribution to the accumulator;
* where the second coordinate is `16` it then copies the accumulator, whole, into the output block.

So a point is in one of three cases: the FIRST step of a sweep (reset, accumulate; the output block untouched), a MIDDLE
step (accumulate; the output block untouched), the LAST step (accumulate, store the output block). This module runs the
body whole in each case, by symbolic execution over its skeleton; what the run finds stored into the accumulator and into
the output block — a list of pieces — is the witness carried by each run. Everything is generic in the float instance. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, in closed form over the grid -/

/-- The body resets the accumulator at coordinates `i`: its first `scf.if`, the scalar chain from the second grid
    coordinate written out (`coord₁ = 0`). -/
abbrev resetsAt (i : grid1.Coords) : Prop :=
  (Scalar.cmpi .ne (Scalar.extui (Scalar.cmpi .eq (BitVec.ofNat 32 (i 1).val) 0#32)) 0#32) = 1#1

/-- It does so exactly at the points whose second coordinate is `0`: `t % 17 = 0`. -/
theorem resetsAt_iff : ∀ t : Fin cfg1.N, resetsAt (grid1.coords t) ↔ t.val % 17 = 0 :=
  (by decide +kernel : ∀ t : Fin grid1.N, resetsAt (grid1.coords t) ↔ t.val % 17 = 0)

/-- The body stores the output block at coordinates `i`: its second `scf.if` (`coord₁ = 16`). -/
abbrev storesAt (i : grid1.Coords) : Prop := k1_cond2 i = 1#1

/-- It does so exactly at the points whose second coordinate is `16`: `t % 17 = 16`. -/
theorem storesAt_iff : ∀ t : Fin cfg1.N, storesAt (grid1.coords t) ↔ t.val % 17 = 16 :=
  (by decide +kernel : ∀ t : Fin grid1.N, storesAt (grid1.coords t) ↔ t.val % 17 = 16)

/-! ## Where the windows are idle -/

/-- The six input windows are never idle. -/
theorem live1_in : ∀ (w : Fin cfg1.W), w.val < 6 → ∀ t : Fin cfg1.N, cfg1.idle w (grid1.coords t) = false := by decide +kernel
/-- Where the body does not store the output block, the configuration calls output window 6 idle, -/
theorem idle1_6 : ∀ t : Fin cfg1.N, ¬storesAt (grid1.coords t) → cfg1.idle 6 (grid1.coords t) = true := by decide +kernel
/-- and the pipeline does not write its block back there; -/
theorem noFlush1_6 : ∀ t : Fin cfg1.N, ¬storesAt (grid1.coords t) → (cfg1.win 6).flush t = false := by decide +kernel
/-- where it does store it, the window is live. -/
theorem live1_6 : ∀ t : Fin cfg1.N, storesAt (grid1.coords t) → cfg1.idle 6 (grid1.coords t) = false := by decide +kernel

/-! ## The memrefs the pipeline calls the body with -/

abbrev ms1_0 (t : Fin cfg1.N) : Memref sig .tc .vmem S2944x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2944x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2944 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256x64 .f32 := win1_6.stage (cfg1.slots t 6)
abbrev hs1_6 (t : Fin cfg1.N) : (ms1_6 t).IsWhole := hstage1_6 ((cfg1.slots t 6).cast nbuf1_6)

/-- The accumulator: a whole scoped buffer of the kernel's own, passed beside the windows and carried between points. -/
abbrev acc1 : Memref sig .tc .vmem S1x256x64 .f32 := Memref.whole cc1_scratch0
/-- The accumulator as a view: what it holds is stated through it. -/
abbrev accV1 : View sig .tc .vmem S1x256x64 .f32 := acc1.view
/-- One staging buffer of the output window, through which its contents are stated (the choice does not matter). -/
abbrev outV1 : View sig .tc .vmem S1x256x64 .f32 := (Memref.whole cc1_stg6_0 : Memref sig .tc .vmem S1x256x64 .f32).view

/-! ## The region invariant's untouched part -/

/-- What the body never touches of the region invariant: the first pallas_call's nine staging buffers, each whole at
    some contents, and the generator register at some state. -/
def untouched1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ r, prngReg c r))

/-- Separating conjunction reassociated: the last of ten conjuncts inside brought to the front. -/
theorem sep_last_to_front {M : Type} [URA M] (A0 A1 A2 A3 A4 A5 A6 A7 A8 S G : sProp M) :
    (iprop((A0 ∗ A1 ∗ A2 ∗ A3 ∗ A4 ∗ A5 ∗ A6 ∗ A7 ∗ A8 ∗ S) ∗ G) : sProp M) = iprop(S ∗ A0 ∗ A1 ∗ A2 ∗ A3 ∗ A4 ∗ A5 ∗ A6 ∗ A7 ∗ A8 ∗ G) := by
  have h₁ : iprop((A0 ∗ A1 ∗ A2 ∗ A3 ∗ A4 ∗ A5 ∗ A6 ∗ A7 ∗ A8 ∗ S) ∗ G) ⊢ (iprop(S ∗ A0 ∗ A1 ∗ A2 ∗ A3 ∗ A4 ∗ A5 ∗ A6 ∗ A7 ∗ A8 ∗ G) : sProp M) := by
    iintro ⟨⟨R0, R1, R2, R3, R4, R5, R6, R7, R8, HS⟩, Hg⟩
    isplitl [HS]; · iexact HS
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact Hg
  have h₂ : iprop(S ∗ A0 ∗ A1 ∗ A2 ∗ A3 ∗ A4 ∗ A5 ∗ A6 ∗ A7 ∗ A8 ∗ G) ⊢ (iprop((A0 ∗ A1 ∗ A2 ∗ A3 ∗ A4 ∗ A5 ∗ A6 ∗ A7 ∗ A8 ∗ S) ∗ G) : sProp M) := by
    iintro ⟨HS, R0, R1, R2, R3, R4, R5, R6, R7, R8, Hg⟩
    isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HS
  exact BI.equiv_iff.mp ⟨h₁, h₂⟩

/-- The region invariant of the class (every scoped buffer that is no staging buffer of this call at some contents, the
    generator register at some state) is the accumulator owned at some contents beside the untouched part. -/
theorem PhiA1_eq (c : Dev nD) :
    (Pipeline.ΦA spec1 c : sProp 𝕄) = iprop((∃ d, owns (c : Thread nD τ) acc1 fullShare d) ∗ untouched1 (F := F) c) := by
  unfold Pipeline.ΦA; rw [scopedRest1_eq]; simp only [acc1, owns_whole]
  unfold untouched1
  exact sep_last_to_front ..

/-! ## The three runs -/

set_option maxHeartbeats 1000000 in
/-- THE FIRST STEP OF A SWEEP (`resetsAt i`, not `storesAt i`). On whole memrefs — the six inputs' at contents `x0 … x5`,
    the output window's at any contents `xi`, the accumulator at anything — the body runs to the continuation holding the
    inputs' and the output's as they were and the accumulator with the pieces `LS` written: the witness the run finds. -/
noncomputable def firstStepRun (c : Dev nD) (i : grid1.Coords) (arg2 : Memref sig .tc .vmem S2944x64 .f32) (harg2 : arg2.IsWhole) (arg3 : Memref sig .tc .vmem S2944x64 .bf16) (harg3 : arg3.IsWhole)
    (arg4 : Memref sig .tc .vmem S64x64 .f32) (harg4 : arg4.IsWhole) (arg5 : Memref sig .tc .vmem S1x64 .f32) (harg5 : arg5.IsWhole)
    (arg6 : Memref sig .tc .vmem S64x64 .f32) (harg6 : arg6.IsWhole) (arg7 : Memref sig .tc .vmem S1x2944 .i32) (harg7 : arg7.IsWhole)
    (arg8 : Memref sig .tc .vmem S1x256x64 .f32) (harg8 : arg8.IsWhole) (arg9 : Memref sig .tc .vmem S1x256x64 .f32) (harg9 : arg9.IsWhole)
    (hr : resetsAt i) (hs : ¬storesAt i)
    (x0 : Vec F S2944x64 .f32) (x1 : Vec F S2944x64 .bf16) (x2 : Vec F S64x64 .f32) (x3 : Vec F S1x64 .f32) (x4 : Vec F S64x64 .f32) (x5 : Vec F S1x2944 .i32) :
    { LS : List (View.Piece (Elt F) S1x256x64 .f32) //
      ∀ (xi : Vec F S1x256x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1__conv2_pool_kernel i arg2 harg2 arg3 harg3 arg4 harg4 arg5 harg5 arg6 harg6 arg7 harg7 arg8 harg8 arg9 harg9) K } := by
  refine ⟨?_, fun xi E K => ?run⟩
  case run =>
    simp only [cc1__conv2_pool_kernel_eq_skeleton]; unfold cc1__conv2_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hr | exact hs)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

set_option maxHeartbeats 1000000 in
/-- A MIDDLE STEP (neither `resetsAt i` nor `storesAt i`). As the first step's run, but the accumulator comes in at the
    contents `xs` the point before left in it, which the body reads. -/
noncomputable def middleStepRun (c : Dev nD) (i : grid1.Coords) (arg2 : Memref sig .tc .vmem S2944x64 .f32) (harg2 : arg2.IsWhole) (arg3 : Memref sig .tc .vmem S2944x64 .bf16) (harg3 : arg3.IsWhole)
    (arg4 : Memref sig .tc .vmem S64x64 .f32) (harg4 : arg4.IsWhole) (arg5 : Memref sig .tc .vmem S1x64 .f32) (harg5 : arg5.IsWhole)
    (arg6 : Memref sig .tc .vmem S64x64 .f32) (harg6 : arg6.IsWhole) (arg7 : Memref sig .tc .vmem S1x2944 .i32) (harg7 : arg7.IsWhole)
    (arg8 : Memref sig .tc .vmem S1x256x64 .f32) (harg8 : arg8.IsWhole) (arg9 : Memref sig .tc .vmem S1x256x64 .f32) (harg9 : arg9.IsWhole)
    (hr : ¬resetsAt i) (hs : ¬storesAt i)
    (x0 : Vec F S2944x64 .f32) (x1 : Vec F S2944x64 .bf16) (x2 : Vec F S64x64 .f32) (x3 : Vec F S1x64 .f32) (x4 : Vec F S64x64 .f32) (x5 : Vec F S1x2944 .i32) (xs : Vec F S1x256x64 .f32) :
    { LS : List (View.Piece (Elt F) S1x256x64 .f32) //
      ∀ (xi : Vec F S1x256x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1__conv2_pool_kernel i arg2 harg2 arg3 harg3 arg4 harg4 arg5 harg5 arg6 harg6 arg7 harg7 arg8 harg8 arg9 harg9) K } := by
  refine ⟨?_, fun xi E K => ?run⟩
  case run =>
    simp only [cc1__conv2_pool_kernel_eq_skeleton]; unfold cc1__conv2_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs
    sl_exec (disch := first | exact hr | exact hs)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

set_option maxHeartbeats 1000000 in
/-- THE LAST STEP OF A SWEEP (`storesAt i`, not `resetsAt i`). The accumulator comes in at `xs`; the output window's
    memref at anything, and leaves with the pieces `LO` written — the accumulator's new contents, stored whole. The
    witness is the pair of piece lists. -/
noncomputable def lastStepRun (c : Dev nD) (i : grid1.Coords) (arg2 : Memref sig .tc .vmem S2944x64 .f32) (harg2 : arg2.IsWhole) (arg3 : Memref sig .tc .vmem S2944x64 .bf16) (harg3 : arg3.IsWhole)
    (arg4 : Memref sig .tc .vmem S64x64 .f32) (harg4 : arg4.IsWhole) (arg5 : Memref sig .tc .vmem S1x64 .f32) (harg5 : arg5.IsWhole)
    (arg6 : Memref sig .tc .vmem S64x64 .f32) (harg6 : arg6.IsWhole) (arg7 : Memref sig .tc .vmem S1x2944 .i32) (harg7 : arg7.IsWhole)
    (arg8 : Memref sig .tc .vmem S1x256x64 .f32) (harg8 : arg8.IsWhole) (arg9 : Memref sig .tc .vmem S1x256x64 .f32) (harg9 : arg9.IsWhole)
    (hr : ¬resetsAt i) (hs : storesAt i)
    (x0 : Vec F S2944x64 .f32) (x1 : Vec F S2944x64 .bf16) (x2 : Vec F S64x64 .f32) (x3 : Vec F S1x64 .f32) (x4 : Vec F S64x64 .f32) (x5 : Vec F S1x2944 .i32) (xs : Vec F S1x256x64 .f32) :
    Σ' (LO : List (View.Piece (Elt F) S1x256x64 .f32)), { LS : List (View.Piece (Elt F) S1x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc1__conv2_pool_kernel i arg2 harg2 arg3 harg3 arg4 harg4 arg5 harg5 arg6 harg6 arg7 harg7 arg8 harg8 arg9 harg9) K } := by
  refine ⟨?_, ?_, fun E K => ?run⟩
  case run =>
    simp only [cc1__conv2_pool_kernel_eq_skeleton]; unfold cc1__conv2_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs
    sl_exec (disch := first | exact hr | exact hs)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.Kernel.Hand

end
-- ==== Proof.K.Region1.lean ====
import proofs.«410272_j33930241638933_2_alg».proof.Proof.K.Region1Runs
import Idealize.ShloMosaic.Lib.Pipeline.Value

/-! # The pooling call's frame half, at the contents its region is entered with

Stated at a PARAMETER `V`: the TensorCore's buffer contents when the second pallas_call is entered. Over it: each
window's block at a point (`iblk1`); what each control case leaves in the accumulator and in the output block, read back
from the pieces its run found; what both hold point by point (`outsAt1`, with one equation per control case); the
invariant that carries the accumulator's contents from a point to the next (`PhiS1`); the pipeline's proof data
(`dat1`) and its body obligation. Last, each piece read as the body's arithmetic (the payloads of the skeleton).
Everything is generic in the float instance. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (three of the six are
    fetched at the first point only: their block index never moves), for ANY proof data whose array is `V`'s and whose
    body leaves the block in place: the windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What each control case leaves: the pieces its run found, read back -/

section Cases
variable (c : Dev nD) (i : grid1.Coords) (arg2 : Memref sig .tc .vmem S2944x64 .f32) (harg2 : arg2.IsWhole) (arg3 : Memref sig .tc .vmem S2944x64 .bf16) (harg3 : arg3.IsWhole)
    (arg4 : Memref sig .tc .vmem S64x64 .f32) (harg4 : arg4.IsWhole) (arg5 : Memref sig .tc .vmem S1x64 .f32) (harg5 : arg5.IsWhole)
    (arg6 : Memref sig .tc .vmem S64x64 .f32) (harg6 : arg6.IsWhole) (arg7 : Memref sig .tc .vmem S1x2944 .i32) (harg7 : arg7.IsWhole)
    (arg8 : Memref sig .tc .vmem S1x256x64 .f32) (harg8 : arg8.IsWhole) (arg9 : Memref sig .tc .vmem S1x256x64 .f32) (harg9 : arg9.IsWhole)
  (x0 : Vec F S2944x64 .f32) (x1 : Vec F S2944x64 .bf16) (x2 : Vec F S64x64 .f32) (x3 : Vec F S1x64 .f32) (x4 : Vec F S64x64 .f32) (x5 : Vec F S1x2944 .i32)

/-- The first step's pieces for the accumulator cover it. -/
theorem cover_acc_first (hr : resetsAt i) (hs : ¬storesAt i) (y : S1x256x64.Idx) :
    ∃ pc ∈ (firstStepRun c i arg2 harg2 arg3 harg3 arg4 harg4 arg5 harg5 arg6 harg6 arg7 harg7 arg8 harg8 arg9 harg9 hr hs x0 x1 x2 x3 x4 x5).1, y ∈ pc.1.set :=
  View.cover_of_tiledL (firstStepRun c i arg2 harg2 arg3 harg3 arg4 harg4 arg5 harg5 arg6 harg6 arg7 harg7 arg8 harg8 arg9 harg9 hr hs x0 x1 x2 x3 x4 x5).1 S1x256x64.size (by sl_kernel_rfl) y

/-- What the first step of a sweep leaves in the accumulator. -/
def accAfterFirst (hr : resetsAt i) (hs : ¬storesAt i) : Vec F S1x256x64 .f32 :=
  accV1.read (Elt F) (accV1.writes (Elt F) accV1.junk (firstStepRun c i arg2 harg2 arg3 harg3 arg4 harg4 arg5 harg5 arg6 harg6 arg7 harg7 arg8 harg8 arg9 harg9 hr hs x0 x1 x2 x3 x4 x5).1)

/-- A middle step's pieces for the accumulator cover it. -/
theorem cover_acc_middle (hr : ¬resetsAt i) (hs : ¬storesAt i) (xs : Vec F S1x256x64 .f32) (y : S1x256x64.Idx) :
    ∃ pc ∈ (middleStepRun c i arg2 harg2 arg3 harg3 arg4 harg4 arg5 harg5 arg6 harg6 arg7 harg7 arg8 harg8 arg9 harg9 hr hs x0 x1 x2 x3 x4 x5 xs).1, y ∈ pc.1.set :=
  View.cover_of_tiledL (middleStepRun c i arg2 harg2 arg3 harg3 arg4 harg4 arg5 harg5 arg6 harg6 arg7 harg7 arg8 harg8 arg9 harg9 hr hs x0 x1 x2 x3 x4 x5 xs).1 S1x256x64.size (by sl_kernel_rfl) y

/-- What a middle step leaves in the accumulator, from what the point before left there (`xs`). -/
def accAfterMiddle (hr : ¬resetsAt i) (hs : ¬storesAt i) (xs : Vec F S1x256x64 .f32) : Vec F S1x256x64 .f32 :=
  accV1.read (Elt F) (accV1.writes (Elt F) accV1.junk (middleStepRun c i arg2 harg2 arg3 harg3 arg4 harg4 arg5 harg5 arg6 harg6 arg7 harg7 arg8 harg8 arg9 harg9 hr hs x0 x1 x2 x3 x4 x5 xs).1)

/-- The last step's pieces for the accumulator cover it, -/
theorem cover_acc_last (hr : ¬resetsAt i) (hs : storesAt i) (xs : Vec F S1x256x64 .f32) (y : S1x256x64.Idx) :
    ∃ pc ∈ (lastStepRun c i arg2 harg2 arg3 harg3 arg4 harg4 arg5 harg5 arg6 harg6 arg7 harg7 arg8 harg8 arg9 harg9 hr hs x0 x1 x2 x3 x4 x5 xs).2.1, y ∈ pc.1.set :=
  View.cover_of_tiledL (lastStepRun c i arg2 harg2 arg3 harg3 arg4 harg4 arg5 harg5 arg6 harg6 arg7 harg7 arg8 harg8 arg9 harg9 hr hs x0 x1 x2 x3 x4 x5 xs).2.1 S1x256x64.size (by sl_kernel_rfl) y

/-- and its pieces for the output block cover that. -/
theorem cover_out_last (hr : ¬resetsAt i) (hs : storesAt i) (xs : Vec F S1x256x64 .f32) (y : S1x256x64.Idx) :
    ∃ pc ∈ (lastStepRun c i arg2 harg2 arg3 harg3 arg4 harg4 arg5 harg5 arg6 harg6 arg7 harg7 arg8 harg8 arg9 harg9 hr hs x0 x1 x2 x3 x4 x5 xs).1, y ∈ pc.1.set :=
  View.cover_of_tiledL (lastStepRun c i arg2 harg2 arg3 harg3 arg4 harg4 arg5 harg5 arg6 harg6 arg7 harg7 arg8 harg8 arg9 harg9 hr hs x0 x1 x2 x3 x4 x5 xs).1 S1x256x64.size (by sl_kernel_rfl) y

/-- What the last step of a sweep leaves in the accumulator, -/
def accAfterLast (hr : ¬resetsAt i) (hs : storesAt i) (xs : Vec F S1x256x64 .f32) : Vec F S1x256x64 .f32 :=
  accV1.read (Elt F) (accV1.writes (Elt F) accV1.junk (lastStepRun c i arg2 harg2 arg3 harg3 arg4 harg4 arg5 harg5 arg6 harg6 arg7 harg7 arg8 harg8 arg9 harg9 hr hs x0 x1 x2 x3 x4 x5 xs).2.1)

/-- and in the output window's staging buffer. -/
def outAfterLast (hr : ¬resetsAt i) (hs : storesAt i) (xs : Vec F S1x256x64 .f32) : Vec F S1x256x64 .f32 :=
  outV1.read (Elt F) (outV1.writes (Elt F) outV1.junk (lastStepRun c i arg2 harg2 arg3 harg3 arg4 harg4 arg5 harg5 arg6 harg6 arg7 harg7 arg8 harg8 arg9 harg9 hr hs x0 x1 x2 x3 x4 x5 xs).1)

/-! ### Each found piece read as the body's arithmetic

The runs' witnesses opened: every access of the body is a whole-buffer one at the origin, so a piece list's contents
are its last store's payload, a load of an input is the input, and a load of the accumulator after a store into it is
what was stored. -/

/-- The offsets of every access of the body: the origin. -/
theorem zero_off2 : (![0, 0] : Fin 2 → Nat) = fun _ => 0 := funext fun a => by fin_cases a <;> rfl
theorem zero_off3 : (![0, 0, 0] : Fin 3 → Nat) = fun _ => 0 := funext fun a => by fin_cases a <;> rfl

/-- THE FIRST STEP, READ: the accumulator is reset to zero (`k1_pay2`), and the point's pooled contribution of its six
    blocks added to that (`k1_pay3`); stored back through an identity reshape (`k1_pay1`). -/
theorem accAfterFirst_eq (hr : resetsAt i) (hs : ¬storesAt i) :
    accAfterFirst c i arg2 harg2 arg3 harg3 arg4 harg4 arg5 harg5 arg6 harg6 arg7 harg7 arg8 harg8 arg9 harg9 x0 x1 x2 x3 x4 x5 hr hs = k1_pay1 (k1_pay3 x0 x1 x2 x4 x3 x5 (k1_pay2 (F := F))) := by
  unfold accAfterFirst
  rw [View.read_writes_eq_canon _ _ _ (cover_acc_first c i arg2 harg2 arg3 harg3 arg4 harg4 arg5 harg5 arg6 harg6 arg7 harg7 arg8 harg8 arg9 harg9 x0 x1 x2 x3 x4 x5 hr hs)]
  unfold firstStepRun
  dsimp only
  sl_unfold_words
  rw [View.canon_cons_unit_zero (S := S1x256x64) zero_off3]
  simp only [View.readAt_eq_ld, harg2.read_unread, harg3.read_unread, harg4.read_unread, harg5.read_unread, harg6.read_unread, harg7.read_unread, harg9.read_unread,
    View.ld_unit_zero (S := S2944x64) zero_off2, View.ld_unit_zero (S := S64x64) zero_off2, View.ld_unit_zero (S := S1x64) zero_off2,
    View.ld_unit_zero (S := S1x2944) zero_off2, View.ld_unit_zero (S := S1x256x64) zero_off3,
    View.readCov_unit_zero (S := S1x256x64) _ zero_off3]

/-- A MIDDLE STEP, READ: the point's pooled contribution added to what the point before left (`xs`). -/
theorem accAfterMiddle_eq (hr : ¬resetsAt i) (hs : ¬storesAt i) (xs : Vec F S1x256x64 .f32) :
    accAfterMiddle c i arg2 harg2 arg3 harg3 arg4 harg4 arg5 harg5 arg6 harg6 arg7 harg7 arg8 harg8 arg9 harg9 x0 x1 x2 x3 x4 x5 hr hs xs = k1_pay1 (k1_pay3 x0 x1 x2 x4 x3 x5 xs) := by
  unfold accAfterMiddle
  rw [View.read_writes_eq_canon _ _ _ (cover_acc_middle c i arg2 harg2 arg3 harg3 arg4 harg4 arg5 harg5 arg6 harg6 arg7 harg7 arg8 harg8 arg9 harg9 x0 x1 x2 x3 x4 x5 hr hs xs)]
  unfold middleStepRun
  dsimp only
  sl_unfold_words
  rw [View.canon_unit_zero (S := S1x256x64) zero_off3]
  simp only [View.readAt_eq_ld, harg2.read_unread, harg3.read_unread, harg4.read_unread, harg5.read_unread, harg6.read_unread, harg7.read_unread, harg9.read_unread,
    View.ld_unit_zero (S := S2944x64) zero_off2, View.ld_unit_zero (S := S64x64) zero_off2, View.ld_unit_zero (S := S1x64) zero_off2,
    View.ld_unit_zero (S := S1x2944) zero_off2, View.ld_unit_zero (S := S1x256x64) zero_off3,
    View.readCov_unit_zero (S := S1x256x64) _ zero_off3]

/-- THE LAST STEP, READ, the accumulator: as a middle step. -/
theorem accAfterLast_eq (hr : ¬resetsAt i) (hs : storesAt i) (xs : Vec F S1x256x64 .f32) :
    accAfterLast c i arg2 harg2 arg3 harg3 arg4 harg4 arg5 harg5 arg6 harg6 arg7 harg7 arg8 harg8 arg9 harg9 x0 x1 x2 x3 x4 x5 hr hs xs = k1_pay1 (k1_pay3 x0 x1 x2 x4 x3 x5 xs) := by
  unfold accAfterLast
  rw [View.read_writes_eq_canon _ _ _ (cover_acc_last c i arg2 harg2 arg3 harg3 arg4 harg4 arg5 harg5 arg6 harg6 arg7 harg7 arg8 harg8 arg9 harg9 x0 x1 x2 x3 x4 x5 hr hs xs)]
  unfold lastStepRun
  dsimp only
  sl_unfold_words
  rw [View.canon_unit_zero (S := S1x256x64) zero_off3]
  simp only [View.readAt_eq_ld, harg2.read_unread, harg3.read_unread, harg4.read_unread, harg5.read_unread, harg6.read_unread, harg7.read_unread, harg9.read_unread,
    View.ld_unit_zero (S := S2944x64) zero_off2, View.ld_unit_zero (S := S64x64) zero_off2, View.ld_unit_zero (S := S1x64) zero_off2,
    View.ld_unit_zero (S := S1x2944) zero_off2, View.ld_unit_zero (S := S1x256x64) zero_off3,
    View.readCov_unit_zero (S := S1x256x64) _ zero_off3]

/-- THE LAST STEP, READ, the output block: the accumulator's new contents, loaded back and stored whole. -/
theorem outAfterLast_eq (hr : ¬resetsAt i) (hs : storesAt i) (xs : Vec F S1x256x64 .f32) :
    outAfterLast c i arg2 harg2 arg3 harg3 arg4 harg4 arg5 harg5 arg6 harg6 arg7 harg7 arg8 harg8 arg9 harg9 x0 x1 x2 x3 x4 x5 hr hs xs = k1_pay1 (k1_pay3 x0 x1 x2 x4 x3 x5 xs) := by
  unfold outAfterLast
  rw [View.read_writes_eq_canon _ _ _ (cover_out_last c i arg2 harg2 arg3 harg3 arg4 harg4 arg5 harg5 arg6 harg6 arg7 harg7 arg8 harg8 arg9 harg9 x0 x1 x2 x3 x4 x5 hr hs xs)]
  unfold lastStepRun
  dsimp only
  sl_unfold_words
  rw [View.canon_unit_zero (S := S1x256x64) zero_off3, View.readCov_unit_zero (S := S1x256x64) _ zero_off3]
  simp only [View.readAt_eq_ld, harg2.read_unread, harg3.read_unread, harg4.read_unread, harg5.read_unread, harg6.read_unread, harg7.read_unread, harg9.read_unread,
    View.ld_unit_zero (S := S2944x64) zero_off2, View.ld_unit_zero (S := S64x64) zero_off2, View.ld_unit_zero (S := S1x64) zero_off2,
    View.ld_unit_zero (S := S1x2944) zero_off2, View.ld_unit_zero (S := S1x256x64) zero_off3,
    View.readCov_unit_zero (S := S1x256x64) _ zero_off3]

end Cases

/-! ## The cases at a grid point, on the memrefs and blocks the pipeline hands the body there -/

theorem not_storesAt_of_first (t : Fin cfg1.N) (h0 : t.val % 17 = 0) : ¬storesAt (grid1.coords t) :=
  fun h => by have := (storesAt_iff t).mp h; omega
theorem not_resetsAt_of (t : Fin cfg1.N) (h0 : ¬t.val % 17 = 0) : ¬resetsAt (grid1.coords t) :=
  fun h => h0 ((resetsAt_iff t).mp h)
theorem not_storesAt_of (t : Fin cfg1.N) (h16 : ¬t.val % 17 = 16) : ¬storesAt (grid1.coords t) :=
  fun h => h16 ((storesAt_iff t).mp h)

/-- The accumulator after point `t`, a sweep's first step. -/
def accFirstAt (c : Dev nD) (t : Fin cfg1.N) (h0 : t.val % 17 = 0) : Vec F S1x256x64 .f32 :=
  accAfterFirst c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1 (Memref.isWhole_whole _) (iblk1 V c 0 t) (iblk1 V c 1 t) (iblk1 V c 2 t) (iblk1 V c 3 t) (iblk1 V c 4 t) (iblk1 V c 5 t) ((resetsAt_iff t).mpr h0) (not_storesAt_of_first t h0)

/-- The accumulator after point `t`, a middle step, from what the point before left in it. -/
def accMiddleAt (c : Dev nD) (t : Fin cfg1.N) (h0 : ¬t.val % 17 = 0) (h16 : ¬t.val % 17 = 16) (xs : Vec F S1x256x64 .f32) : Vec F S1x256x64 .f32 :=
  accAfterMiddle c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1 (Memref.isWhole_whole _) (iblk1 V c 0 t) (iblk1 V c 1 t) (iblk1 V c 2 t) (iblk1 V c 3 t) (iblk1 V c 4 t) (iblk1 V c 5 t) (not_resetsAt_of t h0) (not_storesAt_of t h16) xs

/-- The accumulator after point `t`, a sweep's last step, -/
def accLastAt (c : Dev nD) (t : Fin cfg1.N) (h0 : ¬t.val % 17 = 0) (h16 : t.val % 17 = 16) (xs : Vec F S1x256x64 .f32) : Vec F S1x256x64 .f32 :=
  accAfterLast c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1 (Memref.isWhole_whole _) (iblk1 V c 0 t) (iblk1 V c 1 t) (iblk1 V c 2 t) (iblk1 V c 3 t) (iblk1 V c 4 t) (iblk1 V c 5 t) (not_resetsAt_of t h0) ((storesAt_iff t).mpr h16) xs

/-- and the output window's staging buffer there. -/
def outLastAt (c : Dev nD) (t : Fin cfg1.N) (h0 : ¬t.val % 17 = 0) (h16 : t.val % 17 = 16) (xs : Vec F S1x256x64 .f32) : Vec F S1x256x64 .f32 :=
  outAfterLast c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1 (Memref.isWhole_whole _) (iblk1 V c 0 t) (iblk1 V c 1 t) (iblk1 V c 2 t) (iblk1 V c 3 t) (iblk1 V c 4 t) (iblk1 V c 5 t) (not_resetsAt_of t h0) ((storesAt_iff t).mpr h16) xs

/-! ## What the output window's buffer and the accumulator hold after each point -/

/-- THE ACCUMULATION. After the body at position `n`: (the output window's staging buffer, the accumulator). The case is
    read off `n % 17`; a middle or last step runs over what position `n - 1` left in the accumulator. Where the body
    leaves the output window idle (first and middle steps) its buffer is handed back untouched and is neither written
    back nor read later: the first component is then a placeholder nothing consults, set to the accumulator's contents. -/
def outsAt1 (c : Dev nD) : (n : ℕ) → n < cfg1.N → Vec F S1x256x64 .f32 × Vec F S1x256x64 .f32
  | 0, hn => (accFirstAt V c ⟨0, hn⟩ (Nat.zero_mod _), accFirstAt V c ⟨0, hn⟩ (Nat.zero_mod _))
  | n + 1, hn =>
    if h0 : (n + 1) % 17 = 0 then
      (accFirstAt V c ⟨n + 1, hn⟩ h0, accFirstAt V c ⟨n + 1, hn⟩ h0)
    else
      if h16 : (n + 1) % 17 = 16 then
        (outLastAt V c ⟨n + 1, hn⟩ h0 h16 (outsAt1 c n (Nat.lt_of_succ_lt hn)).2, accLastAt V c ⟨n + 1, hn⟩ h0 h16 (outsAt1 c n (Nat.lt_of_succ_lt hn)).2)
      else
        (accMiddleAt V c ⟨n + 1, hn⟩ h0 h16 (outsAt1 c n (Nat.lt_of_succ_lt hn)).2, accMiddleAt V c ⟨n + 1, hn⟩ h0 h16 (outsAt1 c n (Nat.lt_of_succ_lt hn)).2)

/-- The accumulator as the point before `t` left it. -/
abbrev accBefore1 (c : Dev nD) (t : Fin cfg1.N) : Vec F S1x256x64 .f32 :=
  (outsAt1 V c (t.val - 1) (Nat.lt_of_le_of_lt (Nat.sub_le _ _) t.isLt)).2

/-- `outsAt1` at a sweep's first step (`t % 17 = 0`: points 0 and 17): the accumulator reset, then this point's
    contribution; nothing of the point before. -/
theorem outsAt1_A (c : Dev nD) (t : Fin cfg1.N) (h0 : t.val % 17 = 0) :
    outsAt1 V c t.val t.isLt = (accFirstAt V c t h0, accFirstAt V c t h0) := by
  obtain ⟨n, hn⟩ := t
  cases n with
  | zero => exact rfl
  | succ n => exact dif_pos h0

/-- `outsAt1` at a middle step: this point's contribution added to what the point before left. -/
theorem outsAt1_B (c : Dev nD) (t : Fin cfg1.N) (h0 : ¬t.val % 17 = 0) (h16 : ¬t.val % 17 = 16) :
    outsAt1 V c t.val t.isLt = (accMiddleAt V c t h0 h16 (accBefore1 V c t), accMiddleAt V c t h0 h16 (accBefore1 V c t)) := by
  obtain ⟨n, hn⟩ := t
  cases n with
  | zero => exact absurd (Nat.zero_mod _) h0
  | succ n => exact (dif_neg h0).trans ((dif_neg h16).trans rfl)

/-- `outsAt1` at a sweep's last step (`t % 17 = 16`: points 16 and 33): the same accumulation, and the output block
    stored. -/
theorem outsAt1_C (c : Dev nD) (t : Fin cfg1.N) (h0 : ¬t.val % 17 = 0) (h16 : t.val % 17 = 16) :
    outsAt1 V c t.val t.isLt = (outLastAt V c t h0 h16 (accBefore1 V c t), accLastAt V c t h0 h16 (accBefore1 V c t)) := by
  obtain ⟨n, hn⟩ := t
  cases n with
  | zero => exact absurd (Nat.zero_mod _) h0
  | succ n => exact (dif_neg h0).trans ((dif_pos h16).trans rfl)

/-! ## The accumulation read as the body's arithmetic, point by point -/

/-- One point's update of the accumulator: the pooled contribution of point `t`'s six blocks (`k1_pay3`: the two
    matmuls, the bias, `tanh`, then the one-hot pooling matmul) added to `s`, through the body's identity reshape
    (`k1_pay1`). The blocks go to the payload in the order of its loads: windows 0, 1, 2, 4, 3, 5. -/
def stepAt1 (c : Dev nD) (t : Fin cfg1.N) (s : Vec F S1x256x64 .f32) : Vec F S1x256x64 .f32 :=
  k1_pay1 (k1_pay3 (iblk1 V c 0 t) (iblk1 V c 1 t) (iblk1 V c 2 t) (iblk1 V c 4 t) (iblk1 V c 3 t) (iblk1 V c 5 t) s)

/-- After a sweep's first step the accumulator holds that point's update of ZERO (`k1_pay2`), whatever it held. -/
theorem acc_first (c : Dev nD) (t : Fin cfg1.N) (h0 : t.val % 17 = 0) :
    (outsAt1 V c t.val t.isLt).2 = stepAt1 V c t (k1_pay2 (F := F)) := by
  rw [outsAt1_A V c t h0]; dsimp only
  unfold accFirstAt stepAt1
  exact accAfterFirst_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1 (Memref.isWhole_whole _) (iblk1 V c 0 t) (iblk1 V c 1 t) (iblk1 V c 2 t) (iblk1 V c 3 t) (iblk1 V c 4 t) (iblk1 V c 5 t) ((resetsAt_iff t).mpr h0) (not_storesAt_of_first t h0)

/-- After a middle step it holds that point's update of what the point before left. -/
theorem acc_middle (c : Dev nD) (t : Fin cfg1.N) (h0 : ¬t.val % 17 = 0) (h16 : ¬t.val % 17 = 16) :
    (outsAt1 V c t.val t.isLt).2 = stepAt1 V c t (accBefore1 V c t) := by
  rw [outsAt1_B V c t h0 h16]; dsimp only
  unfold accMiddleAt stepAt1
  exact accAfterMiddle_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1 (Memref.isWhole_whole _) (iblk1 V c 0 t) (iblk1 V c 1 t) (iblk1 V c 2 t) (iblk1 V c 3 t) (iblk1 V c 4 t) (iblk1 V c 5 t) (not_resetsAt_of t h0) (not_storesAt_of t h16) (accBefore1 V c t)

/-- After a sweep's last step likewise, -/
theorem acc_last (c : Dev nD) (t : Fin cfg1.N) (h0 : ¬t.val % 17 = 0) (h16 : t.val % 17 = 16) :
    (outsAt1 V c t.val t.isLt).2 = stepAt1 V c t (accBefore1 V c t) := by
  rw [outsAt1_C V c t h0 h16]; dsimp only
  unfold accLastAt stepAt1
  exact accAfterLast_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1 (Memref.isWhole_whole _) (iblk1 V c 0 t) (iblk1 V c 1 t) (iblk1 V c 2 t) (iblk1 V c 3 t) (iblk1 V c 4 t) (iblk1 V c 5 t) (not_resetsAt_of t h0) ((storesAt_iff t).mpr h16) (accBefore1 V c t)

/-- and the output window's staging buffer, which the pipeline then writes back, holds the same. -/
theorem out_last (c : Dev nD) (t : Fin cfg1.N) (h0 : ¬t.val % 17 = 0) (h16 : t.val % 17 = 16) :
    (outsAt1 V c t.val t.isLt).1 = stepAt1 V c t (accBefore1 V c t) := by
  rw [outsAt1_C V c t h0 h16]; dsimp only
  unfold outLastAt stepAt1
  exact outAfterLast_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1 (Memref.isWhole_whole _) (iblk1 V c 0 t) (iblk1 V c 1 t) (iblk1 V c 2 t) (iblk1 V c 3 t) (iblk1 V c 4 t) (iblk1 V c 5 t) (not_resetsAt_of t h0) ((storesAt_iff t).mpr h16) (accBefore1 V c t)

/-- At every point that is not a sweep's first step the accumulator holds the point's update of what the point before
    left. -/
theorem acc_step (c : Dev nD) (t : Fin cfg1.N) (h0 : ¬t.val % 17 = 0) :
    (outsAt1 V c t.val t.isLt).2 = stepAt1 V c t (accBefore1 V c t) := by
  by_cases h16 : t.val % 17 = 16
  · exact acc_last V c t h0 h16
  · exact acc_middle V c t h0 h16

/-! ## The invariant: the accumulator's contents carried from point to point -/

/-- The region invariant before position `n`: before the first point the class's (every scoped buffer of the core that
    is no staging buffer of this call at some contents, the generator register at some state); afterwards the
    accumulator at what position `n - 1` left in it, beside the part the body never touches. -/
def PhiS1 (c : Dev nD) : (n : ℕ) → n ≤ cfg1.N → sProp 𝕄
  | 0, _ => Pipeline.ΦA spec1 c
  | n + 1, hn => iprop(owns (c : Thread nD τ) acc1 fullShare ((outsAt1 V c n hn).2) ∗ untouched1 (F := F) c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) acc1 fullShare ((outsAt1 V c n hn).2) ∗ untouched1 (F := F) c) := rfl

theorem PhiS1_pos (c : Dev nD) (n : ℕ) (h : n ≤ cfg1.N) (hz : n ≠ 0) :
    PhiS1 V c n h = iprop(owns (c : Thread nD τ) acc1 fullShare ((outsAt1 V c (n - 1) (by omega)).2) ∗ untouched1 (F := F) c) := by
  cases n with
  | zero => exact absurd rfl hz
  | succ n => rfl

/-! ## The pipeline's proof data -/

/-- The proof data of the pooling call's pipeline on core `c`: the arrays as the region finds them (`V`); after the body
    at point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

/-- An input window is live everywhere, so the body hands its buffer back at what it leaves there: its block. -/
theorem leaves1_0 (c : Dev nD) (t : Fin cfg1.N) :
    (dat1 V c).leavesExact 0 t = owns (c : Thread nD τ) (ms1_0 t) fullShare (iblk1 V c 0 t) := by
  unfold Dat.leavesExact; rw [live1_in 0 (by decide) t, after1_0]
theorem leaves1_1 (c : Dev nD) (t : Fin cfg1.N) :
    (dat1 V c).leavesExact 1 t = owns (c : Thread nD τ) (ms1_1 t) fullShare (iblk1 V c 1 t) := by
  unfold Dat.leavesExact; rw [live1_in 1 (by decide) t, after1_1]
theorem leaves1_2 (c : Dev nD) (t : Fin cfg1.N) :
    (dat1 V c).leavesExact 2 t = owns (c : Thread nD τ) (ms1_2 t) fullShare (iblk1 V c 2 t) := by
  unfold Dat.leavesExact; rw [live1_in 2 (by decide) t, after1_2]
theorem leaves1_3 (c : Dev nD) (t : Fin cfg1.N) :
    (dat1 V c).leavesExact 3 t = owns (c : Thread nD τ) (ms1_3 t) fullShare (iblk1 V c 3 t) := by
  unfold Dat.leavesExact; rw [live1_in 3 (by decide) t, after1_3]
theorem leaves1_4 (c : Dev nD) (t : Fin cfg1.N) :
    (dat1 V c).leavesExact 4 t = owns (c : Thread nD τ) (ms1_4 t) fullShare (iblk1 V c 4 t) := by
  unfold Dat.leavesExact; rw [live1_in 4 (by decide) t, after1_4]
theorem leaves1_5 (c : Dev nD) (t : Fin cfg1.N) :
    (dat1 V c).leavesExact 5 t = owns (c : Thread nD τ) (ms1_5 t) fullShare (iblk1 V c 5 t) := by
  unfold Dat.leavesExact; rw [live1_in 5 (by decide) t, after1_5]

set_option maxHeartbeats 4800000 in
/-- The body at any point. The inputs' memrefs hold their blocks; `t % 17` says which case the point is in, and that
    case's run applies. The invariant hands the body the accumulator — at anything before the very first point, else
    at what the point before left — and takes it back at this point's contents (the run's pieces cover it); the first
    step of the SECOND sweep (point 17) finds the first sweep's last contents there and overwrites them. Where the
    body does not store the output block its buffer goes back untouched; at a last step it goes back at the pieces
    written, which cover it. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5]
  have hN : t.val < 34 := lt_of_lt_of_eq t.isLt (show cfg1.N = 34 from N_1)
  by_cases h0 : t.val % 17 = 0
  · rw [Dat.leavesExact_idle (dat1 V c) 6 t (idle1_6 t (not_storesAt_of_first t h0)) (noFlush1_6 t (not_storesAt_of_first t h0))]
    rw [outsAt1_A V c t h0]
    unfold accFirstAt accAfterFirst; (try dsimp only)
    by_cases hz : t.val = 0
    · rw [PhiS1_castSucc V c t, PhiS1_zero V c _ _ hz, PhiA1_eq]
      iintro ⟨⟨HS, Hu⟩, Ho, ⟨%d0, H0⟩, ⟨%d1, H1⟩, ⟨%d2, H2⟩, ⟨%d3, H3⟩, ⟨%d4, H4⟩, ⟨%d5, H5⟩, ⟨%d6, H6⟩⟩
      iapply ((firstStepRun c (grid1.coords t) _ _ _ _ _ _ _ _ _ _ _ _ _ _ _ _ ((resetsAt_iff t).mpr h0) (not_storesAt_of_first t h0) (iblk1 V c 0 t) (iblk1 V c 1 t) (iblk1 V c 2 t) (iblk1 V c 3 t) (iblk1 V c 4 t) (iblk1 V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hu]
      · isplitl [HS]
        · unfold owns; iexists _; isplitr
          swap; · iexact HS
          ipureintro; exact View.read_writes_of_cover _ _ _ _ _ (cover_acc_first c _ _ _ _ _ _ _ _ _ _ _ _ _ _ _ _ _ _ _ _ _ _ _ _ _)
        iexact Hu
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨HS, Hu⟩, Ho, ⟨%d0, H0⟩, ⟨%d1, H1⟩, ⟨%d2, H2⟩, ⟨%d3, H3⟩, ⟨%d4, H4⟩, ⟨%d5, H5⟩, ⟨%d6, H6⟩⟩
      iapply ((firstStepRun c (grid1.coords t) _ _ _ _ _ _ _ _ _ _ _ _ _ _ _ _ ((resetsAt_iff t).mpr h0) (not_storesAt_of_first t h0) (iblk1 V c 0 t) (iblk1 V c 1 t) (iblk1 V c 2 t) (iblk1 V c 3 t) (iblk1 V c 4 t) (iblk1 V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HS Hu]
      · isplitl [HS]
        · unfold owns; iexists _; isplitr
          swap; · iexact HS
          ipureintro; exact View.read_writes_of_cover _ _ _ _ _ (cover_acc_first c _ _ _ _ _ _ _ _ _ _ _ _ _ _ _ _ _ _ _ _ _ _ _ _ _)
        iexact Hu
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h16 : t.val % 17 = 16
    · rw [show (dat1 V c).leavesExact 6 t = owns (c : Thread nD τ) (ms1_6 t) fullShare ((dat1 V c).after 6 t) from by
        unfold Dat.leavesExact; rw [live1_6 t ((storesAt_iff t).mpr h16)], after1_6]
      rw [outsAt1_C V c t h0 h16]
      unfold outLastAt accLastAt outAfterLast accAfterLast; (try dsimp only)
      rw [PhiS1_castSucc V c t, PhiS1_pos V c _ _ hz]
      iintro ⟨⟨HS, Hu⟩, Ho, ⟨%d0, H0⟩, ⟨%d1, H1⟩, ⟨%d2, H2⟩, ⟨%d3, H3⟩, ⟨%d4, H4⟩, ⟨%d5, H5⟩, ⟨%d6, H6⟩⟩
      iapply ((lastStepRun c (grid1.coords t) _ _ _ _ _ _ _ _ _ _ _ _ _ _ _ _ (not_resetsAt_of t h0) ((storesAt_iff t).mpr h16) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hu]
      · isplitl [HS]
        · unfold owns; iexists _; isplitr
          swap; · iexact HS
          ipureintro; exact View.read_writes_of_cover _ _ _ _ _ (cover_acc_last c _ _ _ _ _ _ _ _ _ _ _ _ _ _ _ _ _ _ _ _ _ _ _ _ _ _)
        iexact Hu
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_out_last c _ _ _ _ _ _ _ _ _ _ _ _ _ _ _ _ _ _ _ _ _ _ _ _ _ _)
    · rw [Dat.leavesExact_idle (dat1 V c) 6 t (idle1_6 t (not_storesAt_of t h16)) (noFlush1_6 t (not_storesAt_of t h16))]
      rw [outsAt1_B V c t h0 h16]
      unfold accMiddleAt accAfterMiddle; (try dsimp only)
      rw [PhiS1_castSucc V c t, PhiS1_pos V c _ _ hz]
      iintro ⟨⟨HS, Hu⟩, Ho, ⟨%d0, H0⟩, ⟨%d1, H1⟩, ⟨%d2, H2⟩, ⟨%d3, H3⟩, ⟨%d4, H4⟩, ⟨%d5, H5⟩, ⟨%d6, H6⟩⟩
      iapply ((middleStepRun c (grid1.coords t) _ _ _ _ _ _ _ _ _ _ _ _ _ _ _ _ (not_resetsAt_of t h0) (not_storesAt_of t h16) (iblk1 V c 0 t) (iblk1 V c 1 t) (iblk1 V c 2 t) (iblk1 V c 3 t) (iblk1 V c 4 t) (iblk1 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hu]
      · isplitl [HS]
        · unfold owns; iexists _; isplitr
          swap; · iexact HS
          ipureintro; exact View.read_writes_of_cover _ _ _ _ _ (cover_acc_middle c _ _ _ _ _ _ _ _ _ _ _ _ _ _ _ _ _ _ _ _ _ _ _ _ _ _)
        iexact Hu
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, Hu⟩
  isplitl [HS]
  · iexists _; iexact HS
  iexact Hu

/-- The same after the last point. -/
theorem hout1 (c : Dev nD) : (dat1 V c).Φ (Fin.last cfg1.N) ⊢ Pipeline.ΦA spec1 c :=
  Phi_out1 V c _ (by rw [Fin.val_last]; have : cfg1.N = 34 := N_1; omega)

end Cert.Kernel.Hand

end
-- ==== Proof.K.Run.lean ====
/-
  The whole program as a run, for any float instance: nine items — three stretches of host operations, the first
  pallas_call, three more stretches, the second pallas_call, the closing stretch — chained from the launch memory.
  The buffer contents between items are a fold from the launch memory: a host stretch applies its operations; a
  pallas_call replaces its output array by what the pipeline's write-backs leave and keeps every other buffer.
  Every weakly fair execution terminates; the result array ends at the fold's last value and the arguments as launched.
-/
import proofs.«410272_j33930241638933_2_alg».proof.Proof.Gen.Kernel.Regions
import proofs.«410272_j33930241638933_2_alg».proof.Proof.K.Region0
import proofs.«410272_j33930241638933_2_alg».proof.Proof.K.Region1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents the two regions are entered with, and what they leave -/

/-- The buffers when the first region is entered: the launch memory after the first three host stretches. -/
abbrev enter0 : (c : Dev nD) → (b : Ref sig .tc) → Buf (Elt F) ((c : Thread nD τ).loc b) := fun c b => Gen.V3 m c b

/-- What the first region leaves in its output array (the hidden layer, padded rows included): the write-backs of all
    34 points folded. Elsewhere this family is never read. -/
def hiddenArr (c : Dev nD) : Buf (Elt F) ((c : Thread nD τ).loc main_v18) := (dat0 (enter0 m) c).arrAt 5 cfg0.N

/-- The contents family the fold reads a region's output from: here with the first region's only. -/
def left0 : Gen.Outs (F := F) := fun _ r c =>
  Function.update (fun r' : Ref sig .tc => m ((c : Thread nD τ).loc r')) main_v18 (hiddenArr m c) r

/-- The buffers when the second region is entered. -/
abbrev enter1 : (c : Dev nD) → (b : Ref sig .tc) → Buf (Elt F) ((c : Thread nD τ).loc b) := fun c b => Gen.V7 m (left0 m) c b

/-- What both regions leave: the first its hidden layer, the second the two per-core pooled partial sums. -/
def pooledArr (c : Dev nD) : Buf (Elt F) ((c : Thread nD τ).loc main_v33) := (dat1 (enter1 m) c).arrAt 6 cfg1.N

/-- The contents family with both regions' outputs. -/
def left : Gen.Outs (F := F) := fun _ r c =>
  Function.update (fun r' : Ref sig .tc => left0 m 0 r' c) main_v33 (pooledArr m c) r

theorem left_hidden (c : Dev nD) (n : ℕ) : left m n main_v18 c = hiddenArr m c := by
  unfold left left0
  rw [Function.update_of_ne (by decide), Function.update_self]

theorem left0_hidden (c : Dev nD) (n : ℕ) : left0 m n main_v18 c = hiddenArr m c := by
  unfold left0
  rw [Function.update_self]

theorem left_pooled (c : Dev nD) (n : ℕ) : left m n main_v33 c = pooledArr m c := by
  unfold left
  rw [Function.update_self]

/-- Up to the second region only the first region's output is read, so the two families give the same contents there. -/
theorem enter1_left (c : Dev nD) : Gen.V7 m (left m) c = Gen.V7 m (left0 m) c := by
  show StableHlo.after hostOps1_2 (StableHlo.after hostOps1_1 (StableHlo.after hostOps1
      (Function.update (Gen.V3 m c) (main_v18 : Ref sig .tc) (left m 4 main_v18 c)))) = StableHlo.after hostOps1_2 (StableHlo.after hostOps1_1 (StableHlo.after hostOps1
      (Function.update (Gen.V3 m c) (main_v18 : Ref sig .tc) (left0 m 4 main_v18 c))))
  rw [left_hidden, left0_hidden]

/-- The buffers when each region is left. -/
abbrev leave0 : (c : Dev nD) → (b : Ref sig .tc) → Buf (Elt F) ((c : Thread nD τ).loc b) := fun c b => Gen.V4 m (left m) c b
abbrev leave1 : (c : Dev nD) → (b : Ref sig .tc) → Buf (Elt F) ((c : Thread nD τ).loc b) := fun c b => Gen.V8 m (left m) c b

/-! ## The proof data family and what rides along -/

/-- Each pipeline's proof data at its region's entry contents. -/
def pdats : (p : Fin 2) → (c : Dev nD) → Dat τ (Elt F) Unit ℕ (UR sig nD τ) ℕ (cfgs p) c
  | ⟨0, _⟩ => fun c => dat0 (enter0 m) c
  | ⟨1, _⟩ => fun c => dat1 (enter1 m) c

/-- No core owes another anything. -/
abbrev noLevels : GSem nD τ sig → Finset Unit := fun _ => ∅
abbrev zeroLevel : GSem nD τ sig → Unit → ℕ := fun _ _ => 0
/-- Beside the buffers, through every item: the generator register at some state and the core's dues, at nothing. -/
abbrev rides (c : Dev nD) : sProp 𝕄 := iprop((∃ r, prngReg c r) ∗ ∃ W, owes (c : Thread nD τ) (0 : CellTallies nD τ sig Unit) W)

/-- At the first region's exit each of its arrays holds what the pipeline leaves: the five inputs as entered, the output
    its write-backs. -/
theorem leave0_arr (c : Dev nD) (w : Fin cfg0.W) : (dat0 (enter0 m) c).arrAt w cfg0.N = leave0 m c (Pipeline.arrRef spec0 w) :=
  match w with
  | ⟨0, _⟩ => ((dat0 (enter0 m) c).arrAt_in 0 rfl _).trans ((A_eq0 (enter0 m) c 0).trans (Gen.V4_of m (left m) c _ (by decide)).symm)
  | ⟨1, _⟩ => ((dat0 (enter0 m) c).arrAt_in 1 rfl _).trans ((A_eq0 (enter0 m) c 1).trans (Gen.V4_of m (left m) c _ (by decide)).symm)
  | ⟨2, _⟩ => ((dat0 (enter0 m) c).arrAt_in 2 rfl _).trans ((A_eq0 (enter0 m) c 2).trans (Gen.V4_of m (left m) c _ (by decide)).symm)
  | ⟨3, _⟩ => ((dat0 (enter0 m) c).arrAt_in 3 rfl _).trans ((A_eq0 (enter0 m) c 3).trans (Gen.V4_of m (left m) c _ (by decide)).symm)
  | ⟨4, _⟩ => ((dat0 (enter0 m) c).arrAt_in 4 rfl _).trans ((A_eq0 (enter0 m) c 4).trans (Gen.V4_of m (left m) c _ (by decide)).symm)
  | ⟨5, _⟩ => by
    show hiddenArr m c = Function.update (Gen.V3 m c) (main_v18 : Ref sig .tc) (left m 4 main_v18 c) (main_v18 : Ref sig .tc)
    rw [Function.update_self, left_hidden]
theorem leave0_rest (c : Dev nD) : ∀ b, b ∉ Finset.univ.image (Pipeline.arrRef spec0) → leave0 m c b = enter0 m c b :=
  fun b hb => Gen.V4_of m (left m) c b fun h => hb (Finset.mem_image.mpr ⟨5, Finset.mem_univ _, by rw [List.mem_singleton.mp h]⟩)

theorem leave1_arr (c : Dev nD) (w : Fin cfg1.W) : (dat1 (enter1 m) c).arrAt w cfg1.N = leave1 m c (Pipeline.arrRef spec1 w) :=
  match w with
  | ⟨0, _⟩ => ((dat1 (enter1 m) c).arrAt_in 0 rfl _).trans ((A_eq1 (enter1 m) c 0).trans ((congrFun (enter1_left m c) _).symm.trans (Gen.V8_of m (left m) c _ (by decide)).symm))
  | ⟨1, _⟩ => ((dat1 (enter1 m) c).arrAt_in 1 rfl _).trans ((A_eq1 (enter1 m) c 1).trans ((congrFun (enter1_left m c) _).symm.trans (Gen.V8_of m (left m) c _ (by decide)).symm))
  | ⟨2, _⟩ => ((dat1 (enter1 m) c).arrAt_in 2 rfl _).trans ((A_eq1 (enter1 m) c 2).trans ((congrFun (enter1_left m c) _).symm.trans (Gen.V8_of m (left m) c _ (by decide)).symm))
  | ⟨3, _⟩ => ((dat1 (enter1 m) c).arrAt_in 3 rfl _).trans ((A_eq1 (enter1 m) c 3).trans ((congrFun (enter1_left m c) _).symm.trans (Gen.V8_of m (left m) c _ (by decide)).symm))
  | ⟨4, _⟩ => ((dat1 (enter1 m) c).arrAt_in 4 rfl _).trans ((A_eq1 (enter1 m) c 4).trans ((congrFun (enter1_left m c) _).symm.trans (Gen.V8_of m (left m) c _ (by decide)).symm))
  | ⟨5, _⟩ => ((dat1 (enter1 m) c).arrAt_in 5 rfl _).trans ((A_eq1 (enter1 m) c 5).trans ((congrFun (enter1_left m c) _).symm.trans (Gen.V8_of m (left m) c _ (by decide)).symm))
  | ⟨6, _⟩ => by
    show pooledArr m c = Function.update (Gen.V7 m (left m) c) (main_v33 : Ref sig .tc) (left m 8 main_v33 c) (main_v33 : Ref sig .tc)
    rw [Function.update_self, left_pooled]
theorem leave1_rest (c : Dev nD) : ∀ b, b ∉ Finset.univ.image (Pipeline.arrRef spec1) → leave1 m c b = enter1 m c b :=
  fun b hb => (Gen.V8_of m (left m) c b fun h => hb (Finset.mem_image.mpr ⟨6, Finset.mem_univ _, by rw [List.mem_singleton.mp h]⟩)).trans
    (congrFun (enter1_left m c) _)

/-! ## The two pallas_calls as segments -/

set_option backward.isDefEq.respectTransparency.types false in
/-- Pipeline 0 as a segment of the run: entered with every unscoped buffer at the contents the fold gives before it, left
    with the output array at what its write-backs leave and every other buffer as entered. Its arrays are split out of
    the unscoped buffers at entry and put back at exit; the generator register goes into the invariant and comes back;
    the core owes nothing; the kernel has no semaphore of its own. -/
def reg0 : Pipeline.RegionSeg (pcfgs (F := F)) Gen.adm (pdats m) () defs₀ Variants.none noLevels zeroLevel 0 where
  win := launch0.win.to₀
  block_pos := launch0.block_pos
  stage_whole := launch0.stage_whole
  K := PEmpty
  osem k := k.elim
  ho := Pipeline.OwnSemFacts.none _
  hbody c := (body_obligation0 (enter0 m) c).loose
  hwaits := Pipeline.hwaits_of_owed_zero _ _ _ _ noLevels zeroLevel 0 fun _ _ => rfl
  pre c := iprop(StableHlo.held (c : Thread nD τ) (Pipeline.ucRefs τ sig) (Gen.V3 m c) ∗ rides c)
  post c := iprop(StableHlo.held (c : Thread nD τ) (Pipeline.ucRefs τ sig) (Gen.V4 m (left m) c) ∗ rides c)
  X c := iprop(∃ r, prngReg c r)
  Y c := iprop(∃ r, prngReg c r)
  Z c := Pipeline.unscopedRest (Ix := Unit) (Name := ℕ) (U := UR sig nD τ) (Lvl := ℕ) spec0 c (enter0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (enter0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (enter0 m c) (leave0 m c) ((pdats m 0 c).arrAt · cfg0.N) (leave0_arr m c) (leave0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 as a segment of the run: entered with every unscoped buffer at the contents the fold gives before it, left
    with the output array at what its write-backs leave and every other buffer as entered. Its arrays are split out of
    the unscoped buffers at entry and put back at exit; the generator register goes into the invariant and comes back;
    the core owes nothing; the kernel has no semaphore of its own. -/
def reg1 : Pipeline.RegionSeg (pcfgs (F := F)) Gen.adm (pdats m) () defs₀ Variants.none noLevels zeroLevel 1 where
  win := launch1.win.to₀
  block_pos := launch1.block_pos
  stage_whole := launch1.stage_whole
  K := PEmpty
  osem k := k.elim
  ho := Pipeline.OwnSemFacts.none _
  hbody c := (body_obligation1 (enter1 m) c).loose
  hwaits := Pipeline.hwaits_of_owed_zero _ _ _ _ noLevels zeroLevel 1 fun _ _ => rfl
  pre c := iprop(StableHlo.held (c : Thread nD τ) (Pipeline.ucRefs τ sig) (Gen.V7 m (left0 m) c) ∗ rides c)
  post c := iprop(StableHlo.held (c : Thread nD τ) (Pipeline.ucRefs τ sig) (Gen.V8 m (left m) c) ∗ rides c)
  X c := iprop(∃ r, prngReg c r)
  Y c := iprop(∃ r, prngReg c r)
  Z c := Pipeline.unscopedRest (Ix := Unit) (Name := ℕ) (U := UR sig nD τ) (Lvl := ℕ) spec1 c (enter1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (enter1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (enter1 m) c
    rw [show (pdats m 1 c).Φ 0 = (dat1 (enter1 m) c).Φ 0 from rfl]
    iintro ⟨Hp, -, Hr⟩
    iapply h
    unfold Pipeline.ΦA
    isplitl [Hr]; · iexact Hr
    iexact Hp
  hout c := by
    have h := hout1 (enter1 m) c
    rw [Pipeline.ownSems0_none, show (pdats m 1 c).Φ (Fin.last _) = (dat1 (enter1 m) c).Φ (Fin.last cfg1.N) from rfl]
    iintro H
    ihave H' := h $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (enter1 m c) (leave1 m c) ((pdats m 1 c).arrAt · cfg1.N) (leave1_arr m c) (leave1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- What the launch hands one core: its unscoped buffers at the launch memory, the generator register, no dues. -/
theorem launch_core (c : Dev nD) :
    (iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c
          ∗ prngReg c (ρ c) ∗ iprop(emp)) : sProp 𝕄)
      ⊢ iprop(StableHlo.held (c : Thread nD τ) (Pipeline.ucRefs τ sig) (Gen.V0 m c) ∗ rides c) := by
  rw [← Pipeline.unscopedBufs_held (Ix := Unit) (Name := ℕ) (U := UR sig nD τ) (Lvl := ℕ) c (Gen.V0 m c)]
  iintro ⟨Hh, -, HO, -, Hp, -⟩
  isplitl [Hh]; · iexact Hh
  isplitl [Hp]; · iexists _; iexact Hp
  iexists ∅; iexact HO

set_option backward.isDefEq.respectTransparency.types false in
/-- From any memory with zero counters every weakly fair execution of the program terminates without a fault; the result
    array ends at the fold's last value and every argument array as launched. -/
theorem run_all : θ_run defs (onTc (τ := τ) (main (F := F))) ⟨m, fun _ => 0, ρ⟩ (fun r => ∀ c : Dev nD,
      r.2.mem ((c.tc : Thread nD τ).loc main_v43) = Gen.V9 m (left m) c main_v43
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) Gen.adm (pdats m) () cellOf_inj emb₁ defs₀ Variants.none noLevels zeroLevel m ρ main
    (Gen.segs m (left m) Variants.none noLevels zeroLevel (fun _ => rides) () (pdats m) (reg0 m) (reg1 m))
    (fun c Q => by
      rewrite [main_chain c, Seg.run_eq_chain,
        show (Gen.segs m (left m) Variants.none noLevels zeroLevel (fun _ => rides) () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [Gen.segs, Seg.pipes_host, Seg.pipes_region, Seg.pipes_nil]; decide) (O₀ := 0) (fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rides c))
    (Tₙ := fun c => StableHlo.held (c : Thread nD τ) (Pipeline.ucRefs τ sig) (Gen.V9 m (left m) c))
    (hch := fun c => ⟨.rfl, .rfl, .rfl, .rfl, .rfl, .rfl, .rfl, by
      show iprop(StableHlo.held (c : Thread nD τ) (Pipeline.ucRefs τ sig) (Gen.V7 m (left m) c) ∗ rides c)
        ⊢ iprop(StableHlo.held (c : Thread nD τ) (Pipeline.ucRefs τ sig) (Gen.V7 m (left0 m) c) ∗ rides c)
      rw [enter1_left m c], .rfl, sep_mono .rfl (by iintro ⟨-, H⟩; iexact H)⟩)
    (hinit := ?_) (QY := fun c s => s.mem ((c.tc : Thread nD τ).loc main_v43) = Gen.V9 m (left m) c main_v43
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8))
    (hfin := fun c s' => ?_) (hQ := fun _ h => h)
  · -- the launch: on each core the unscoped buffers are held at the launch memory; the register and the empty dues ride along
    iintro ⟨H, -⟩
    have hb : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c
          ∗ prngReg c (ρ c) ∗ iprop(emp)))
        ⊢ ((bigSep Finset.univ fun c : Dev nD => iprop(StableHlo.held (c : Thread nD τ) (Pipeline.ucRefs τ sig) (Gen.V0 m c) ∗ rides c)) : sProp 𝕄) :=
      bigSep_mono fun c _ => launch_core m ρ c
    ihave H' := hb $$ H
    imodintro
    iexact H'
  · -- the end: the result's and each argument's buffer read off the last valuation
    unfold StableHlo.held
    iintro ⟨Hh, HSI⟩
    ihave Hr := (pointsTo_read_all (Pipeline.ucRefs τ sig) (fun b => ((c : Thread nD τ).1, b)) (Gen.V9 m (left m) c) s') $$ [Hh HSI]
    · isplitl [Hh] <;> iassumption
    icases Hr with ⟨%h, HSI⟩
    imodintro
    isplitr
    · ipureintro
      exact ⟨h (Proc.devRef .tc main_v43) (Finset.mem_filter.mpr ⟨StableHlo.devRef_mem_tcRefs main_v43, by decide⟩),
        (h (Proc.devRef .tc main_arg0) (Finset.mem_filter.mpr ⟨StableHlo.devRef_mem_tcRefs main_arg0, by decide⟩)).trans (Gen.V9_main_arg0 m (left m) c),
        (h (Proc.devRef .tc main_arg1) (Finset.mem_filter.mpr ⟨StableHlo.devRef_mem_tcRefs main_arg1, by decide⟩)).trans (Gen.V9_main_arg1 m (left m) c),
        (h (Proc.devRef .tc main_arg2) (Finset.mem_filter.mpr ⟨StableHlo.devRef_mem_tcRefs main_arg2, by decide⟩)).trans (Gen.V9_main_arg2 m (left m) c),
        (h (Proc.devRef .tc main_arg3) (Finset.mem_filter.mpr ⟨StableHlo.devRef_mem_tcRefs main_arg3, by decide⟩)).trans (Gen.V9_main_arg3 m (left m) c),
        (h (Proc.devRef .tc main_arg4) (Finset.mem_filter.mpr ⟨StableHlo.devRef_mem_tcRefs main_arg4, by decide⟩)).trans (Gen.V9_main_arg4 m (left m) c),
        (h (Proc.devRef .tc main_arg5) (Finset.mem_filter.mpr ⟨StableHlo.devRef_mem_tcRefs main_arg5, by decide⟩)).trans (Gen.V9_main_arg5 m (left m) c),
        (h (Proc.devRef .tc main_arg6) (Finset.mem_filter.mpr ⟨StableHlo.devRef_mem_tcRefs main_arg6, by decide⟩)).trans (Gen.V9_main_arg6 m (left m) c),
        (h (Proc.devRef .tc main_arg7) (Finset.mem_filter.mpr ⟨StableHlo.devRef_mem_tcRefs main_arg7, by decide⟩)).trans (Gen.V9_main_arg7 m (left m) c),
        (h (Proc.devRef .tc main_arg8) (Finset.mem_filter.mpr ⟨StableHlo.devRef_mem_tcRefs main_arg8, by decide⟩)).trans (Gen.V9_main_arg8 m (left m) c)⟩
    · iexact HSI

end Cert.Kernel.Hand

end
-- ==== Proof.KI.Region0.lean ====
/-
  The first pallas_call (layer 1 of the graph convolution) as a pipeline region, for any float instance: at each of
  the 34 grid points the body loads a 2944-row block of the aggregated messages and of the padded node features,
  the two 32×64 weight matrices and the 1×64 bias, and stores the whole 2944×64 output block
  tanh((agg·W_rel + b) + x·W_root). One control case, every access a whole-buffer rectangle: the body is run once
  on symbolic blocks, and the proof data say each input buffer holds its block and the output buffer the stored value.
  Everything is stated at a parameter `V`, the buffer contents when the region is entered.
-/
import proofs.«410272_j33930241638933_2_alg».proof.Proof.Gen.KernelIdeal.Launch
import proofs.«410272_j33930241638933_2_alg».proof.Proof.Gen.KernelIdeal.Skeleton
import proofs.«410272_j33930241638933_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the array at every point, fetched there or not
    (where it is not fetched its block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the array at every point, fetched there or not
    (where it is not fetched its block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block of the array at every point, fetched there or not
    (where it is not fetched its block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block of the array at every point, fetched there or not
    (where it is not fetched its block index has not moved). -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block of the array at every point, fetched there or not
    (where it is not fetched its block index has not moved). -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole buffer -/

abbrev rRows0 : Rect S2944x32 := Rect.unit (s := S2944x32) ![0, 0] S2944x32.size inb_S2944x32_S2944x32_0_0
abbrev rWeight0 : Rect S32x64 := Rect.unit (s := S32x64) ![0, 0] S32x64.size inb_S32x64_S32x64_0_0
abbrev rBias0 : Rect S1x64 := Rect.unit (s := S1x64) ![0, 0] S1x64.size inb_S1x64_S1x64_0_0
abbrev rOut0 : Rect S2944x64 := Rect.unit (s := S2944x64) ![0, 0] S2944x64.size inb_S2944x64_S2944x64_0_0

/-- What the body leaves in the output window's buffer, from the five input blocks: its one store, the layer's
    value on the block (the skeleton's payload; note the order in which the body loads the bias and the root weights). -/
def hidden0 (agg x : Vec F S2944x32 .f32) (wrel : Vec F S32x64 .f32) (b : Vec F S1x64 .f32) (wroot : Vec F S32x64 .f32) : Vec F S2944x64 .bf16 :=
  View.canon [⟨rOut0, k0_pay1 (View.ld agg rRows0) (View.ld x rRows0) (View.ld wrel rWeight0) (View.ld wroot rWeight0) (View.ld b rBias0)⟩]

/-- The one store covers the output buffer. -/
theorem hidden0_cover (p0 : Vec F S2944x64 .bf16) (y : S2944x64.Idx) :
    ∃ pc ∈ ([⟨rOut0, p0⟩] : List (View.Piece (Elt F) S2944x64 .bf16)), y ∈ pc.1.set :=
  View.cover_of_tiled [⟨rOut0, p0⟩] S2944x64.size (by rfl) y

/-! ## The body's triple -/

set_option maxHeartbeats 4000000 in
/-- The body on whole staging memrefs — the inputs' at contents `agg x wrel b wroot`, the output's at anything — runs to
    the continuation with the inputs' as they were and the output's at `hidden0` of them. -/
theorem conv1_body (c : Dev nD) (E : Set ℕ) (i : grid0.Coords)
    (arg1 : Memref sig .tc .vmem S2944x32 .f32) (harg1 : arg1.IsWhole) (arg2 : Memref sig .tc .vmem S2944x32 .f32) (harg2 : arg2.IsWhole)
    (arg3 : Memref sig .tc .vmem S32x64 .f32) (harg3 : arg3.IsWhole) (arg4 : Memref sig .tc .vmem S1x64 .f32) (harg4 : arg4.IsWhole)
    (arg5 : Memref sig .tc .vmem S32x64 .f32) (harg5 : arg5.IsWhole) (arg6 : Memref sig .tc .vmem S2944x64 .bf16) (harg6 : arg6.IsWhole)
    (agg x : Vec F S2944x32 .f32) (wrel : Vec F S32x64 .f32) (b : Vec F S1x64 .f32) (wroot : Vec F S32x64 .f32) (K : PUnit → sProp 𝕄) :
    iprop(owns (c : Thread nD τ) arg1 fullShare agg ∗ owns (c : Thread nD τ) arg2 fullShare x ∗ owns (c : Thread nD τ) arg3 fullShare wrel
        ∗ owns (c : Thread nD τ) arg4 fullShare b ∗ owns (c : Thread nD τ) arg5 fullShare wroot ∗ (∃ d, owns (c : Thread nD τ) arg6 fullShare d)
        ∗ (iprop(owns (c : Thread nD τ) arg1 fullShare agg ∗ owns (c : Thread nD τ) arg2 fullShare x ∗ owns (c : Thread nD τ) arg3 fullShare wrel
            ∗ owns (c : Thread nD τ) arg4 fullShare b ∗ owns (c : Thread nD τ) arg5 fullShare wroot
            ∗ owns (c : Thread nD τ) arg6 fullShare (hidden0 agg x wrel b wroot)) -∗ K ⟨⟩))
      ⊢ wp frame (wpE (defs₀ (F := F)) Variants.none c none) E (cc0__conv1_kernel i arg1 harg1 arg2 harg2 arg3 harg3 arg4 harg4 arg5 harg5 arg6 harg6) K := by
  simp only [cc0__conv1_kernel_eq_skeleton]; unfold cc0__conv1_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (hidden0_cover _)

/-! ## The pipeline's proof data -/

/-- The proof data of this pipeline on core `c`: the arrays as the region finds them; after the body at point `t` each
    input's buffer at its block and the output's at the layer's value on the blocks; the invariant the scoped rest and the
    generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => hidden0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = hidden0 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (conv1_body c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1Runs.lean ====
import proofs.«410272_j33930241638933_2_alg».proof.Proof.Gen.KernelIdeal.Launch
import proofs.«410272_j33930241638933_2_alg».proof.Proof.Gen.KernelIdeal.Skeleton
import proofs.«410272_j33930241638933_2_alg».proof.Proof.Gen.KernelIdeal.Points
import Idealize.ShloMosaic.Lib.Pipeline.FrameBody
import Idealize.ShloMosaic.Lib.Ring
import Idealize.ShloMosaic.Lib.Tactic

/-! # The pooling kernel's body, run whole in each of its three control cases

The second pallas_call sweeps a grid of 2 × 17 points; point `t` has coordinates `(t / 17, t % 17)`. Its body keeps a
`1 × 256 × 64` accumulator in a scratch buffer that lives across the points of one sweep of the second coordinate:

* where the second coordinate is `0` it first resets the accumulator to zero;
* at every point it loads its six input blocks, and adds their pooled contribution to the accumulator;
* where the second coordinate is `16` it then copies the accumulator, whole, into the output block.

So a point is in one of three cases: the FIRST step of a sweep (reset, accumulate; the output block untouched), a MIDDLE
step (accumulate; the output block untouched), the LAST step (accumulate, store the output block). This module runs the
body whole in each case, by symbolic execution over its skeleton; what the run finds stored into the accumulator and into
the output block — a list of pieces — is the witness carried by each run. Everything is generic in the float instance. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, in closed form over the grid -/

/-- The body resets the accumulator at coordinates `i`: its first `scf.if`, the scalar chain from the second grid
    coordinate written out (`coord₁ = 0`). -/
abbrev resetsAt (i : grid1.Coords) : Prop :=
  (Scalar.cmpi .ne (Scalar.extui (Scalar.cmpi .eq (BitVec.ofNat 32 (i 1).val) 0#32)) 0#32) = 1#1

/-- It does so exactly at the points whose second coordinate is `0`: `t % 17 = 0`. -/
theorem resetsAt_iff : ∀ t : Fin cfg1.N, resetsAt (grid1.coords t) ↔ t.val % 17 = 0 :=
  (by decide +kernel : ∀ t : Fin grid1.N, resetsAt (grid1.coords t) ↔ t.val % 17 = 0)

/-- The body stores the output block at coordinates `i`: its second `scf.if` (`coord₁ = 16`). -/
abbrev storesAt (i : grid1.Coords) : Prop := k1_cond2 i = 1#1

/-- It does so exactly at the points whose second coordinate is `16`: `t % 17 = 16`. -/
theorem storesAt_iff : ∀ t : Fin cfg1.N, storesAt (grid1.coords t) ↔ t.val % 17 = 16 :=
  (by decide +kernel : ∀ t : Fin grid1.N, storesAt (grid1.coords t) ↔ t.val % 17 = 16)

/-! ## Where the windows are idle -/

/-- The six input windows are never idle. -/
theorem live1_in : ∀ (w : Fin cfg1.W), w.val < 6 → ∀ t : Fin cfg1.N, cfg1.idle w (grid1.coords t) = false := by decide +kernel
/-- Where the body does not store the output block, the configuration calls output window 6 idle, -/
theorem idle1_6 : ∀ t : Fin cfg1.N, ¬storesAt (grid1.coords t) → cfg1.idle 6 (grid1.coords t) = true := by decide +kernel
/-- and the pipeline does not write its block back there; -/
theorem noFlush1_6 : ∀ t : Fin cfg1.N, ¬storesAt (grid1.coords t) → (cfg1.win 6).flush t = false := by decide +kernel
/-- where it does store it, the window is live. -/
theorem live1_6 : ∀ t : Fin cfg1.N, storesAt (grid1.coords t) → cfg1.idle 6 (grid1.coords t) = false := by decide +kernel

/-! ## The memrefs the pipeline calls the body with -/

abbrev ms1_0 (t : Fin cfg1.N) : Memref sig .tc .vmem S2944x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2944x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S64x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2944 .i32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256x64 .f32 := win1_6.stage (cfg1.slots t 6)
abbrev hs1_6 (t : Fin cfg1.N) : (ms1_6 t).IsWhole := hstage1_6 ((cfg1.slots t 6).cast nbuf1_6)

/-- The accumulator: a whole scoped buffer of the kernel's own, passed beside the windows and carried between points. -/
abbrev acc1 : Memref sig .tc .vmem S1x256x64 .f32 := Memref.whole cc1_scratch0
/-- The accumulator as a view: what it holds is stated through it. -/
abbrev accV1 : View sig .tc .vmem S1x256x64 .f32 := acc1.view
/-- One staging buffer of the output window, through which its contents are stated (the choice does not matter). -/
abbrev outV1 : View sig .tc .vmem S1x256x64 .f32 := (Memref.whole cc1_stg6_0 : Memref sig .tc .vmem S1x256x64 .f32).view

/-! ## The region invariant's untouched part -/

/-- What the body never touches of the region invariant: the first pallas_call's nine staging buffers, each whole at
    some contents, and the generator register at some state. -/
def untouched1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ r, prngReg c r))

/-- Separating conjunction reassociated: the last of ten conjuncts inside brought to the front. -/
theorem sep_last_to_front {M : Type} [URA M] (A0 A1 A2 A3 A4 A5 A6 A7 A8 S G : sProp M) :
    (iprop((A0 ∗ A1 ∗ A2 ∗ A3 ∗ A4 ∗ A5 ∗ A6 ∗ A7 ∗ A8 ∗ S) ∗ G) : sProp M) = iprop(S ∗ A0 ∗ A1 ∗ A2 ∗ A3 ∗ A4 ∗ A5 ∗ A6 ∗ A7 ∗ A8 ∗ G) := by
  have h₁ : iprop((A0 ∗ A1 ∗ A2 ∗ A3 ∗ A4 ∗ A5 ∗ A6 ∗ A7 ∗ A8 ∗ S) ∗ G) ⊢ (iprop(S ∗ A0 ∗ A1 ∗ A2 ∗ A3 ∗ A4 ∗ A5 ∗ A6 ∗ A7 ∗ A8 ∗ G) : sProp M) := by
    iintro ⟨⟨R0, R1, R2, R3, R4, R5, R6, R7, R8, HS⟩, Hg⟩
    isplitl [HS]; · iexact HS
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact Hg
  have h₂ : iprop(S ∗ A0 ∗ A1 ∗ A2 ∗ A3 ∗ A4 ∗ A5 ∗ A6 ∗ A7 ∗ A8 ∗ G) ⊢ (iprop((A0 ∗ A1 ∗ A2 ∗ A3 ∗ A4 ∗ A5 ∗ A6 ∗ A7 ∗ A8 ∗ S) ∗ G) : sProp M) := by
    iintro ⟨HS, R0, R1, R2, R3, R4, R5, R6, R7, R8, Hg⟩
    isplitr [Hg]
    swap; · iexact Hg
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HS
  exact BI.equiv_iff.mp ⟨h₁, h₂⟩

/-- The region invariant of the class (every scoped buffer that is no staging buffer of this call at some contents, the
    generator register at some state) is the accumulator owned at some contents beside the untouched part. -/
theorem PhiA1_eq (c : Dev nD) :
    (Pipeline.ΦA spec1 c : sProp 𝕄) = iprop((∃ d, owns (c : Thread nD τ) acc1 fullShare d) ∗ untouched1 (F := F) c) := by
  unfold Pipeline.ΦA; rw [scopedRest1_eq]; simp only [acc1, owns_whole]
  unfold untouched1
  exact sep_last_to_front ..

/-! ## The three runs -/

set_option maxHeartbeats 1000000 in
/-- THE FIRST STEP OF A SWEEP (`resetsAt i`, not `storesAt i`). On whole memrefs — the six inputs' at contents `x0 … x5`,
    the output window's at any contents `xi`, the accumulator at anything — the body runs to the continuation holding the
    inputs' and the output's as they were and the accumulator with the pieces `LS` written: the witness the run finds. -/
noncomputable def firstStepRun (c : Dev nD) (i : grid1.Coords) (arg2 : Memref sig .tc .vmem S2944x64 .f32) (harg2 : arg2.IsWhole) (arg3 : Memref sig .tc .vmem S2944x64 .bf16) (harg3 : arg3.IsWhole)
    (arg4 : Memref sig .tc .vmem S64x64 .f32) (harg4 : arg4.IsWhole) (arg5 : Memref sig .tc .vmem S1x64 .f32) (harg5 : arg5.IsWhole)
    (arg6 : Memref sig .tc .vmem S64x64 .f32) (harg6 : arg6.IsWhole) (arg7 : Memref sig .tc .vmem S1x2944 .i32) (harg7 : arg7.IsWhole)
    (arg8 : Memref sig .tc .vmem S1x256x64 .f32) (harg8 : arg8.IsWhole) (arg9 : Memref sig .tc .vmem S1x256x64 .f32) (harg9 : arg9.IsWhole)
    (hr : resetsAt i) (hs : ¬storesAt i)
    (x0 : Vec F S2944x64 .f32) (x1 : Vec F S2944x64 .bf16) (x2 : Vec F S64x64 .f32) (x3 : Vec F S1x64 .f32) (x4 : Vec F S64x64 .f32) (x5 : Vec F S1x2944 .i32) :
    { LS : List (View.Piece (Elt F) S1x256x64 .f32) //
      ∀ (xi : Vec F S1x256x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1__conv2_pool_kernel i arg2 harg2 arg3 harg3 arg4 harg4 arg5 harg5 arg6 harg6 arg7 harg7 arg8 harg8 arg9 harg9) K } := by
  refine ⟨?_, fun xi E K => ?run⟩
  case run =>
    simp only [cc1__conv2_pool_kernel_eq_skeleton]; unfold cc1__conv2_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6
    sl_exec (disch := first | exact hr | exact hs)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

set_option maxHeartbeats 1000000 in
/-- A MIDDLE STEP (neither `resetsAt i` nor `storesAt i`). As the first step's run, but the accumulator comes in at the
    contents `xs` the point before left in it, which the body reads. -/
noncomputable def middleStepRun (c : Dev nD) (i : grid1.Coords) (arg2 : Memref sig .tc .vmem S2944x64 .f32) (harg2 : arg2.IsWhole) (arg3 : Memref sig .tc .vmem S2944x64 .bf16) (harg3 : arg3.IsWhole)
    (arg4 : Memref sig .tc .vmem S64x64 .f32) (harg4 : arg4.IsWhole) (arg5 : Memref sig .tc .vmem S1x64 .f32) (harg5 : arg5.IsWhole)
    (arg6 : Memref sig .tc .vmem S64x64 .f32) (harg6 : arg6.IsWhole) (arg7 : Memref sig .tc .vmem S1x2944 .i32) (harg7 : arg7.IsWhole)
    (arg8 : Memref sig .tc .vmem S1x256x64 .f32) (harg8 : arg8.IsWhole) (arg9 : Memref sig .tc .vmem S1x256x64 .f32) (harg9 : arg9.IsWhole)
    (hr : ¬resetsAt i) (hs : ¬storesAt i)
    (x0 : Vec F S2944x64 .f32) (x1 : Vec F S2944x64 .bf16) (x2 : Vec F S64x64 .f32) (x3 : Vec F S1x64 .f32) (x4 : Vec F S64x64 .f32) (x5 : Vec F S1x2944 .i32) (xs : Vec F S1x256x64 .f32) :
    { LS : List (View.Piece (Elt F) S1x256x64 .f32) //
      ∀ (xi : Vec F S1x256x64 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ (∃ f, arg9.view.loc (c : Thread nD τ) ↦[arg9.view.set]{fullShare} arg9.view.writes (Elt F) f LS)) -∗ K ⟨⟩))
          ⊢ wp frame (wpE (defs₀ (F := F)) Variants.none c none) E (cc1__conv2_pool_kernel i arg2 harg2 arg3 harg3 arg4 harg4 arg5 harg5 arg6 harg6 arg7 harg7 arg8 harg8 arg9 harg9) K } := by
  refine ⟨?_, fun xi E K => ?run⟩
  case run =>
    simp only [cc1__conv2_pool_kernel_eq_skeleton]; unfold cc1__conv2_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hf6; obtain rfl := harg9.eq_unread hfs
    sl_exec (disch := first | exact hr | exact hs)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact HS

set_option maxHeartbeats 1000000 in
/-- THE LAST STEP OF A SWEEP (`storesAt i`, not `resetsAt i`). The accumulator comes in at `xs`; the output window's
    memref at anything, and leaves with the pieces `LO` written — the accumulator's new contents, stored whole. The
    witness is the pair of piece lists. -/
noncomputable def lastStepRun (c : Dev nD) (i : grid1.Coords) (arg2 : Memref sig .tc .vmem S2944x64 .f32) (harg2 : arg2.IsWhole) (arg3 : Memref sig .tc .vmem S2944x64 .bf16) (harg3 : arg3.IsWhole)
    (arg4 : Memref sig .tc .vmem S64x64 .f32) (harg4 : arg4.IsWhole) (arg5 : Memref sig .tc .vmem S1x64 .f32) (harg5 : arg5.IsWhole)
    (arg6 : Memref sig .tc .vmem S64x64 .f32) (harg6 : arg6.IsWhole) (arg7 : Memref sig .tc .vmem S1x2944 .i32) (harg7 : arg7.IsWhole)
    (arg8 : Memref sig .tc .vmem S1x256x64 .f32) (harg8 : arg8.IsWhole) (arg9 : Memref sig .tc .vmem S1x256x64 .f32) (harg9 : arg9.IsWhole)
    (hr : ¬resetsAt i) (hs : storesAt i)
    (x0 : Vec F S2944x64 .f32) (x1 : Vec F S2944x64 .bf16) (x2 : Vec F S64x64 .f32) (x3 : Vec F S1x64 .f32) (x4 : Vec F S64x64 .f32) (x5 : Vec F S1x2944 .i32) (xs : Vec F S1x256x64 .f32) :
    Σ' (LO : List (View.Piece (Elt F) S1x256x64 .f32)), { LS : List (View.Piece (Elt F) S1x256x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f LO) ∗ (∃ f, arg9.view.loc (c : Thread nD τ) ↦[arg9.view.set]{fullShare} arg9.view.writes (Elt F) f LS)) -∗ K ⟨⟩))
          ⊢ wp frame (wpE (defs₀ (F := F)) Variants.none c none) E (cc1__conv2_pool_kernel i arg2 harg2 arg3 harg3 arg4 harg4 arg5 harg5 arg6 harg6 arg7 harg7 arg8 harg8 arg9 harg9) K } := by
  refine ⟨?_, ?_, fun E K => ?run⟩
  case run =>
    simp only [cc1__conv2_pool_kernel_eq_skeleton]; unfold cc1__conv2_pool_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs
    sl_exec (disch := first | exact hr | exact hs)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

end Cert.KernelIdeal.Hand

end
-- ==== Proof.KI.Region1.lean ====
import proofs.«410272_j33930241638933_2_alg».proof.Proof.KI.Region1Runs
import Idealize.ShloMosaic.Lib.Pipeline.Value

/-! # The pooling call's frame half, at the contents its region is entered with

Stated at a PARAMETER `V`: the TensorCore's buffer contents when the second pallas_call is entered. Over it: each
window's block at a point (`iblk1`); what each control case leaves in the accumulator and in the output block, read back
from the pieces its run found; what both hold point by point (`outsAt1`, with one equation per control case); the
invariant that carries the accumulator's contents from a point to the next (`PhiS1`); the pipeline's proof data
(`dat1`) and its body obligation. Last, each piece read as the body's arithmetic (the payloads of the skeleton).
Everything is generic in the float instance. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (three of the six are
    fetched at the first point only: their block index never moves), for ANY proof data whose array is `V`'s and whose
    body leaves the block in place: the windows are uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What each control case leaves: the pieces its run found, read back -/

section Cases
variable (c : Dev nD) (i : grid1.Coords) (arg2 : Memref sig .tc .vmem S2944x64 .f32) (harg2 : arg2.IsWhole) (arg3 : Memref sig .tc .vmem S2944x64 .bf16) (harg3 : arg3.IsWhole)
    (arg4 : Memref sig .tc .vmem S64x64 .f32) (harg4 : arg4.IsWhole) (arg5 : Memref sig .tc .vmem S1x64 .f32) (harg5 : arg5.IsWhole)
    (arg6 : Memref sig .tc .vmem S64x64 .f32) (harg6 : arg6.IsWhole) (arg7 : Memref sig .tc .vmem S1x2944 .i32) (harg7 : arg7.IsWhole)
    (arg8 : Memref sig .tc .vmem S1x256x64 .f32) (harg8 : arg8.IsWhole) (arg9 : Memref sig .tc .vmem S1x256x64 .f32) (harg9 : arg9.IsWhole)
  (x0 : Vec F S2944x64 .f32) (x1 : Vec F S2944x64 .bf16) (x2 : Vec F S64x64 .f32) (x3 : Vec F S1x64 .f32) (x4 : Vec F S64x64 .f32) (x5 : Vec F S1x2944 .i32)

/-- The first step's pieces for the accumulator cover it. -/
theorem cover_acc_first (hr : resetsAt i) (hs : ¬storesAt i) (y : S1x256x64.Idx) :
    ∃ pc ∈ (firstStepRun c i arg2 harg2 arg3 harg3 arg4 harg4 arg5 harg5 arg6 harg6 arg7 harg7 arg8 harg8 arg9 harg9 hr hs x0 x1 x2 x3 x4 x5).1, y ∈ pc.1.set :=
  View.cover_of_tiledL (firstStepRun c i arg2 harg2 arg3 harg3 arg4 harg4 arg5 harg5 arg6 harg6 arg7 harg7 arg8 harg8 arg9 harg9 hr hs x0 x1 x2 x3 x4 x5).1 S1x256x64.size (by sl_kernel_rfl) y

/-- What the first step of a sweep leaves in the accumulator. -/
def accAfterFirst (hr : resetsAt i) (hs : ¬storesAt i) : Vec F S1x256x64 .f32 :=
  accV1.read (Elt F) (accV1.writes (Elt F) accV1.junk (firstStepRun c i arg2 harg2 arg3 harg3 arg4 harg4 arg5 harg5 arg6 harg6 arg7 harg7 arg8 harg8 arg9 harg9 hr hs x0 x1 x2 x3 x4 x5).1)

/-- A middle step's pieces for the accumulator cover it. -/
theorem cover_acc_middle (hr : ¬resetsAt i) (hs : ¬storesAt i) (xs : Vec F S1x256x64 .f32) (y : S1x256x64.Idx) :
    ∃ pc ∈ (middleStepRun c i arg2 harg2 arg3 harg3 arg4 harg4 arg5 harg5 arg6 harg6 arg7 harg7 arg8 harg8 arg9 harg9 hr hs x0 x1 x2 x3 x4 x5 xs).1, y ∈ pc.1.set :=
  View.cover_of_tiledL (middleStepRun c i arg2 harg2 arg3 harg3 arg4 harg4 arg5 harg5 arg6 harg6 arg7 harg7 arg8 harg8 arg9 harg9 hr hs x0 x1 x2 x3 x4 x5 xs).1 S1x256x64.size (by sl_kernel_rfl) y

/-- What a middle step leaves in the accumulator, from what the point before left there (`xs`). -/
def accAfterMiddle (hr : ¬resetsAt i) (hs : ¬storesAt i) (xs : Vec F S1x256x64 .f32) : Vec F S1x256x64 .f32 :=
  accV1.read (Elt F) (accV1.writes (Elt F) accV1.junk (middleStepRun c i arg2 harg2 arg3 harg3 arg4 harg4 arg5 harg5 arg6 harg6 arg7 harg7 arg8 harg8 arg9 harg9 hr hs x0 x1 x2 x3 x4 x5 xs).1)

/-- The last step's pieces for the accumulator cover it, -/
theorem cover_acc_last (hr : ¬resetsAt i) (hs : storesAt i) (xs : Vec F S1x256x64 .f32) (y : S1x256x64.Idx) :
    ∃ pc ∈ (lastStepRun c i arg2 harg2 arg3 harg3 arg4 harg4 arg5 harg5 arg6 harg6 arg7 harg7 arg8 harg8 arg9 harg9 hr hs x0 x1 x2 x3 x4 x5 xs).2.1, y ∈ pc.1.set :=
  View.cover_of_tiledL (lastStepRun c i arg2 harg2 arg3 harg3 arg4 harg4 arg5 harg5 arg6 harg6 arg7 harg7 arg8 harg8 arg9 harg9 hr hs x0 x1 x2 x3 x4 x5 xs).2.1 S1x256x64.size (by sl_kernel_rfl) y

/-- and its pieces for the output block cover that. -/
theorem cover_out_last (hr : ¬resetsAt i) (hs : storesAt i) (xs : Vec F S1x256x64 .f32) (y : S1x256x64.Idx) :
    ∃ pc ∈ (lastStepRun c i arg2 harg2 arg3 harg3 arg4 harg4 arg5 harg5 arg6 harg6 arg7 harg7 arg8 harg8 arg9 harg9 hr hs x0 x1 x2 x3 x4 x5 xs).1, y ∈ pc.1.set :=
  View.cover_of_tiledL (lastStepRun c i arg2 harg2 arg3 harg3 arg4 harg4 arg5 harg5 arg6 harg6 arg7 harg7 arg8 harg8 arg9 harg9 hr hs x0 x1 x2 x3 x4 x5 xs).1 S1x256x64.size (by sl_kernel_rfl) y

/-- What the last step of a sweep leaves in the accumulator, -/
def accAfterLast (hr : ¬resetsAt i) (hs : storesAt i) (xs : Vec F S1x256x64 .f32) : Vec F S1x256x64 .f32 :=
  accV1.read (Elt F) (accV1.writes (Elt F) accV1.junk (lastStepRun c i arg2 harg2 arg3 harg3 arg4 harg4 arg5 harg5 arg6 harg6 arg7 harg7 arg8 harg8 arg9 harg9 hr hs x0 x1 x2 x3 x4 x5 xs).2.1)

/-- and in the output window's staging buffer. -/
def outAfterLast (hr : ¬resetsAt i) (hs : storesAt i) (xs : Vec F S1x256x64 .f32) : Vec F S1x256x64 .f32 :=
  outV1.read (Elt F) (outV1.writes (Elt F) outV1.junk (lastStepRun c i arg2 harg2 arg3 harg3 arg4 harg4 arg5 harg5 arg6 harg6 arg7 harg7 arg8 harg8 arg9 harg9 hr hs x0 x1 x2 x3 x4 x5 xs).1)

/-! ### Each found piece read as the body's arithmetic

The runs' witnesses opened: every access of the body is a whole-buffer one at the origin, so a piece list's contents
are its last store's payload, a load of an input is the input, and a load of the accumulator after a store into it is
what was stored. -/

/-- The offsets of every access of the body: the origin. -/
theorem zero_off2 : (![0, 0] : Fin 2 → Nat) = fun _ => 0 := funext fun a => by fin_cases a <;> rfl
theorem zero_off3 : (![0, 0, 0] : Fin 3 → Nat) = fun _ => 0 := funext fun a => by fin_cases a <;> rfl

/-- THE FIRST STEP, READ: the accumulator is reset to zero (`k1_pay2`), and the point's pooled contribution of its six
    blocks added to that (`k1_pay3`); stored back through an identity reshape (`k1_pay1`). -/
theorem accAfterFirst_eq (hr : resetsAt i) (hs : ¬storesAt i) :
    accAfterFirst c i arg2 harg2 arg3 harg3 arg4 harg4 arg5 harg5 arg6 harg6 arg7 harg7 arg8 harg8 arg9 harg9 x0 x1 x2 x3 x4 x5 hr hs = k1_pay1 (k1_pay3 x0 x1 x2 x4 x3 x5 (k1_pay2 (F := F))) := by
  unfold accAfterFirst
  rw [View.read_writes_eq_canon _ _ _ (cover_acc_first c i arg2 harg2 arg3 harg3 arg4 harg4 arg5 harg5 arg6 harg6 arg7 harg7 arg8 harg8 arg9 harg9 x0 x1 x2 x3 x4 x5 hr hs)]
  unfold firstStepRun
  dsimp only
  sl_unfold_words
  rw [View.canon_cons_unit_zero (S := S1x256x64) zero_off3]
  simp only [View.readAt_eq_ld, harg2.read_unread, harg3.read_unread, harg4.read_unread, harg5.read_unread, harg6.read_unread, harg7.read_unread, harg9.read_unread,
    View.ld_unit_zero (S := S2944x64) zero_off2, View.ld_unit_zero (S := S64x64) zero_off2, View.ld_unit_zero (S := S1x64) zero_off2,
    View.ld_unit_zero (S := S1x2944) zero_off2, View.ld_unit_zero (S := S1x256x64) zero_off3,
    View.readCov_unit_zero (S := S1x256x64) _ zero_off3]

/-- A MIDDLE STEP, READ: the point's pooled contribution added to what the point before left (`xs`). -/
theorem accAfterMiddle_eq (hr : ¬resetsAt i) (hs : ¬storesAt i) (xs : Vec F S1x256x64 .f32) :
    accAfterMiddle c i arg2 harg2 arg3 harg3 arg4 harg4 arg5 harg5 arg6 harg6 arg7 harg7 arg8 harg8 arg9 harg9 x0 x1 x2 x3 x4 x5 hr hs xs = k1_pay1 (k1_pay3 x0 x1 x2 x4 x3 x5 xs) := by
  unfold accAfterMiddle
  rw [View.read_writes_eq_canon _ _ _ (cover_acc_middle c i arg2 harg2 arg3 harg3 arg4 harg4 arg5 harg5 arg6 harg6 arg7 harg7 arg8 harg8 arg9 harg9 x0 x1 x2 x3 x4 x5 hr hs xs)]
  unfold middleStepRun
  dsimp only
  sl_unfold_words
  rw [View.canon_unit_zero (S := S1x256x64) zero_off3]
  simp only [View.readAt_eq_ld, harg2.read_unread, harg3.read_unread, harg4.read_unread, harg5.read_unread, harg6.read_unread, harg7.read_unread, harg9.read_unread,
    View.ld_unit_zero (S := S2944x64) zero_off2, View.ld_unit_zero (S := S64x64) zero_off2, View.ld_unit_zero (S := S1x64) zero_off2,
    View.ld_unit_zero (S := S1x2944) zero_off2, View.ld_unit_zero (S := S1x256x64) zero_off3,
    View.readCov_unit_zero (S := S1x256x64) _ zero_off3]

/-- THE LAST STEP, READ, the accumulator: as a middle step. -/
theorem accAfterLast_eq (hr : ¬resetsAt i) (hs : storesAt i) (xs : Vec F S1x256x64 .f32) :
    accAfterLast c i arg2 harg2 arg3 harg3 arg4 harg4 arg5 harg5 arg6 harg6 arg7 harg7 arg8 harg8 arg9 harg9 x0 x1 x2 x3 x4 x5 hr hs xs = k1_pay1 (k1_pay3 x0 x1 x2 x4 x3 x5 xs) := by
  unfold accAfterLast
  rw [View.read_writes_eq_canon _ _ _ (cover_acc_last c i arg2 harg2 arg3 harg3 arg4 harg4 arg5 harg5 arg6 harg6 arg7 harg7 arg8 harg8 arg9 harg9 x0 x1 x2 x3 x4 x5 hr hs xs)]
  unfold lastStepRun
  dsimp only
  sl_unfold_words
  rw [View.canon_unit_zero (S := S1x256x64) zero_off3]
  simp only [View.readAt_eq_ld, harg2.read_unread, harg3.read_unread, harg4.read_unread, harg5.read_unread, harg6.read_unread, harg7.read_unread, harg9.read_unread,
    View.ld_unit_zero (S := S2944x64) zero_off2, View.ld_unit_zero (S := S64x64) zero_off2, View.ld_unit_zero (S := S1x64) zero_off2,
    View.ld_unit_zero (S := S1x2944) zero_off2, View.ld_unit_zero (S := S1x256x64) zero_off3,
    View.readCov_unit_zero (S := S1x256x64) _ zero_off3]

/-- THE LAST STEP, READ, the output block: the accumulator's new contents, loaded back and stored whole. -/
theorem outAfterLast_eq (hr : ¬resetsAt i) (hs : storesAt i) (xs : Vec F S1x256x64 .f32) :
    outAfterLast c i arg2 harg2 arg3 harg3 arg4 harg4 arg5 harg5 arg6 harg6 arg7 harg7 arg8 harg8 arg9 harg9 x0 x1 x2 x3 x4 x5 hr hs xs = k1_pay1 (k1_pay3 x0 x1 x2 x4 x3 x5 xs) := by
  unfold outAfterLast
  rw [View.read_writes_eq_canon _ _ _ (cover_out_last c i arg2 harg2 arg3 harg3 arg4 harg4 arg5 harg5 arg6 harg6 arg7 harg7 arg8 harg8 arg9 harg9 x0 x1 x2 x3 x4 x5 hr hs xs)]
  unfold lastStepRun
  dsimp only
  sl_unfold_words
  rw [View.canon_unit_zero (S := S1x256x64) zero_off3, View.readCov_unit_zero (S := S1x256x64) _ zero_off3]
  simp only [View.readAt_eq_ld, harg2.read_unread, harg3.read_unread, harg4.read_unread, harg5.read_unread, harg6.read_unread, harg7.read_unread, harg9.read_unread,
    View.ld_unit_zero (S := S2944x64) zero_off2, View.ld_unit_zero (S := S64x64) zero_off2, View.ld_unit_zero (S := S1x64) zero_off2,
    View.ld_unit_zero (S := S1x2944) zero_off2, View.ld_unit_zero (S := S1x256x64) zero_off3,
    View.readCov_unit_zero (S := S1x256x64) _ zero_off3]

end Cases

/-! ## The cases at a grid point, on the memrefs and blocks the pipeline hands the body there -/

theorem not_storesAt_of_first (t : Fin cfg1.N) (h0 : t.val % 17 = 0) : ¬storesAt (grid1.coords t) :=
  fun h => by have := (storesAt_iff t).mp h; omega
theorem not_resetsAt_of (t : Fin cfg1.N) (h0 : ¬t.val % 17 = 0) : ¬resetsAt (grid1.coords t) :=
  fun h => h0 ((resetsAt_iff t).mp h)
theorem not_storesAt_of (t : Fin cfg1.N) (h16 : ¬t.val % 17 = 16) : ¬storesAt (grid1.coords t) :=
  fun h => h16 ((storesAt_iff t).mp h)

/-- The accumulator after point `t`, a sweep's first step. -/
def accFirstAt (c : Dev nD) (t : Fin cfg1.N) (h0 : t.val % 17 = 0) : Vec F S1x256x64 .f32 :=
  accAfterFirst c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1 (Memref.isWhole_whole _) (iblk1 V c 0 t) (iblk1 V c 1 t) (iblk1 V c 2 t) (iblk1 V c 3 t) (iblk1 V c 4 t) (iblk1 V c 5 t) ((resetsAt_iff t).mpr h0) (not_storesAt_of_first t h0)

/-- The accumulator after point `t`, a middle step, from what the point before left in it. -/
def accMiddleAt (c : Dev nD) (t : Fin cfg1.N) (h0 : ¬t.val % 17 = 0) (h16 : ¬t.val % 17 = 16) (xs : Vec F S1x256x64 .f32) : Vec F S1x256x64 .f32 :=
  accAfterMiddle c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1 (Memref.isWhole_whole _) (iblk1 V c 0 t) (iblk1 V c 1 t) (iblk1 V c 2 t) (iblk1 V c 3 t) (iblk1 V c 4 t) (iblk1 V c 5 t) (not_resetsAt_of t h0) (not_storesAt_of t h16) xs

/-- The accumulator after point `t`, a sweep's last step, -/
def accLastAt (c : Dev nD) (t : Fin cfg1.N) (h0 : ¬t.val % 17 = 0) (h16 : t.val % 17 = 16) (xs : Vec F S1x256x64 .f32) : Vec F S1x256x64 .f32 :=
  accAfterLast c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1 (Memref.isWhole_whole _) (iblk1 V c 0 t) (iblk1 V c 1 t) (iblk1 V c 2 t) (iblk1 V c 3 t) (iblk1 V c 4 t) (iblk1 V c 5 t) (not_resetsAt_of t h0) ((storesAt_iff t).mpr h16) xs

/-- and the output window's staging buffer there. -/
def outLastAt (c : Dev nD) (t : Fin cfg1.N) (h0 : ¬t.val % 17 = 0) (h16 : t.val % 17 = 16) (xs : Vec F S1x256x64 .f32) : Vec F S1x256x64 .f32 :=
  outAfterLast c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1 (Memref.isWhole_whole _) (iblk1 V c 0 t) (iblk1 V c 1 t) (iblk1 V c 2 t) (iblk1 V c 3 t) (iblk1 V c 4 t) (iblk1 V c 5 t) (not_resetsAt_of t h0) ((storesAt_iff t).mpr h16) xs

/-! ## What the output window's buffer and the accumulator hold after each point -/

/-- THE ACCUMULATION. After the body at position `n`: (the output window's staging buffer, the accumulator). The case is
    read off `n % 17`; a middle or last step runs over what position `n - 1` left in the accumulator. Where the body
    leaves the output window idle (first and middle steps) its buffer is handed back untouched and is neither written
    back nor read later: the first component is then a placeholder nothing consults, set to the accumulator's contents. -/
def outsAt1 (c : Dev nD) : (n : ℕ) → n < cfg1.N → Vec F S1x256x64 .f32 × Vec F S1x256x64 .f32
  | 0, hn => (accFirstAt V c ⟨0, hn⟩ (Nat.zero_mod _), accFirstAt V c ⟨0, hn⟩ (Nat.zero_mod _))
  | n + 1, hn =>
    if h0 : (n + 1) % 17 = 0 then
      (accFirstAt V c ⟨n + 1, hn⟩ h0, accFirstAt V c ⟨n + 1, hn⟩ h0)
    else
      if h16 : (n + 1) % 17 = 16 then
        (outLastAt V c ⟨n + 1, hn⟩ h0 h16 (outsAt1 c n (Nat.lt_of_succ_lt hn)).2, accLastAt V c ⟨n + 1, hn⟩ h0 h16 (outsAt1 c n (Nat.lt_of_succ_lt hn)).2)
      else
        (accMiddleAt V c ⟨n + 1, hn⟩ h0 h16 (outsAt1 c n (Nat.lt_of_succ_lt hn)).2, accMiddleAt V c ⟨n + 1, hn⟩ h0 h16 (outsAt1 c n (Nat.lt_of_succ_lt hn)).2)

/-- The accumulator as the point before `t` left it. -/
abbrev accBefore1 (c : Dev nD) (t : Fin cfg1.N) : Vec F S1x256x64 .f32 :=
  (outsAt1 V c (t.val - 1) (Nat.lt_of_le_of_lt (Nat.sub_le _ _) t.isLt)).2

/-- `outsAt1` at a sweep's first step (`t % 17 = 0`: points 0 and 17): the accumulator reset, then this point's
    contribution; nothing of the point before. -/
theorem outsAt1_A (c : Dev nD) (t : Fin cfg1.N) (h0 : t.val % 17 = 0) :
    outsAt1 V c t.val t.isLt = (accFirstAt V c t h0, accFirstAt V c t h0) := by
  obtain ⟨n, hn⟩ := t
  cases n with
  | zero => exact rfl
  | succ n => exact dif_pos h0

/-- `outsAt1` at a middle step: this point's contribution added to what the point before left. -/
theorem outsAt1_B (c : Dev nD) (t : Fin cfg1.N) (h0 : ¬t.val % 17 = 0) (h16 : ¬t.val % 17 = 16) :
    outsAt1 V c t.val t.isLt = (accMiddleAt V c t h0 h16 (accBefore1 V c t), accMiddleAt V c t h0 h16 (accBefore1 V c t)) := by
  obtain ⟨n, hn⟩ := t
  cases n with
  | zero => exact absurd (Nat.zero_mod _) h0
  | succ n => exact (dif_neg h0).trans ((dif_neg h16).trans rfl)

/-- `outsAt1` at a sweep's last step (`t % 17 = 16`: points 16 and 33): the same accumulation, and the output block
    stored. -/
theorem outsAt1_C (c : Dev nD) (t : Fin cfg1.N) (h0 : ¬t.val % 17 = 0) (h16 : t.val % 17 = 16) :
    outsAt1 V c t.val t.isLt = (outLastAt V c t h0 h16 (accBefore1 V c t), accLastAt V c t h0 h16 (accBefore1 V c t)) := by
  obtain ⟨n, hn⟩ := t
  cases n with
  | zero => exact absurd (Nat.zero_mod _) h0
  | succ n => exact (dif_neg h0).trans ((dif_pos h16).trans rfl)

/-! ## The accumulation read as the body's arithmetic, point by point -/

/-- One point's update of the accumulator: the pooled contribution of point `t`'s six blocks (`k1_pay3`: the two
    matmuls, the bias, `tanh`, then the one-hot pooling matmul) added to `s`, through the body's identity reshape
    (`k1_pay1`). The blocks go to the payload in the order of its loads: windows 0, 1, 2, 4, 3, 5. -/
def stepAt1 (c : Dev nD) (t : Fin cfg1.N) (s : Vec F S1x256x64 .f32) : Vec F S1x256x64 .f32 :=
  k1_pay1 (k1_pay3 (iblk1 V c 0 t) (iblk1 V c 1 t) (iblk1 V c 2 t) (iblk1 V c 4 t) (iblk1 V c 3 t) (iblk1 V c 5 t) s)

/-- After a sweep's first step the accumulator holds that point's update of ZERO (`k1_pay2`), whatever it held. -/
theorem acc_first (c : Dev nD) (t : Fin cfg1.N) (h0 : t.val % 17 = 0) :
    (outsAt1 V c t.val t.isLt).2 = stepAt1 V c t (k1_pay2 (F := F)) := by
  rw [outsAt1_A V c t h0]; dsimp only
  unfold accFirstAt stepAt1
  exact accAfterFirst_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1 (Memref.isWhole_whole _) (iblk1 V c 0 t) (iblk1 V c 1 t) (iblk1 V c 2 t) (iblk1 V c 3 t) (iblk1 V c 4 t) (iblk1 V c 5 t) ((resetsAt_iff t).mpr h0) (not_storesAt_of_first t h0)

/-- After a middle step it holds that point's update of what the point before left. -/
theorem acc_middle (c : Dev nD) (t : Fin cfg1.N) (h0 : ¬t.val % 17 = 0) (h16 : ¬t.val % 17 = 16) :
    (outsAt1 V c t.val t.isLt).2 = stepAt1 V c t (accBefore1 V c t) := by
  rw [outsAt1_B V c t h0 h16]; dsimp only
  unfold accMiddleAt stepAt1
  exact accAfterMiddle_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1 (Memref.isWhole_whole _) (iblk1 V c 0 t) (iblk1 V c 1 t) (iblk1 V c 2 t) (iblk1 V c 3 t) (iblk1 V c 4 t) (iblk1 V c 5 t) (not_resetsAt_of t h0) (not_storesAt_of t h16) (accBefore1 V c t)

/-- After a sweep's last step likewise, -/
theorem acc_last (c : Dev nD) (t : Fin cfg1.N) (h0 : ¬t.val % 17 = 0) (h16 : t.val % 17 = 16) :
    (outsAt1 V c t.val t.isLt).2 = stepAt1 V c t (accBefore1 V c t) := by
  rw [outsAt1_C V c t h0 h16]; dsimp only
  unfold accLastAt stepAt1
  exact accAfterLast_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1 (Memref.isWhole_whole _) (iblk1 V c 0 t) (iblk1 V c 1 t) (iblk1 V c 2 t) (iblk1 V c 3 t) (iblk1 V c 4 t) (iblk1 V c 5 t) (not_resetsAt_of t h0) ((storesAt_iff t).mpr h16) (accBefore1 V c t)

/-- and the output window's staging buffer, which the pipeline then writes back, holds the same. -/
theorem out_last (c : Dev nD) (t : Fin cfg1.N) (h0 : ¬t.val % 17 = 0) (h16 : t.val % 17 = 16) :
    (outsAt1 V c t.val t.isLt).1 = stepAt1 V c t (accBefore1 V c t) := by
  rw [outsAt1_C V c t h0 h16]; dsimp only
  unfold outLastAt stepAt1
  exact outAfterLast_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) acc1 (Memref.isWhole_whole _) (iblk1 V c 0 t) (iblk1 V c 1 t) (iblk1 V c 2 t) (iblk1 V c 3 t) (iblk1 V c 4 t) (iblk1 V c 5 t) (not_resetsAt_of t h0) ((storesAt_iff t).mpr h16) (accBefore1 V c t)

/-- At every point that is not a sweep's first step the accumulator holds the point's update of what the point before
    left. -/
theorem acc_step (c : Dev nD) (t : Fin cfg1.N) (h0 : ¬t.val % 17 = 0) :
    (outsAt1 V c t.val t.isLt).2 = stepAt1 V c t (accBefore1 V c t) := by
  by_cases h16 : t.val % 17 = 16
  · exact acc_last V c t h0 h16
  · exact acc_middle V c t h0 h16

/-! ## The invariant: the accumulator's contents carried from point to point -/

/-- The region invariant before position `n`: before the first point the class's (every scoped buffer of the core that
    is no staging buffer of this call at some contents, the generator register at some state); afterwards the
    accumulator at what position `n - 1` left in it, beside the part the body never touches. -/
def PhiS1 (c : Dev nD) : (n : ℕ) → n ≤ cfg1.N → sProp 𝕄
  | 0, _ => Pipeline.ΦA spec1 c
  | n + 1, hn => iprop(owns (c : Thread nD τ) acc1 fullShare ((outsAt1 V c n hn).2) ∗ untouched1 (F := F) c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) acc1 fullShare ((outsAt1 V c n hn).2) ∗ untouched1 (F := F) c) := rfl

theorem PhiS1_pos (c : Dev nD) (n : ℕ) (h : n ≤ cfg1.N) (hz : n ≠ 0) :
    PhiS1 V c n h = iprop(owns (c : Thread nD τ) acc1 fullShare ((outsAt1 V c (n - 1) (by omega)).2) ∗ untouched1 (F := F) c) := by
  cases n with
  | zero => exact absurd rfl hz
  | succ n => rfl

/-! ## The pipeline's proof data -/

/-- The proof data of the pooling call's pipeline on core `c`: the arrays as the region finds them (`V`); after the body
    at point `t` each input's buffer at its block and the output's at `outsAt1`'s first component; the invariant
    `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

/-- An input window is live everywhere, so the body hands its buffer back at what it leaves there: its block. -/
theorem leaves1_0 (c : Dev nD) (t : Fin cfg1.N) :
    (dat1 V c).leavesExact 0 t = owns (c : Thread nD τ) (ms1_0 t) fullShare (iblk1 V c 0 t) := by
  unfold Dat.leavesExact; rw [live1_in 0 (by decide) t, after1_0]
theorem leaves1_1 (c : Dev nD) (t : Fin cfg1.N) :
    (dat1 V c).leavesExact 1 t = owns (c : Thread nD τ) (ms1_1 t) fullShare (iblk1 V c 1 t) := by
  unfold Dat.leavesExact; rw [live1_in 1 (by decide) t, after1_1]
theorem leaves1_2 (c : Dev nD) (t : Fin cfg1.N) :
    (dat1 V c).leavesExact 2 t = owns (c : Thread nD τ) (ms1_2 t) fullShare (iblk1 V c 2 t) := by
  unfold Dat.leavesExact; rw [live1_in 2 (by decide) t, after1_2]
theorem leaves1_3 (c : Dev nD) (t : Fin cfg1.N) :
    (dat1 V c).leavesExact 3 t = owns (c : Thread nD τ) (ms1_3 t) fullShare (iblk1 V c 3 t) := by
  unfold Dat.leavesExact; rw [live1_in 3 (by decide) t, after1_3]
theorem leaves1_4 (c : Dev nD) (t : Fin cfg1.N) :
    (dat1 V c).leavesExact 4 t = owns (c : Thread nD τ) (ms1_4 t) fullShare (iblk1 V c 4 t) := by
  unfold Dat.leavesExact; rw [live1_in 4 (by decide) t, after1_4]
theorem leaves1_5 (c : Dev nD) (t : Fin cfg1.N) :
    (dat1 V c).leavesExact 5 t = owns (c : Thread nD τ) (ms1_5 t) fullShare (iblk1 V c 5 t) := by
  unfold Dat.leavesExact; rw [live1_in 5 (by decide) t, after1_5]

set_option maxHeartbeats 4800000 in
/-- The body at any point. The inputs' memrefs hold their blocks; `t % 17` says which case the point is in, and that
    case's run applies. The invariant hands the body the accumulator — at anything before the very first point, else
    at what the point before left — and takes it back at this point's contents (the run's pieces cover it); the first
    step of the SECOND sweep (point 17) finds the first sweep's last contents there and overwrites them. Where the
    body does not store the output block its buffer goes back untouched; at a last step it goes back at the pieces
    written, which cover it. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, leaves1_5]
  have hN : t.val < 34 := lt_of_lt_of_eq t.isLt (show cfg1.N = 34 from N_1)
  by_cases h0 : t.val % 17 = 0
  · rw [Dat.leavesExact_idle (dat1 V c) 6 t (idle1_6 t (not_storesAt_of_first t h0)) (noFlush1_6 t (not_storesAt_of_first t h0))]
    rw [outsAt1_A V c t h0]
    unfold accFirstAt accAfterFirst; (try dsimp only)
    by_cases hz : t.val = 0
    · rw [PhiS1_castSucc V c t, PhiS1_zero V c _ _ hz, PhiA1_eq]
      iintro ⟨⟨HS, Hu⟩, Ho, ⟨%d0, H0⟩, ⟨%d1, H1⟩, ⟨%d2, H2⟩, ⟨%d3, H3⟩, ⟨%d4, H4⟩, ⟨%d5, H5⟩, ⟨%d6, H6⟩⟩
      iapply ((firstStepRun c (grid1.coords t) _ _ _ _ _ _ _ _ _ _ _ _ _ _ _ _ ((resetsAt_iff t).mpr h0) (not_storesAt_of_first t h0) (iblk1 V c 0 t) (iblk1 V c 1 t) (iblk1 V c 2 t) (iblk1 V c 3 t) (iblk1 V c 4 t) (iblk1 V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hu]
      · isplitl [HS]
        · unfold owns; iexists _; isplitr
          swap; · iexact HS
          ipureintro; exact View.read_writes_of_cover _ _ _ _ _ (cover_acc_first c _ _ _ _ _ _ _ _ _ _ _ _ _ _ _ _ _ _ _ _ _ _ _ _ _)
        iexact Hu
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS1_castSucc V c t, PhiS1_pos V c _ _ hz]
      iintro ⟨⟨HS, Hu⟩, Ho, ⟨%d0, H0⟩, ⟨%d1, H1⟩, ⟨%d2, H2⟩, ⟨%d3, H3⟩, ⟨%d4, H4⟩, ⟨%d5, H5⟩, ⟨%d6, H6⟩⟩
      iapply ((firstStepRun c (grid1.coords t) _ _ _ _ _ _ _ _ _ _ _ _ _ _ _ _ ((resetsAt_iff t).mpr h0) (not_storesAt_of_first t h0) (iblk1 V c 0 t) (iblk1 V c 1 t) (iblk1 V c 2 t) (iblk1 V c 3 t) (iblk1 V c 4 t) (iblk1 V c 5 t)).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexists _; iexact HS
      iintro ⟨H0, H1, H2, H3, H4, H5, H6, ⟨%es, HS⟩⟩
      isplitl [HS Hu]
      · isplitl [HS]
        · unfold owns; iexists _; isplitr
          swap; · iexact HS
          ipureintro; exact View.read_writes_of_cover _ _ _ _ _ (cover_acc_first c _ _ _ _ _ _ _ _ _ _ _ _ _ _ _ _ _ _ _ _ _ _ _ _ _)
        iexact Hu
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    by_cases h16 : t.val % 17 = 16
    · rw [show (dat1 V c).leavesExact 6 t = owns (c : Thread nD τ) (ms1_6 t) fullShare ((dat1 V c).after 6 t) from by
        unfold Dat.leavesExact; rw [live1_6 t ((storesAt_iff t).mpr h16)], after1_6]
      rw [outsAt1_C V c t h0 h16]
      unfold outLastAt accLastAt outAfterLast accAfterLast; (try dsimp only)
      rw [PhiS1_castSucc V c t, PhiS1_pos V c _ _ hz]
      iintro ⟨⟨HS, Hu⟩, Ho, ⟨%d0, H0⟩, ⟨%d1, H1⟩, ⟨%d2, H2⟩, ⟨%d3, H3⟩, ⟨%d4, H4⟩, ⟨%d5, H5⟩, ⟨%d6, H6⟩⟩
      iapply ((lastStepRun c (grid1.coords t) _ _ _ _ _ _ _ _ _ _ _ _ _ _ _ _ (not_resetsAt_of t h0) ((storesAt_iff t).mpr h16) (iblk1 V c 0 t) (iblk1 V c 1 t) (iblk1 V c 2 t) (iblk1 V c 3 t) (iblk1 V c 4 t) (iblk1 V c 5 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS Hu]
      · isplitl [HS]
        · unfold owns; iexists _; isplitr
          swap; · iexact HS
          ipureintro; exact View.read_writes_of_cover _ _ _ _ _ (cover_acc_last c _ _ _ _ _ _ _ _ _ _ _ _ _ _ _ _ _ _ _ _ _ _ _ _ _ _)
        iexact Hu
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro; exact View.read_writes_of_cover _ _ _ _ _ (cover_out_last c _ _ _ _ _ _ _ _ _ _ _ _ _ _ _ _ _ _ _ _ _ _ _ _ _ _)
    · rw [Dat.leavesExact_idle (dat1 V c) 6 t (idle1_6 t (not_storesAt_of t h16)) (noFlush1_6 t (not_storesAt_of t h16))]
      rw [outsAt1_B V c t h0 h16]
      unfold accMiddleAt accAfterMiddle; (try dsimp only)
      rw [PhiS1_castSucc V c t, PhiS1_pos V c _ _ hz]
      iintro ⟨⟨HS, Hu⟩, Ho, ⟨%d0, H0⟩, ⟨%d1, H1⟩, ⟨%d2, H2⟩, ⟨%d3, H3⟩, ⟨%d4, H4⟩, ⟨%d5, H5⟩, ⟨%d6, H6⟩⟩
      iapply ((middleStepRun c (grid1.coords t) _ _ _ _ _ _ _ _ _ _ _ _ _ _ _ _ (not_resetsAt_of t h0) (not_storesAt_of t h16) (iblk1 V c 0 t) (iblk1 V c 1 t) (iblk1 V c 2 t) (iblk1 V c 3 t) (iblk1 V c 4 t) (iblk1 V c 5 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, ⟨%es, HS⟩⟩
      isplitl [HS Hu]
      · isplitl [HS]
        · unfold owns; iexists _; isplitr
          swap; · iexact HS
          ipureintro; exact View.read_writes_of_cover _ _ _ _ _ (cover_acc_middle c _ _ _ _ _ _ _ _ _ _ _ _ _ _ _ _ _ _ _ _ _ _ _ _ _ _)
        iexact Hu
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS, Hu⟩
  isplitl [HS]
  · iexists _; iexact HS
  iexact Hu

/-- The same after the last point. -/
theorem hout1 (c : Dev nD) : (dat1 V c).Φ (Fin.last cfg1.N) ⊢ Pipeline.ΦA spec1 c :=
  Phi_out1 V c _ (by rw [Fin.val_last]; have : cfg1.N = 34 := N_1; omega)

end Cert.KernelIdeal.Hand

end
-- ==== Proof.KI.Run.lean ====
/-
  The whole program as a run, for any float instance: nine items — three stretches of host operations, the first
  pallas_call, three more stretches, the second pallas_call, the closing stretch — chained from the launch memory.
  The buffer contents between items are a fold from the launch memory: a host stretch applies its operations; a
  pallas_call replaces its output array by what the pipeline's write-backs leave and keeps every other buffer.
  Every weakly fair execution terminates; the result array ends at the fold's last value and the arguments as launched.
-/
import proofs.«410272_j33930241638933_2_alg».proof.Proof.Gen.KernelIdeal.Regions
import proofs.«410272_j33930241638933_2_alg».proof.Proof.KI.Region0
import proofs.«410272_j33930241638933_2_alg».proof.Proof.KI.Region1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The contents the two regions are entered with, and what they leave -/

/-- The buffers when the first region is entered: the launch memory after the first three host stretches. -/
abbrev enter0 : (c : Dev nD) → (b : Ref sig .tc) → Buf (Elt F) ((c : Thread nD τ).loc b) := fun c b => Gen.V3 m c b

/-- What the first region leaves in its output array (the hidden layer, padded rows included): the write-backs of all
    34 points folded. Elsewhere this family is never read. -/
def hiddenArr (c : Dev nD) : Buf (Elt F) ((c : Thread nD τ).loc main_v18) := (dat0 (enter0 m) c).arrAt 5 cfg0.N

/-- The contents family the fold reads a region's output from: here with the first region's only. -/
def left0 : Gen.Outs (F := F) := fun _ r c =>
  Function.update (fun r' : Ref sig .tc => m ((c : Thread nD τ).loc r')) main_v18 (hiddenArr m c) r

/-- The buffers when the second region is entered. -/
abbrev enter1 : (c : Dev nD) → (b : Ref sig .tc) → Buf (Elt F) ((c : Thread nD τ).loc b) := fun c b => Gen.V7 m (left0 m) c b

/-- What both regions leave: the first its hidden layer, the second the two per-core pooled partial sums. -/
def pooledArr (c : Dev nD) : Buf (Elt F) ((c : Thread nD τ).loc main_v33) := (dat1 (enter1 m) c).arrAt 6 cfg1.N

/-- The contents family with both regions' outputs. -/
def left : Gen.Outs (F := F) := fun _ r c =>
  Function.update (fun r' : Ref sig .tc => left0 m 0 r' c) main_v33 (pooledArr m c) r

theorem left_hidden (c : Dev nD) (n : ℕ) : left m n main_v18 c = hiddenArr m c := by
  unfold left left0
  rw [Function.update_of_ne (by decide), Function.update_self]

theorem left0_hidden (c : Dev nD) (n : ℕ) : left0 m n main_v18 c = hiddenArr m c := by
  unfold left0
  rw [Function.update_self]

theorem left_pooled (c : Dev nD) (n : ℕ) : left m n main_v33 c = pooledArr m c := by
  unfold left
  rw [Function.update_self]

/-- Up to the second region only the first region's output is read, so the two families give the same contents there. -/
theorem enter1_left (c : Dev nD) : Gen.V7 m (left m) c = Gen.V7 m (left0 m) c := by
  show StableHlo.after hostOps1_2 (StableHlo.after hostOps1_1 (StableHlo.after hostOps1
      (Function.update (Gen.V3 m c) (main_v18 : Ref sig .tc) (left m 4 main_v18 c)))) = StableHlo.after hostOps1_2 (StableHlo.after hostOps1_1 (StableHlo.after hostOps1
      (Function.update (Gen.V3 m c) (main_v18 : Ref sig .tc) (left0 m 4 main_v18 c))))
  rw [left_hidden, left0_hidden]

/-- The buffers when each region is left. -/
abbrev leave0 : (c : Dev nD) → (b : Ref sig .tc) → Buf (Elt F) ((c : Thread nD τ).loc b) := fun c b => Gen.V4 m (left m) c b
abbrev leave1 : (c : Dev nD) → (b : Ref sig .tc) → Buf (Elt F) ((c : Thread nD τ).loc b) := fun c b => Gen.V8 m (left m) c b

/-! ## The proof data family and what rides along -/

/-- Each pipeline's proof data at its region's entry contents. -/
def pdats : (p : Fin 2) → (c : Dev nD) → Dat τ (Elt F) Unit ℕ (UR sig nD τ) ℕ (cfgs p) c
  | ⟨0, _⟩ => fun c => dat0 (enter0 m) c
  | ⟨1, _⟩ => fun c => dat1 (enter1 m) c

/-- No core owes another anything. -/
abbrev noLevels : GSem nD τ sig → Finset Unit := fun _ => ∅
abbrev zeroLevel : GSem nD τ sig → Unit → ℕ := fun _ _ => 0
/-- Beside the buffers, through every item: the generator register at some state and the core's dues, at nothing. -/
abbrev rides (c : Dev nD) : sProp 𝕄 := iprop((∃ r, prngReg c r) ∗ ∃ W, owes (c : Thread nD τ) (0 : CellTallies nD τ sig Unit) W)

/-- At the first region's exit each of its arrays holds what the pipeline leaves: the five inputs as entered, the output
    its write-backs. -/
theorem leave0_arr (c : Dev nD) (w : Fin cfg0.W) : (dat0 (enter0 m) c).arrAt w cfg0.N = leave0 m c (Pipeline.arrRef spec0 w) :=
  match w with
  | ⟨0, _⟩ => ((dat0 (enter0 m) c).arrAt_in 0 rfl _).trans ((A_eq0 (enter0 m) c 0).trans (Gen.V4_of m (left m) c _ (by decide)).symm)
  | ⟨1, _⟩ => ((dat0 (enter0 m) c).arrAt_in 1 rfl _).trans ((A_eq0 (enter0 m) c 1).trans (Gen.V4_of m (left m) c _ (by decide)).symm)
  | ⟨2, _⟩ => ((dat0 (enter0 m) c).arrAt_in 2 rfl _).trans ((A_eq0 (enter0 m) c 2).trans (Gen.V4_of m (left m) c _ (by decide)).symm)
  | ⟨3, _⟩ => ((dat0 (enter0 m) c).arrAt_in 3 rfl _).trans ((A_eq0 (enter0 m) c 3).trans (Gen.V4_of m (left m) c _ (by decide)).symm)
  | ⟨4, _⟩ => ((dat0 (enter0 m) c).arrAt_in 4 rfl _).trans ((A_eq0 (enter0 m) c 4).trans (Gen.V4_of m (left m) c _ (by decide)).symm)
  | ⟨5, _⟩ => by
    show hiddenArr m c = Function.update (Gen.V3 m c) (main_v18 : Ref sig .tc) (left m 4 main_v18 c) (main_v18 : Ref sig .tc)
    rw [Function.update_self, left_hidden]
theorem leave0_rest (c : Dev nD) : ∀ b, b ∉ Finset.univ.image (Pipeline.arrRef spec0) → leave0 m c b = enter0 m c b :=
  fun b hb => Gen.V4_of m (left m) c b fun h => hb (Finset.mem_image.mpr ⟨5, Finset.mem_univ _, by rw [List.mem_singleton.mp h]⟩)

theorem leave1_arr (c : Dev nD) (w : Fin cfg1.W) : (dat1 (enter1 m) c).arrAt w cfg1.N = leave1 m c (Pipeline.arrRef spec1 w) :=
  match w with
  | ⟨0, _⟩ => ((dat1 (enter1 m) c).arrAt_in 0 rfl _).trans ((A_eq1 (enter1 m) c 0).trans ((congrFun (enter1_left m c) _).symm.trans (Gen.V8_of m (left m) c _ (by decide)).symm))
  | ⟨1, _⟩ => ((dat1 (enter1 m) c).arrAt_in 1 rfl _).trans ((A_eq1 (enter1 m) c 1).trans ((congrFun (enter1_left m c) _).symm.trans (Gen.V8_of m (left m) c _ (by decide)).symm))
  | ⟨2, _⟩ => ((dat1 (enter1 m) c).arrAt_in 2 rfl _).trans ((A_eq1 (enter1 m) c 2).trans ((congrFun (enter1_left m c) _).symm.trans (Gen.V8_of m (left m) c _ (by decide)).symm))
  | ⟨3, _⟩ => ((dat1 (enter1 m) c).arrAt_in 3 rfl _).trans ((A_eq1 (enter1 m) c 3).trans ((congrFun (enter1_left m c) _).symm.trans (Gen.V8_of m (left m) c _ (by decide)).symm))
  | ⟨4, _⟩ => ((dat1 (enter1 m) c).arrAt_in 4 rfl _).trans ((A_eq1 (enter1 m) c 4).trans ((congrFun (enter1_left m c) _).symm.trans (Gen.V8_of m (left m) c _ (by decide)).symm))
  | ⟨5, _⟩ => ((dat1 (enter1 m) c).arrAt_in 5 rfl _).trans ((A_eq1 (enter1 m) c 5).trans ((congrFun (enter1_left m c) _).symm.trans (Gen.V8_of m (left m) c _ (by decide)).symm))
  | ⟨6, _⟩ => by
    show pooledArr m c = Function.update (Gen.V7 m (left m) c) (main_v33 : Ref sig .tc) (left m 8 main_v33 c) (main_v33 : Ref sig .tc)
    rw [Function.update_self, left_pooled]
theorem leave1_rest (c : Dev nD) : ∀ b, b ∉ Finset.univ.image (Pipeline.arrRef spec1) → leave1 m c b = enter1 m c b :=
  fun b hb => (Gen.V8_of m (left m) c b fun h => hb (Finset.mem_image.mpr ⟨6, Finset.mem_univ _, by rw [List.mem_singleton.mp h]⟩)).trans
    (congrFun (enter1_left m c) _)

/-! ## The two pallas_calls as segments -/

set_option backward.isDefEq.respectTransparency.types false in
/-- Pipeline 0 as a segment of the run: entered with every unscoped buffer at the contents the fold gives before it, left
    with the output array at what its write-backs leave and every other buffer as entered. Its arrays are split out of
    the unscoped buffers at entry and put back at exit; the generator register goes into the invariant and comes back;
    the core owes nothing; the kernel has no semaphore of its own. -/
def reg0 : Pipeline.RegionSeg (pcfgs (F := F)) Gen.adm (pdats m) () defs₀ Variants.none noLevels zeroLevel 0 where
  win := launch0.win.to₀
  block_pos := launch0.block_pos
  stage_whole := launch0.stage_whole
  K := PEmpty
  osem k := k.elim
  ho := Pipeline.OwnSemFacts.none _
  hbody c := (body_obligation0 (enter0 m) c).loose
  hwaits := Pipeline.hwaits_of_owed_zero _ _ _ _ noLevels zeroLevel 0 fun _ _ => rfl
  pre c := iprop(StableHlo.held (c : Thread nD τ) (Pipeline.ucRefs τ sig) (Gen.V3 m c) ∗ rides c)
  post c := iprop(StableHlo.held (c : Thread nD τ) (Pipeline.ucRefs τ sig) (Gen.V4 m (left m) c) ∗ rides c)
  X c := iprop(∃ r, prngReg c r)
  Y c := iprop(∃ r, prngReg c r)
  Z c := Pipeline.unscopedRest (Ix := Unit) (Name := ℕ) (U := UR sig nD τ) (Lvl := ℕ) spec0 c (enter0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (enter0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (enter0 m c) (leave0 m c) ((pdats m 0 c).arrAt · cfg0.N) (leave0_arr m c) (leave0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pipeline 1 as a segment of the run: entered with every unscoped buffer at the contents the fold gives before it, left
    with the output array at what its write-backs leave and every other buffer as entered. Its arrays are split out of
    the unscoped buffers at entry and put back at exit; the generator register goes into the invariant and comes back;
    the core owes nothing; the kernel has no semaphore of its own. -/
def reg1 : Pipeline.RegionSeg (pcfgs (F := F)) Gen.adm (pdats m) () defs₀ Variants.none noLevels zeroLevel 1 where
  win := launch1.win.to₀
  block_pos := launch1.block_pos
  stage_whole := launch1.stage_whole
  K := PEmpty
  osem k := k.elim
  ho := Pipeline.OwnSemFacts.none _
  hbody c := (body_obligation1 (enter1 m) c).loose
  hwaits := Pipeline.hwaits_of_owed_zero _ _ _ _ noLevels zeroLevel 1 fun _ _ => rfl
  pre c := iprop(StableHlo.held (c : Thread nD τ) (Pipeline.ucRefs τ sig) (Gen.V7 m (left0 m) c) ∗ rides c)
  post c := iprop(StableHlo.held (c : Thread nD τ) (Pipeline.ucRefs τ sig) (Gen.V8 m (left m) c) ∗ rides c)
  X c := iprop(∃ r, prngReg c r)
  Y c := iprop(∃ r, prngReg c r)
  Z c := Pipeline.unscopedRest (Ix := Unit) (Name := ℕ) (U := UR sig nD τ) (Lvl := ℕ) spec1 c (enter1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (enter1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin1 (enter1 m) c
    rw [show (pdats m 1 c).Φ 0 = (dat1 (enter1 m) c).Φ 0 from rfl]
    iintro ⟨Hp, -, Hr⟩
    iapply h
    unfold Pipeline.ΦA
    isplitl [Hr]; · iexact Hr
    iexact Hp
  hout c := by
    have h := hout1 (enter1 m) c
    rw [Pipeline.ownSems0_none, show (pdats m 1 c).Φ (Fin.last _) = (dat1 (enter1 m) c).Φ (Fin.last cfg1.N) from rfl]
    iintro H
    ihave H' := h $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (enter1 m c) (leave1 m c) ((pdats m 1 c).arrAt · cfg1.N) (leave1_arr m c) (leave1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- What the launch hands one core: its unscoped buffers at the launch memory, the generator register, no dues. -/
theorem launch_core (c : Dev nD) :
    (iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c
          ∗ prngReg c (ρ c) ∗ iprop(emp)) : sProp 𝕄)
      ⊢ iprop(StableHlo.held (c : Thread nD τ) (Pipeline.ucRefs τ sig) (Gen.V0 m c) ∗ rides c) := by
  rw [← Pipeline.unscopedBufs_held (Ix := Unit) (Name := ℕ) (U := UR sig nD τ) (Lvl := ℕ) c (Gen.V0 m c)]
  iintro ⟨Hh, -, HO, -, Hp, -⟩
  isplitl [Hh]; · iexact Hh
  isplitl [Hp]; · iexists _; iexact Hp
  iexists ∅; iexact HO

set_option backward.isDefEq.respectTransparency.types false in
/-- From any memory with zero counters every weakly fair execution of the program terminates without a fault; the result
    array ends at the fold's last value and every argument array as launched. -/
theorem run_all : θ_run defs (onTc (τ := τ) (main (F := F))) ⟨m, fun _ => 0, ρ⟩ (fun r => ∀ c : Dev nD,
      r.2.mem ((c.tc : Thread nD τ).loc main_v43) = Gen.V9 m (left m) c main_v43
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) Gen.adm (pdats m) () cellOf_inj emb₁ defs₀ Variants.none noLevels zeroLevel m ρ main
    (Gen.segs m (left m) Variants.none noLevels zeroLevel (fun _ => rides) () (pdats m) (reg0 m) (reg1 m))
    (fun c Q => by
      rewrite [main_chain c, Seg.run_eq_chain,
        show (Gen.segs m (left m) Variants.none noLevels zeroLevel (fun _ => rides) () (pdats m) (reg0 m) (reg1 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [Gen.segs, Seg.pipes_host, Seg.pipes_region, Seg.pipes_nil]; decide) (O₀ := 0) (fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ rides c))
    (Tₙ := fun c => StableHlo.held (c : Thread nD τ) (Pipeline.ucRefs τ sig) (Gen.V9 m (left m) c))
    (hch := fun c => ⟨.rfl, .rfl, .rfl, .rfl, .rfl, .rfl, .rfl, by
      show iprop(StableHlo.held (c : Thread nD τ) (Pipeline.ucRefs τ sig) (Gen.V7 m (left m) c) ∗ rides c)
        ⊢ iprop(StableHlo.held (c : Thread nD τ) (Pipeline.ucRefs τ sig) (Gen.V7 m (left0 m) c) ∗ rides c)
      rw [enter1_left m c], .rfl, sep_mono .rfl (by iintro ⟨-, H⟩; iexact H)⟩)
    (hinit := ?_) (QY := fun c s => s.mem ((c.tc : Thread nD τ).loc main_v43) = Gen.V9 m (left m) c main_v43
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8))
    (hfin := fun c s' => ?_) (hQ := fun _ h => h)
  · -- the launch: on each core the unscoped buffers are held at the launch memory; the register and the empty dues ride along
    iintro ⟨H, -⟩
    have hb : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c
          ∗ prngReg c (ρ c) ∗ iprop(emp)))
        ⊢ ((bigSep Finset.univ fun c : Dev nD => iprop(StableHlo.held (c : Thread nD τ) (Pipeline.ucRefs τ sig) (Gen.V0 m c) ∗ rides c)) : sProp 𝕄) :=
      bigSep_mono fun c _ => launch_core m ρ c
    ihave H' := hb $$ H
    imodintro
    iexact H'
  · -- the end: the result's and each argument's buffer read off the last valuation
    unfold StableHlo.held
    iintro ⟨Hh, HSI⟩
    ihave Hr := (pointsTo_read_all (Pipeline.ucRefs τ sig) (fun b => ((c : Thread nD τ).1, b)) (Gen.V9 m (left m) c) s') $$ [Hh HSI]
    · isplitl [Hh] <;> iassumption
    icases Hr with ⟨%h, HSI⟩
    imodintro
    isplitr
    · ipureintro
      exact ⟨h (Proc.devRef .tc main_v43) (Finset.mem_filter.mpr ⟨StableHlo.devRef_mem_tcRefs main_v43, by decide⟩),
        (h (Proc.devRef .tc main_arg0) (Finset.mem_filter.mpr ⟨StableHlo.devRef_mem_tcRefs main_arg0, by decide⟩)).trans (Gen.V9_main_arg0 m (left m) c),
        (h (Proc.devRef .tc main_arg1) (Finset.mem_filter.mpr ⟨StableHlo.devRef_mem_tcRefs main_arg1, by decide⟩)).trans (Gen.V9_main_arg1 m (left m) c),
        (h (Proc.devRef .tc main_arg2) (Finset.mem_filter.mpr ⟨StableHlo.devRef_mem_tcRefs main_arg2, by decide⟩)).trans (Gen.V9_main_arg2 m (left m) c),
        (h (Proc.devRef .tc main_arg3) (Finset.mem_filter.mpr ⟨StableHlo.devRef_mem_tcRefs main_arg3, by decide⟩)).trans (Gen.V9_main_arg3 m (left m) c),
        (h (Proc.devRef .tc main_arg4) (Finset.mem_filter.mpr ⟨StableHlo.devRef_mem_tcRefs main_arg4, by decide⟩)).trans (Gen.V9_main_arg4 m (left m) c),
        (h (Proc.devRef .tc main_arg5) (Finset.mem_filter.mpr ⟨StableHlo.devRef_mem_tcRefs main_arg5, by decide⟩)).trans (Gen.V9_main_arg5 m (left m) c),
        (h (Proc.devRef .tc main_arg6) (Finset.mem_filter.mpr ⟨StableHlo.devRef_mem_tcRefs main_arg6, by decide⟩)).trans (Gen.V9_main_arg6 m (left m) c),
        (h (Proc.devRef .tc main_arg7) (Finset.mem_filter.mpr ⟨StableHlo.devRef_mem_tcRefs main_arg7, by decide⟩)).trans (Gen.V9_main_arg7 m (left m) c),
        (h (Proc.devRef .tc main_arg8) (Finset.mem_filter.mpr ⟨StableHlo.devRef_mem_tcRefs main_arg8, by decide⟩)).trans (Gen.V9_main_arg8 m (left m) c)⟩
    · iexact HSI

end Cert.KernelIdeal.Hand

end
-- ==== Proof.KI.Stages.lean ====
/-
  The host side of the kernel's program as functions of its argument arrays, one per stretch of host operations,
  for any float instance: the source and destination rows of the edge list; the first layer's aggregated messages
  (rows of the node features taken at the sources, summed into the destinations, 100096 rows of which the last 96
  are padding); the node features and the graph ids padded to 100096 rows; the biases as rows; the second layer's
  aggregated messages from a hidden layer `h`; and the pooled means from the two per-core partial sums.
-/
import proofs.«410272_j33930241638933_2_alg».proof.KernelIdeal
import proofs.«410272_j33930241638933_2_alg».proof.Proof.Gen.KernelIdeal

noncomputable section

namespace Cert.KernelIdeal.Stages

open Cert.KernelIdeal Cert.KernelIdeal.Facts₀ Idealize.ShloMosaic

variable {F : FTy → Type} [FloatOps F]

/-- The edges' source nodes: row 0 of the edge list. -/
def src (e : IVec S2x1600000 32) : IVec S1600000 32 :=
  shapeCast S1600000 (extractStridedSlice S1x1600000 ![0, 0] e slices_S2x1600000_S1x1600000_0_0) shapeCasts_S1x1600000_S1600000
/-- The edges' destination nodes: row 1. -/
def dst (e : IVec S2x1600000 32) : IVec S1600000 32 :=
  shapeCast S1600000 (extractStridedSlice S1x1600000 ![1, 0] e slices_S2x1600000_S1x1600000_1_0) shapeCasts_S1x1600000_S1600000

/-- The sources as start indices into an array of `n` rows: a negative index counted from the end. -/
def startsOf (n : BitVec 32) (e : IVec S2x1600000 32) : IVec S1600000x1 32 :=
  broadcastInDim S1600000x1 ![0] bcast_S1600000_S1600000x1_0
    (select (cmpi .slt (src e) (broadcastInDim S1600000 ![] bcast_S_S1600000 (constantI S_ 32 0#32)))
      (addi (src e) (broadcastInDim S1600000 ![] bcast_S_S1600000 (constantI S_ 32 n))) (src e))
/-- The destinations as scatter indices. -/
def dstCol (e : IVec S2x1600000 32) : IVec S1600000x1 32 := broadcastInDim S1600000x1 ![0] bcast_S1600000_S1600000x1_0 (dst e)

/-- Layer 1's aggregated messages: the features' rows at the sources, summed into the destinations. -/
def agg1 (x : FVec F S100000x32 .f32) (e : IVec S2x1600000 32) : FVec F S100096x32 .f32 :=
  Host.scatterAdd scatter_S100096x32_S1600000x1_S1600000x32_1_0_0_1
    (broadcastInDim S100096x32 ![] bcast_S_S100096x32 (constant S_ .f32 0x00000000#32)) (dstCol e)
    (extf .f32 (Host.gather gather_S100000x32_S1600000x1_S1600000x32_1_0_n_n_0_1_132 (truncf .bf16 x bitsLt_bf16_f32) (startsOf 100000#32 e)) bitsLt_bf16_f32)
/-- The node features with 96 zero rows appended. -/
def xPad (x : FVec F S100000x32 .f32) : FVec F S100096x32 .f32 :=
  pad S100096x32 ![0, 0] ![96, 0] ![0, 0] x (sitofp .f32 (constantI S_ 32 0#32)) pads_S100000x32_S100096x32_0960_000 h_S_
/-- A bias as a 1×64 row. -/
def biasRow (b : FVec F S64 .f32) : FVec F S1x64 .f32 := shapeCast S1x64 b shapeCasts_S64_S1x64

/-- Layer 2's aggregated messages from the (padded) hidden layer `h`. -/
def agg2 (h : FVec F S100096x64 .bf16) (e : IVec S2x1600000 32) : FVec F S100096x64 .f32 :=
  Host.scatterAdd scatter_S100096x64_S1600000x1_S1600000x64_1_0_0_1
    (broadcastInDim S100096x64 ![] bcast_S_S100096x64 (constant S_ .f32 0x00000000#32)) (dstCol e)
    (extf .f32 (Host.gather gather_S100096x64_S1600000x1_S1600000x64_1_0_n_n_0_1_164 h (startsOf 100096#32 e)) bitsLt_bf16_f32)
/-- The graph ids with 96 entries −1 appended, as a 1×100096 row. -/
def idsPad (g : IVec S100000 32) : IVec S1x100096 32 :=
  shapeCast S1x100096 (pad S100096 ![0] ![96] ![0] g (id (constantI S_ 32 4294967295#32)) pads_S100000_S100096_0960 h_S_) shapeCasts_S100096_S1x100096

/-- The two cores' partial sums added. -/
def pooledSum (p : FVec F S2x256x64 .f32) : FVec F S256x64 .f32 :=
  Host.reduceAdd p (constant S_ .f32 0x00000000#32) reducesTo_S2x256x64_S256x64_d0 h_S_
/-- Each graph's node count, at least one, along the features. -/
def counts (g : IVec S100000 32) : FVec F S256x64 .f32 :=
  broadcastInDim S256x64 ![0, 1] bcast_S256x1_S256x64_0_1 (broadcastInDim S256x1 ![0] bcast_S256_S256x1_0
    (maximumf (Host.scatterAdd scatter_S256_S100000x1_S100000_n_0_0_1 (broadcastInDim S256 ![] bcast_S_S256 (constant S_ .f32 0x00000000#32))
        (broadcastInDim S100000x1 ![0] bcast_S100000_S100000x1_0 g) (broadcastInDim S100000 ![] bcast_S_S100000 (constant S_ .f32 0x3F800000#32)))
      (broadcastInDim S256 ![] bcast_S_S256 (constant S_ .f32 0x3F800000#32))))
/-- The result: the pooled sums over the counts. -/
def means (p : FVec F S2x256x64 .f32) (g : IVec S100000 32) : FVec F S256x64 .f32 := Host.divf (pooledSum p) (counts g)

end Cert.KernelIdeal.Stages

end
-- ==== Proof.KI.HostValue.lean ====
/-
  What the fold of the run holds where it matters, as functions of the launch arrays (any float instance): the arrays the
  first pallas_call is entered with (the aggregated messages of layer 1, the padded features, the bias row; the weights
  are the arguments), those the second is entered with (layer 2's aggregated messages from the hidden layer the first
  one left, that hidden layer, the padded graph ids, the bias row), and the program's result, the pooled means of what
  the second one left.
-/
import proofs.«410272_j33930241638933_2_alg».proof.Proof.KI.Run
import proofs.«410272_j33930241638933_2_alg».proof.Proof.KI.Stages

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Before the first pallas_call -/

theorem fold_src (c : Dev nD) : Gen.V1 m c (main_v1 : Ref sig .tc) = Stages.src (m ((c.tc : Thread nD τ).loc main_arg1)) := by
  show StableHlo.after hostOps0 (Gen.V0 m c) (Proc.devRef .tc main_v1) = _
  after_results; rfl
theorem fold_dst (c : Dev nD) : Gen.V1 m c (main_v3 : Ref sig .tc) = Stages.dst (m ((c.tc : Thread nD τ).loc main_arg1)) := by
  show StableHlo.after hostOps0 (Gen.V0 m c) (Proc.devRef .tc main_v3) = _
  after_results; rfl
set_option maxHeartbeats 4000000 in
theorem fold_agg1 (c : Dev nD) : Gen.V1 m c (main_v15 : Ref sig .tc)
    = Stages.agg1 (m ((c.tc : Thread nD τ).loc main_arg0)) (m ((c.tc : Thread nD τ).loc main_arg1)) := by
  show StableHlo.after hostOps0 (Gen.V0 m c) (Proc.devRef .tc main_v15) = _
  after_results; rfl

theorem enter0_agg1 (c : Dev nD) : enter0 m c main_v15
    = Stages.agg1 (m ((c.tc : Thread nD τ).loc main_arg0)) (m ((c.tc : Thread nD τ).loc main_arg1)) :=
  (Gen.V3_of m c main_v15 (by decide)).trans ((Gen.V2_of m c main_v15 (by decide)).trans (fold_agg1 m c))
theorem enter0_xPad (c : Dev nD) : enter0 m c main_v16 = Stages.xPad (m ((c.tc : Thread nD τ).loc main_arg0)) := by
  refine (Gen.V3_of m c main_v16 (by decide)).trans ?_
  show StableHlo.after hostOps0_1 (Gen.V1 m c) (Proc.devRef .tc main_v16) = _
  after_results
  rfl
theorem enter0_bias (c : Dev nD) : enter0 m c main_v17 = Stages.biasRow (m ((c.tc : Thread nD τ).loc main_arg4)) := by
  show StableHlo.after hostOps0_2 (Gen.V2 m c) (Proc.devRef .tc main_v17) = _
  after_results
  rfl
theorem enter0_wrel (c : Dev nD) : enter0 m c main_arg3 = m ((c.tc : Thread nD τ).loc main_arg3) :=
  (Gen.V3_of m c main_arg3 (by decide)).trans ((Gen.V2_of m c main_arg3 (by decide)).trans (Gen.V1_of m c main_arg3 (by decide)))
theorem enter0_wroot (c : Dev nD) : enter0 m c main_arg5 = m ((c.tc : Thread nD τ).loc main_arg5) :=
  (Gen.V3_of m c main_arg5 (by decide)).trans ((Gen.V2_of m c main_arg5 (by decide)).trans (Gen.V1_of m c main_arg5 (by decide)))

/-! ## Before the second pallas_call -/

/-- Up to the first pallas_call's exit a buffer no stretch after the first writes keeps what the first stretch left. -/
theorem fold4_of (c : Dev nD) (r : Ref sig .tc) (h2 : r ∉ hostOps0_2_W) (h1 : r ∉ hostOps0_1_W) (h18 : r ∉ ([main_v18] : List (Ref sig .tc))) :
    Gen.V4 m (left0 m) c r = Gen.V1 m c r :=
  (Gen.V4_of m (left0 m) c r h18).trans ((Gen.V3_of m c r h2).trans (Gen.V2_of m c r h1))

/-- An argument array keeps its launch contents up to the first pallas_call's exit. -/
theorem fold4_arg (c : Dev nD) (r : Ref sig .tc) (h18 : r ∉ ([main_v18] : List (Ref sig .tc))) (h02 : r ∉ hostOps0_2_W) (h01 : r ∉ hostOps0_1_W)
    (h0 : r ∉ hostOps0_W) : Gen.V4 m (left0 m) c r = m ((c.tc : Thread nD τ).loc r) :=
  (fold4_of m c r h02 h01 h18).trans (Gen.V1_of m c r h0)

theorem fold4_hidden (c : Dev nD) : Gen.V4 m (left0 m) c (main_v18 : Ref sig .tc) = hiddenArr m c := by
  show Function.update (Gen.V3 m c) (main_v18 : Ref sig .tc) (left0 m 4 main_v18 c) (main_v18 : Ref sig .tc) = _
  rw [Function.update_self, left0_hidden]

theorem enter1_hidden (c : Dev nD) : enter1 m c main_v18 = hiddenArr m c :=
  (Gen.V7_of m (left0 m) c main_v18 (by decide)).trans ((Gen.V6_of m (left0 m) c main_v18 (by decide)).trans
    ((Gen.V5_of m (left0 m) c main_v18 (by decide)).trans (fold4_hidden m c)))

set_option maxHeartbeats 4000000 in
theorem enter1_agg2 (c : Dev nD) : enter1 m c main_v29 = Stages.agg2 (hiddenArr m c) (m ((c.tc : Thread nD τ).loc main_arg1)) := by
  refine (Gen.V7_of m (left0 m) c main_v29 (by decide)).trans ((Gen.V6_of m (left0 m) c main_v29 (by decide)).trans ?_)
  show StableHlo.after hostOps1 (Gen.V4 m (left0 m) c) (Proc.devRef .tc main_v29) = _
  after_results
  rw [show Gen.V4 m (left0 m) c (Proc.devRef .tc main_v18) = hiddenArr m c from fold4_hidden m c,
    show Gen.V4 m (left0 m) c (Proc.devRef .tc main_v1) = Stages.src (m ((c.tc : Thread nD τ).loc main_arg1)) from
      (fold4_of m c main_v1 (by decide) (by decide) (by decide)).trans (fold_src m c),
    show Gen.V4 m (left0 m) c (Proc.devRef .tc main_v3) = Stages.dst (m ((c.tc : Thread nD τ).loc main_arg1)) from
      (fold4_of m c main_v3 (by decide) (by decide) (by decide)).trans (fold_dst m c)]
  rfl

/-- An argument array keeps its launch contents up to the second pallas_call's entry. -/
theorem fold6_arg (c : Dev nD) (r : Ref sig .tc) (h11 : r ∉ hostOps1_1_W) (h1 : r ∉ hostOps1_W) (h18 : r ∉ ([main_v18] : List (Ref sig .tc)))
    (h02 : r ∉ hostOps0_2_W) (h01 : r ∉ hostOps0_1_W) (h0 : r ∉ hostOps0_W) :
    Gen.V6 m (left0 m) c r = m ((c.tc : Thread nD τ).loc r) :=
  (Gen.V6_of m (left0 m) c r h11).trans ((Gen.V5_of m (left0 m) c r h1).trans ((fold4_of m c r h02 h01 h18).trans (Gen.V1_of m c r h0)))

theorem enter1_ids (c : Dev nD) : enter1 m c main_v31 = Stages.idsPad (m ((c.tc : Thread nD τ).loc main_arg2)) := by
  show StableHlo.after hostOps1_2 (Gen.V6 m (left0 m) c) (Proc.devRef .tc main_v31) = _
  after_results
  show shapeCast S1x100096 (pad S100096 ![0] ![96] ![0] (Gen.V4 m (left0 m) c (Proc.devRef .tc main_arg2)) (id (constantI S_ 32 4294967295#32))
      pads_S100000_S100096_0960 h_S_) shapeCasts_S100096_S1x100096 = _
  rw [fold4_arg m c main_arg2 (by decide) (by decide) (by decide) (by decide)]
  rfl
theorem enter1_bias (c : Dev nD) : enter1 m c main_v32 = Stages.biasRow (m ((c.tc : Thread nD τ).loc main_arg7)) := by
  show StableHlo.after hostOps1_2 (Gen.V6 m (left0 m) c) (Proc.devRef .tc main_v32) = _
  after_results
  rw [fold4_arg m c main_arg7 (by decide) (by decide) (by decide) (by decide)]
  rfl
theorem enter1_wrel (c : Dev nD) : enter1 m c main_arg6 = m ((c.tc : Thread nD τ).loc main_arg6) :=
  (Gen.V7_of m (left0 m) c main_arg6 (by decide)).trans (fold6_arg m c main_arg6 (by decide) (by decide) (by decide) (by decide) (by decide) (by decide))
theorem enter1_wroot (c : Dev nD) : enter1 m c main_arg8 = m ((c.tc : Thread nD τ).loc main_arg8) :=
  (Gen.V7_of m (left0 m) c main_arg8 (by decide)).trans (fold6_arg m c main_arg8 (by decide) (by decide) (by decide) (by decide) (by decide) (by decide))

/-! ## The result -/

set_option maxHeartbeats 4000000 in
theorem fold_result (c : Dev nD) : Gen.V9 m (left m) c (main_v43 : Ref sig .tc)
    = Stages.means (pooledArr m c) (m ((c.tc : Thread nD τ).loc main_arg2)) := by
  show StableHlo.after hostOps2 (Gen.V8 m (left m) c) (Proc.devRef .tc main_v43) = _
  after_results
  rw [show Gen.V8 m (left m) c (Proc.devRef .tc main_v33) = pooledArr m c from by
      show Function.update (Gen.V7 m (left m) c) (main_v33 : Ref sig .tc) (left m 8 main_v33 c) (main_v33 : Ref sig .tc) = _
      rw [Function.update_self, left_pooled],
    show Gen.V8 m (left m) c (Proc.devRef .tc main_arg2) = m ((c.tc : Thread nD τ).loc main_arg2) from
      (Gen.V8_of m (left m) c main_arg2 (by decide)).trans ((congrFun (enter1_left m c) _).trans
        ((Gen.V7_of m (left0 m) c main_arg2 (by decide)).trans (fold6_arg m c main_arg2 (by decide) (by decide) (by decide) (by decide) (by decide) (by decide))))]
  rfl

end Cert.KernelIdeal.Hand

end
-- ==== Proof.KI.Value0.lean ====
/-
  The value of the first pallas_call's output array at the ideal instance (extended reals; a change of float format is
  the identity; a matmul into a zero accumulator is the plain sum over the contracted axis).
  The body's one store writes, at row p and feature f of its 2944×64 block,
      tanh((∑ k, agg[p,k]·W_rel[k,f] + b[0,f]) + ∑ k, x[p,k]·W_root[k,f]),
  and the block of point t is rows 2944·t … 2944·t + 2943 of the two 100096×32 inputs and of the 100096×64 output, the
  weights and the bias being whole at every point. So what point t writes back is its block of ONE whole-array function
  of the five entry arrays, the 34 blocks tile the 100096 rows, and the array ends holding that function.
-/
import proofs.«410272_j33930241638933_2_alg».proof.Proof.KI.Region0
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HandValue

open Cert.KernelIdeal Cert.KernelIdeal.Gen
open Idealize.ShloMosaic Idealize.ShloMosaic.TcCoe Idealize.SL.Sem
open Idealize.ShloMosaic.Pipeline (Dat)
open Idealize.ShloMosaic.ValueIdx

/-! ## The two matmuls of the body at an index -/

/-- The left operand's index of the 2944×32 by 32×64 contraction: its row is the output's row … -/
theorem lhs_rows_0 (i : S2944x64.Idx) (q : dot_S2944x32_S32x64_S2944x64_1_0_0_1_n_n.contr.Idx) :
    (dot_S2944x32_S32x64_S2944x64_1_0_0_1_n_n.lhsIdx i q 0).val = (i 0).val := by
  unfold DotDims.lhsIdx
  rw [dif_neg (show ¬(0 : Fin S2944x32.rank) ∈ dot_S2944x32_S32x64_S2944x64_1_0_0_1_n_n.lhsBatch by decide), dif_pos (show (0 : Fin S2944x32.rank) ∈ dot_S2944x32_S32x64_S2944x64_1_0_0_1_n_n.lhsNonContracting by decide)]
  rfl
/-- … and its column the contracted coordinate. -/
theorem lhs_rows_1 (i : S2944x64.Idx) (q : dot_S2944x32_S32x64_S2944x64_1_0_0_1_n_n.contr.Idx) :
    (dot_S2944x32_S32x64_S2944x64_1_0_0_1_n_n.lhsIdx i q 1).val = (q ⟨0, by decide⟩).val :=
  dot_S2944x32_S32x64_S2944x64_1_0_0_1_n_n.lhsIdx_val_of_single rfl i q
/-- The right operand's index: its row is the contracted coordinate … -/
theorem rhs_weight_0 (i : S2944x64.Idx) (q : dot_S2944x32_S32x64_S2944x64_1_0_0_1_n_n.contr.Idx) :
    (dot_S2944x32_S32x64_S2944x64_1_0_0_1_n_n.rhsIdx i q 0).val = (q ⟨0, by decide⟩).val :=
  dot_S2944x32_S32x64_S2944x64_1_0_0_1_n_n.rhsIdx_val_of_single rfl i q
/-- … and its column the output's column. -/
theorem rhs_weight_1 (i : S2944x64.Idx) (q : dot_S2944x32_S32x64_S2944x64_1_0_0_1_n_n.contr.Idx) :
    (dot_S2944x32_S32x64_S2944x64_1_0_0_1_n_n.rhsIdx i q 1).val = (i 1).val := by
  unfold DotDims.rhsIdx
  rw [dif_neg (show ¬(1 : Fin S32x64.rank) ∈ dot_S2944x32_S32x64_S2944x64_1_0_0_1_n_n.rhsBatch by decide), dif_pos (show (1 : Fin S32x64.rank) ∈ dot_S2944x32_S32x64_S2944x64_1_0_0_1_n_n.rhsNonContracting by decide)]
  rfl

/-- A block of rows times a weight matrix, into the zero accumulator, at row `p` and feature `q`: the plain sum over
    the 32 contracted coordinates. -/
theorem rows_matmul_apply (l : FVec Ideal S2944x32 .bf16) (r : FVec Ideal S32x64 .bf16) (p : Fin 2944) (q : Fin 64) :
    (matmul dot_S2944x32_S32x64_S2944x64_1_0_0_1_n_n none l r (constant (F := Ideal) S2944x64 .f32 0x00000000#32) : FVec Ideal S2944x64 .f32) (ix2 p q)
      = ∑ k : Fin 32, l (ix2 p k) * r (ix2 k q) := by
  simp only [matmul]
  rw [Ideal.matmul_constant_zero_apply, ← Equiv.sum_comp (contrEquiv1 dot_S2944x32_S32x64_S2944x64_1_0_0_1_n_n 32 rfl rfl).symm]
  refine Finset.sum_congr rfl fun k _ => ?_
  have hk := contrEquiv1_symm_val dot_S2944x32_S32x64_S2944x64_1_0_0_1_n_n 32 rfl rfl k
  have el : dot_S2944x32_S32x64_S2944x64_1_0_0_1_n_n.lhsIdx (ix2 p q) ((contrEquiv1 dot_S2944x32_S32x64_S2944x64_1_0_0_1_n_n 32 rfl rfl).symm k) = ix2 p k := funext fun a => Fin.ext (by
    match a with
    | ⟨0, _⟩ => exact lhs_rows_0 _ _
    | ⟨1, _⟩ => exact (lhs_rows_1 _ _).trans hk)
  have er : dot_S2944x32_S32x64_S2944x64_1_0_0_1_n_n.rhsIdx (ix2 p q) ((contrEquiv1 dot_S2944x32_S32x64_S2944x64_1_0_0_1_n_n 32 rfl rfl).symm k) = ix2 k q := funext fun a => Fin.ext (by
    match a with
    | ⟨0, _⟩ => exact (rhs_weight_0 _ _).trans hk
    | ⟨1, _⟩ => exact rhs_weight_1 _ _)
  rw [el, er]

/-- The 1×64 bias spread over the 2944 rows reads its one row at every row. -/
theorem bias_rows_apply (b : FVec Ideal S1x64 .f32) (p : Fin 2944) (q : Fin 64) :
    (broadcastTo S2944x64 b broadcasts_S1x64_S2944x64 : FVec Ideal S2944x64 .f32) (ix2 p q) = b (ix2 (0 : Fin 1) q) :=
  broadcastTo_apply b broadcasts_S1x64_S2944x64 (ix2 p q) (ix2 (0 : Fin 1) q) (fun a => by
    match a with
    | ⟨0, _⟩ => rfl
    | ⟨1, _⟩ => rfl)

/-! ## The body's payload at an index -/

/-- What the body stores at row `p`, feature `q` of its block, from the five loaded blocks. -/
theorem pay_apply (agg x : Vec Ideal S2944x32 .f32) (wrel wroot : Vec Ideal S32x64 .f32) (b : Vec Ideal S1x64 .f32) (p : Fin 2944) (q : Fin 64) :
    (k0_pay1 (F := Ideal) agg x wrel wroot b : S2944x64.Idx → EReal) (ix2 p q)
      = Ideal.tanh ((∑ k : Fin 32, (agg : S2944x32.Idx → EReal) (ix2 p k) * (wrel : S32x64.Idx → EReal) (ix2 k q) + (b : S1x64.Idx → EReal) (ix2 (0 : Fin 1) q))
          + ∑ k : Fin 32, (x : S2944x32.Idx → EReal) (ix2 p k) * (wroot : S32x64.Idx → EReal) (ix2 k q)) := by
  unfold k0_pay1
  simp only [shapeCast_self]
  show Ideal.tanh ((matmul dot_S2944x32_S32x64_S2944x64_1_0_0_1_n_n none (truncf .bf16 agg bitsLt_bf16_f32) (truncf .bf16 wrel bitsLt_bf16_f32) (constant (F := Ideal) S2944x64 .f32 0x00000000#32) (ix2 p q)
      + (broadcastTo S2944x64 b broadcasts_S1x64_S2944x64 : FVec Ideal S2944x64 .f32) (ix2 p q))
      + matmul dot_S2944x32_S32x64_S2944x64_1_0_0_1_n_n none (truncf .bf16 x bitsLt_bf16_f32) (truncf .bf16 wroot bitsLt_bf16_f32) (constant (F := Ideal) S2944x64 .f32 0x00000000#32) (ix2 p q)) = _
  rw [rows_matmul_apply, rows_matmul_apply, bias_rows_apply]
  rfl

/-! ## The layer on whole arrays -/

/-- The first layer at node `i` and feature `f`, from the aggregated messages, the node features, the two weight matrices
    and the bias (as a 1×64 array): tanh((∑ agg·W_rel + b) + ∑ x·W_root). -/
def layer1 (agg x : S100096x32.Idx → EReal) (wrel : S32x64.Idx → EReal) (b : S1x64.Idx → EReal) (wroot : S32x64.Idx → EReal)
    (i : Fin 100096) (f : Fin 64) : EReal :=
  Ideal.tanh ((∑ k : Fin 32, agg (ix2 i k) * wrel (ix2 k f) + b (ix2 (0 : Fin 1) f)) + ∑ k : Fin 32, x (ix2 i k) * wroot (ix2 k f))

variable (V : (c : Dev nD) → (b : Ref sig .tc) → Buf (Elt Ideal) ((c : Thread nD τ).loc b))

/-- The whole 100096×64 array of the layer, of the five arrays as the region finds them. -/
def hiddenArr (c : Dev nD) : S100096x64.Idx → EReal := fun j =>
  layer1 (V c main_v15) (V c main_v16) (V c main_arg3) (V c main_v17) (V c main_arg5) ⟨(j 0).val, idx2_lt0 j⟩ ⟨(j 1).val, idx2_lt1 j⟩

/-! ## Where each window's block sits at a point -/

/-- The printed index maps over the 34 points, decided: the two row-blocked inputs and the output are at block row `t`,
    column block 0; the weights and the bias at block (0, 0). -/
theorem block_index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ t.val < 34 :=
  (by decide +kernel : ∀ t : Fin grid0.N, _)

/-- The aggregated messages' block at point `t` is rows `2944·t …` of the array. -/
theorem agg_block_apply (c : Dev nD) (t : Fin cfg0.N) (p : Fin 2944) (k : Fin 32) (r : Fin 100096) (hr : r.val = 2944 * t.val + p.val) :
    (Hand.iblk0 V c 0 t : S2944x32.Idx → EReal) (ix2 p k) = (V c main_v15 : S100096x32.Idx → EReal) (ix2 r k) := by
  obtain ⟨e0, e1, -⟩ := block_index_facts t
  unfold Hand.iblk0
  rw [View.read_apply]
  show V c main_v15 (((cfg0.win 0).blk t).view.emb (ix2 p k)) = V c main_v15 (ix2 r k)
  congr 1
  funext a
  apply Fin.ext
  match a with
  | ⟨0, _⟩ => show win0_0.index t (0 : Fin 2) * 2944 + 1 * p.val = r.val; omega
  | ⟨1, _⟩ => show win0_0.index t (1 : Fin 2) * 32 + 1 * k.val = k.val; omega

/-- The node features' block at point `t` is rows `2944·t …` of the array. -/
theorem feat_block_apply (c : Dev nD) (t : Fin cfg0.N) (p : Fin 2944) (k : Fin 32) (r : Fin 100096) (hr : r.val = 2944 * t.val + p.val) :
    (Hand.iblk0 V c 1 t : S2944x32.Idx → EReal) (ix2 p k) = (V c main_v16 : S100096x32.Idx → EReal) (ix2 r k) := by
  obtain ⟨-, -, e0, e1, -⟩ := block_index_facts t
  unfold Hand.iblk0
  rw [View.read_apply]
  show V c main_v16 (((cfg0.win 1).blk t).view.emb (ix2 p k)) = V c main_v16 (ix2 r k)
  congr 1
  funext a
  apply Fin.ext
  match a with
  | ⟨0, _⟩ => show win0_1.index t (0 : Fin 2) * 2944 + 1 * p.val = r.val; omega
  | ⟨1, _⟩ => show win0_1.index t (1 : Fin 2) * 32 + 1 * k.val = k.val; omega

/-- The first weight matrix's block is the whole matrix at every point. -/
theorem wrel_block_apply (c : Dev nD) (t : Fin cfg0.N) (k : Fin 32) (q : Fin 64) :
    (Hand.iblk0 V c 2 t : S32x64.Idx → EReal) (ix2 k q) = (V c main_arg3 : S32x64.Idx → EReal) (ix2 k q) := by
  obtain ⟨-, -, -, -, e0, e1, -⟩ := block_index_facts t
  unfold Hand.iblk0
  rw [View.read_apply]
  show V c main_arg3 (((cfg0.win 2).blk t).view.emb (ix2 k q)) = V c main_arg3 (ix2 k q)
  congr 1
  funext a
  apply Fin.ext
  match a with
  | ⟨0, _⟩ => show win0_2.index t (0 : Fin 2) * 32 + 1 * k.val = k.val; omega
  | ⟨1, _⟩ => show win0_2.index t (1 : Fin 2) * 64 + 1 * q.val = q.val; omega

/-- The bias's block is the whole 1×64 array at every point. -/
theorem bias_block_apply (c : Dev nD) (t : Fin cfg0.N) (z : Fin 1) (q : Fin 64) :
    (Hand.iblk0 V c 3 t : S1x64.Idx → EReal) (ix2 z q) = (V c main_v17 : S1x64.Idx → EReal) (ix2 z q) := by
  obtain ⟨-, -, -, -, -, -, e0, e1, -⟩ := block_index_facts t
  unfold Hand.iblk0
  rw [View.read_apply]
  show V c main_v17 (((cfg0.win 3).blk t).view.emb (ix2 z q)) = V c main_v17 (ix2 z q)
  congr 1
  funext a
  apply Fin.ext
  match a with
  | ⟨0, _⟩ => show win0_3.index t (0 : Fin 2) * 1 + 1 * z.val = z.val; omega
  | ⟨1, _⟩ => show win0_3.index t (1 : Fin 2) * 64 + 1 * q.val = q.val; omega

/-- The second weight matrix's block is the whole matrix at every point. -/
theorem wroot_block_apply (c : Dev nD) (t : Fin cfg0.N) (k : Fin 32) (q : Fin 64) :
    (Hand.iblk0 V c 4 t : S32x64.Idx → EReal) (ix2 k q) = (V c main_arg5 : S32x64.Idx → EReal) (ix2 k q) := by
  obtain ⟨-, -, -, -, -, -, -, -, e0, e1, -⟩ := block_index_facts t
  unfold Hand.iblk0
  rw [View.read_apply]
  show V c main_arg5 (((cfg0.win 4).blk t).view.emb (ix2 k q)) = V c main_arg5 (ix2 k q)
  congr 1
  funext a
  apply Fin.ext
  match a with
  | ⟨0, _⟩ => show win0_4.index t (0 : Fin 2) * 32 + 1 * k.val = k.val; omega
  | ⟨1, _⟩ => show win0_4.index t (1 : Fin 2) * 64 + 1 * q.val = q.val; omega

/-! ## What a point stores, and writes back -/

/-- The body's stored value at row `p`, feature `q` of point `t`'s block is the layer at node `2944·t + p`. -/
theorem point_value (c : Dev nD) (t : Fin cfg0.N) (p : Fin 2944) (q : Fin 64) (r : Fin 100096) (hr : r.val = 2944 * t.val + p.val) :
    (k0_pay1 (F := Ideal) (Hand.iblk0 V c 0 t) (Hand.iblk0 V c 1 t) (Hand.iblk0 V c 2 t) (Hand.iblk0 V c 4 t) (Hand.iblk0 V c 3 t) : S2944x64.Idx → EReal) (ix2 p q)
      = layer1 (V c main_v15) (V c main_v16) (V c main_arg3) (V c main_v17) (V c main_arg5) r q := by
  rw [pay_apply]
  unfold layer1
  simp only [agg_block_apply V c t p _ r hr, feat_block_apply V c t p _ r hr, wrel_block_apply V c t, bias_block_apply V c t, wroot_block_apply V c t]

theorem hz : (![0, 0] : Fin 2 → Nat) = fun _ => 0 := funext fun a => by fin_cases a <;> rfl

/-- What point `t` writes back is its block of the layer's whole array. -/
theorem flushed_eq (c : Dev nD) (t : Fin cfg0.N) :
    (Hand.dat0 V c).flushed 5 t = ((cfg0.win 5).blk t).view.read (Elt Ideal) (hiddenArr V c) := by
  show (cfg0.win 5).cut (grid0.coords t) ((Hand.dat0 V c).after 5 t) = _
  rw [Hand.after0_5]
  unfold Hand.hidden0
  rw [View.canon_unit_zero hz]
  simp only [View.ld_unit_zero (S := S2944x32) hz, View.ld_unit_zero (S := S32x64) hz, View.ld_unit_zero (S := S1x64) hz]
  obtain ⟨-, -, -, -, -, -, -, -, -, -, e0, e1, ht⟩ := block_index_facts t
  funext j
  have hj0 : (j 0).val < 2944 := (j 0).isLt
  have hj1 : (j 1).val < 64 := (j 1).isLt
  have hx : (cfg0.win 5).xinj (grid0.coords t) j = ix2 (⟨(j 0).val, hj0⟩ : Fin 2944) (⟨(j 1).val, hj1⟩ : Fin 64) :=
    funext fun a => by match a with | ⟨0, _⟩ => rfl | ⟨1, _⟩ => rfl
  show (k0_pay1 (F := Ideal) (Hand.iblk0 V c 0 t) (Hand.iblk0 V c 1 t) (Hand.iblk0 V c 2 t) (Hand.iblk0 V c 4 t) (Hand.iblk0 V c 3 t) : S2944x64.Idx → EReal) ((cfg0.win 5).xinj (grid0.coords t) j)
      = hiddenArr V c (((cfg0.win 5).blk t).view.emb j)
  rw [hx, point_value V c t ⟨(j 0).val, hj0⟩ ⟨(j 1).val, hj1⟩ ⟨2944 * t.val + (j 0).val, by omega⟩ rfl]
  unfold hiddenArr
  refine congrArg₂ _ (Fin.ext ?_) (Fin.ext ?_)
  · show 2944 * t.val + (j 0).val = win0_5.index t (0 : Fin 2) * 2944 + 1 * (j 0).val; omega
  · show (j 1).val = win0_5.index t (1 : Fin 2) * 64 + 1 * (j 1).val; omega

/-! ## The 34 blocks tile the rows -/

/-- An index of the array is in point `t`'s block iff each coordinate is in the block's range on its axis. -/
theorem mem_block (t : Fin cfg0.N) (i : S100096x64.Idx) :
    i ∈ ((cfg0.win 5).blk t).view.set ↔ ∀ a : Fin 2, win0_5.index t a * S2944x64.size a ≤ (i a).val ∧ (i a).val < win0_5.index t a * S2944x64.size a + S2944x64.size a := by
  show i ∈ ((View.whole main_v18).slice (win0_5.rect t)).set ↔ _
  rw [View.set_slice_whole, Rect.mem_set_unit]
  exact Iff.rfl

/-- Node `r` is covered by point `r / 2944`, and every point writes its block back. -/
theorem rows_cover (i : S100096x64.Idx) : ∃ t : Fin cfg0.N, (cfg0.win 5).flush t = true ∧ i ∈ ((cfg0.win 5).blk t).view.set := by
  have hi0 : (i 0).val < 100096 := (i 0).isLt
  have hi1 : (i 1).val < 64 := (i 1).isLt
  have hN : cfg0.N = 34 := N_0
  refine ⟨⟨(i 0).val / 2944, by rw [hN]; omega⟩, flush0_5 _, ?_⟩
  obtain ⟨-, -, -, -, -, -, -, -, -, -, e0, e1, -⟩ := block_index_facts ⟨(i 0).val / 2944, by rw [hN]; omega⟩
  rw [mem_block]
  intro a
  match a with
  | ⟨0, _⟩ =>
    show win0_5.index _ (0 : Fin 2) * 2944 ≤ (i 0).val ∧ (i 0).val < win0_5.index _ (0 : Fin 2) * 2944 + 2944
    rw [e0]; show (i 0).val / 2944 * 2944 ≤ (i 0).val ∧ (i 0).val < (i 0).val / 2944 * 2944 + 2944; omega
  | ⟨1, _⟩ =>
    show win0_5.index _ (1 : Fin 2) * 64 ≤ (i 1).val ∧ (i 1).val < win0_5.index _ (1 : Fin 2) * 64 + 64
    rw [e1]; omega

/-! ## The array after the region -/

/-- The output array after the last point is the layer's whole array. -/
theorem hidden_final (c : Dev nD) : (Hand.dat0 V c).arrAt 5 cfg0.N = hiddenArr V c :=
  (Hand.dat0 V c).arrAt_eq_of_cover 5 (hiddenArr V c) (fun t _ => flushed_eq V c t) rows_cover

/-- THE FIRST CALL'S OUTPUT at node `i` and feature `f` is the layer (`layer1`, which unfolds to
    tanh((∑ k, agg[i,k]·W_rel[k,f] + b[0,f]) + ∑ k, x[i,k]·W_root[k,f])) of the five arrays as the region finds them. -/
theorem hidden_array (c : Dev nD) (i : Fin 100096) (f : Fin 64) :
    ((Hand.dat0 V c).arrAt 5 cfg0.N : S100096x64.Idx → EReal) (ix2 i f)
      = layer1 (V c main_v15) (V c main_v16) (V c main_arg3) (V c main_v17) (V c main_arg5) i f := by
  rw [hidden_final]
  rfl

/-- The same with the five arrays named at their literal shapes: the plain sums. -/
theorem hidden_array_sums (c : Dev nD) (agg x : S100096x32.Idx → EReal) (wrel wroot : S32x64.Idx → EReal) (b : S1x64.Idx → EReal)
    (hagg : V c main_v15 = agg) (hx : V c main_v16 = x) (hwrel : V c main_arg3 = wrel) (hb : V c main_v17 = b)
    (hwroot : V c main_arg5 = wroot) (i : Fin 100096) (f : Fin 64) :
    ((Hand.dat0 V c).arrAt 5 cfg0.N : S100096x64.Idx → EReal) (ix2 i f)
      = Ideal.tanh ((∑ k : Fin 32, agg (ix2 i k) * wrel (ix2 k f) + b (ix2 (0 : Fin 1) f)) + ∑ k : Fin 32, x (ix2 i k) * wroot (ix2 k f)) := by
  subst hagg hx hwrel hb hwroot
  exact hidden_array V c i f

end Cert.KernelIdeal.HandValue

end
-- ==== Proof.KI.PoolStep.lean ====
/-
  One grid point of the pooling call at the ideal instance (extended reals; a change of float format is the identity; a
  matmul into a zero accumulator is the plain sum over the contracted axis), read at an index.
  From its six blocks — 2944 rows of aggregated messages `a` and of the hidden layer `h`, the two 64×64 weight matrices,
  the 1×64 bias, the rows' graph ids — the body forms the second layer of its rows,
      y[r,f] = tanh((∑ k, a[r,k]·W_rel[k,f] + b[0,f]) + ∑ k, h[r,k]·W_root[k,f]),
  and the 256×2944 indicator matrix of "row r belongs to graph g" (the id word compared with the row number of an iota,
  widened, converted: 1 or 0), and adds their product to the accumulator:
      s'[0,g,f] = s[0,g,f] + ∑ r, [ids[0,r] = g] · y[r,f].
-/
import proofs.«410272_j33930241638933_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HandValue

open Cert.KernelIdeal Cert.KernelIdeal.Gen
open Idealize.ShloMosaic Idealize.ShloMosaic.TcCoe Idealize.SL.Sem
open Idealize.ShloMosaic.ValueIdx

/-! ## A block of 2944 rows times a 64×64 weight matrix -/

/-- The left operand's index of the 2944×64 by 64×64 contraction: its row is the output's row … -/
theorem lhs_layer2_0 (i : S2944x64.Idx) (q : dot_S2944x64_S64x64_S2944x64_1_0_0_1_n_n.contr.Idx) :
    (dot_S2944x64_S64x64_S2944x64_1_0_0_1_n_n.lhsIdx i q 0).val = (i 0).val := by
  unfold DotDims.lhsIdx
  rw [dif_neg (show ¬(0 : Fin S2944x64.rank) ∈ dot_S2944x64_S64x64_S2944x64_1_0_0_1_n_n.lhsBatch by decide), dif_pos (show (0 : Fin S2944x64.rank) ∈ dot_S2944x64_S64x64_S2944x64_1_0_0_1_n_n.lhsNonContracting by decide)]
  rfl
/-- … and its column the contracted coordinate. -/
theorem lhs_layer2_1 (i : S2944x64.Idx) (q : dot_S2944x64_S64x64_S2944x64_1_0_0_1_n_n.contr.Idx) :
    (dot_S2944x64_S64x64_S2944x64_1_0_0_1_n_n.lhsIdx i q 1).val = (q ⟨0, by decide⟩).val :=
  dot_S2944x64_S64x64_S2944x64_1_0_0_1_n_n.lhsIdx_val_of_single rfl i q
/-- The weight matrix's index: its row is the contracted coordinate … -/
theorem rhs_layer2_0 (i : S2944x64.Idx) (q : dot_S2944x64_S64x64_S2944x64_1_0_0_1_n_n.contr.Idx) :
    (dot_S2944x64_S64x64_S2944x64_1_0_0_1_n_n.rhsIdx i q 0).val = (q ⟨0, by decide⟩).val :=
  dot_S2944x64_S64x64_S2944x64_1_0_0_1_n_n.rhsIdx_val_of_single rfl i q
/-- … and its column the output's column. -/
theorem rhs_layer2_1 (i : S2944x64.Idx) (q : dot_S2944x64_S64x64_S2944x64_1_0_0_1_n_n.contr.Idx) :
    (dot_S2944x64_S64x64_S2944x64_1_0_0_1_n_n.rhsIdx i q 1).val = (i 1).val := by
  unfold DotDims.rhsIdx
  rw [dif_neg (show ¬(1 : Fin S64x64.rank) ∈ dot_S2944x64_S64x64_S2944x64_1_0_0_1_n_n.rhsBatch by decide), dif_pos (show (1 : Fin S64x64.rank) ∈ dot_S2944x64_S64x64_S2944x64_1_0_0_1_n_n.rhsNonContracting by decide)]
  rfl

/-- Into the zero accumulator, at row `p` and feature `q`: the plain sum over the 64 contracted coordinates. -/
theorem layer2_matmul_apply (l : FVec Ideal S2944x64 .bf16) (w : FVec Ideal S64x64 .bf16) (p : Fin 2944) (q : Fin 64) :
    (matmul dot_S2944x64_S64x64_S2944x64_1_0_0_1_n_n none l w (constant (F := Ideal) S2944x64 .f32 0x00000000#32) : FVec Ideal S2944x64 .f32) (ix2 p q)
      = ∑ k : Fin 64, l (ix2 p k) * w (ix2 k q) := by
  simp only [matmul]
  rw [Ideal.matmul_constant_zero_apply, ← Equiv.sum_comp (contrEquiv1 dot_S2944x64_S64x64_S2944x64_1_0_0_1_n_n 64 rfl rfl).symm]
  refine Finset.sum_congr rfl fun k _ => ?_
  have hk := contrEquiv1_symm_val dot_S2944x64_S64x64_S2944x64_1_0_0_1_n_n 64 rfl rfl k
  have el : dot_S2944x64_S64x64_S2944x64_1_0_0_1_n_n.lhsIdx (ix2 p q) ((contrEquiv1 dot_S2944x64_S64x64_S2944x64_1_0_0_1_n_n 64 rfl rfl).symm k) = ix2 p k := funext fun a => Fin.ext (by
    match a with
    | ⟨0, _⟩ => exact lhs_layer2_0 _ _
    | ⟨1, _⟩ => exact (lhs_layer2_1 _ _).trans hk)
  have er : dot_S2944x64_S64x64_S2944x64_1_0_0_1_n_n.rhsIdx (ix2 p q) ((contrEquiv1 dot_S2944x64_S64x64_S2944x64_1_0_0_1_n_n 64 rfl rfl).symm k) = ix2 k q := funext fun a => Fin.ext (by
    match a with
    | ⟨0, _⟩ => exact (rhs_layer2_0 _ _).trans hk
    | ⟨1, _⟩ => exact rhs_layer2_1 _ _)
  rw [el, er]

/-- The 1×64 bias spread over the 2944 rows reads its one row at every row. -/
theorem layer2_bias_apply (b : FVec Ideal S1x64 .f32) (p : Fin 2944) (q : Fin 64) :
    (broadcastTo S2944x64 b broadcasts_S1x64_S2944x64 : FVec Ideal S2944x64 .f32) (ix2 p q) = b (ix2 (0 : Fin 1) q) :=
  broadcastTo_1b_ab_apply b broadcasts_S1x64_S2944x64 p q

/-! ## The indicator matrix times the rows' layer: the pooling contraction over the 2944 rows -/

/-- The indicator's index of the 256×2944 by 2944×64 contraction: its row is the output's row (the graph) … -/
theorem lhs_pool_0 (i : S256x64.Idx) (q : dot_S256x2944_S2944x64_S256x64_1_0_0_1_n_n.contr.Idx) :
    (dot_S256x2944_S2944x64_S256x64_1_0_0_1_n_n.lhsIdx i q 0).val = (i 0).val := by
  unfold DotDims.lhsIdx
  rw [dif_neg (show ¬(0 : Fin S256x2944.rank) ∈ dot_S256x2944_S2944x64_S256x64_1_0_0_1_n_n.lhsBatch by decide), dif_pos (show (0 : Fin S256x2944.rank) ∈ dot_S256x2944_S2944x64_S256x64_1_0_0_1_n_n.lhsNonContracting by decide)]
  rfl
/-- … and its column the contracted coordinate (the block's row). -/
theorem lhs_pool_1 (i : S256x64.Idx) (q : dot_S256x2944_S2944x64_S256x64_1_0_0_1_n_n.contr.Idx) :
    (dot_S256x2944_S2944x64_S256x64_1_0_0_1_n_n.lhsIdx i q 1).val = (q ⟨0, by decide⟩).val :=
  dot_S256x2944_S2944x64_S256x64_1_0_0_1_n_n.lhsIdx_val_of_single rfl i q
/-- The layer's index: its row is the contracted coordinate … -/
theorem rhs_pool_0 (i : S256x64.Idx) (q : dot_S256x2944_S2944x64_S256x64_1_0_0_1_n_n.contr.Idx) :
    (dot_S256x2944_S2944x64_S256x64_1_0_0_1_n_n.rhsIdx i q 0).val = (q ⟨0, by decide⟩).val :=
  dot_S256x2944_S2944x64_S256x64_1_0_0_1_n_n.rhsIdx_val_of_single rfl i q
/-- … and its column the output's column (the feature). -/
theorem rhs_pool_1 (i : S256x64.Idx) (q : dot_S256x2944_S2944x64_S256x64_1_0_0_1_n_n.contr.Idx) :
    (dot_S256x2944_S2944x64_S256x64_1_0_0_1_n_n.rhsIdx i q 1).val = (i 1).val := by
  unfold DotDims.rhsIdx
  rw [dif_neg (show ¬(1 : Fin S2944x64.rank) ∈ dot_S256x2944_S2944x64_S256x64_1_0_0_1_n_n.rhsBatch by decide), dif_pos (show (1 : Fin S2944x64.rank) ∈ dot_S256x2944_S2944x64_S256x64_1_0_0_1_n_n.rhsNonContracting by decide)]
  rfl

/-- Into the zero accumulator, at graph `g` and feature `q`: the plain sum over the block's 2944 rows. -/
theorem pool_matmul_apply (m : FVec Ideal S256x2944 .bf16) (y : FVec Ideal S2944x64 .bf16) (g : Fin 256) (q : Fin 64) :
    (matmul dot_S256x2944_S2944x64_S256x64_1_0_0_1_n_n none m y (constant (F := Ideal) S256x64 .f32 0x00000000#32) : FVec Ideal S256x64 .f32) (ix2 g q)
      = ∑ r : Fin 2944, m (ix2 g r) * y (ix2 r q) := by
  simp only [matmul]
  rw [Ideal.matmul_constant_zero_apply, ← Equiv.sum_comp (contrEquiv1 dot_S256x2944_S2944x64_S256x64_1_0_0_1_n_n 2944 rfl rfl).symm]
  refine Finset.sum_congr rfl fun r _ => ?_
  have hr := contrEquiv1_symm_val dot_S256x2944_S2944x64_S256x64_1_0_0_1_n_n 2944 rfl rfl r
  have el : dot_S256x2944_S2944x64_S256x64_1_0_0_1_n_n.lhsIdx (ix2 g q) ((contrEquiv1 dot_S256x2944_S2944x64_S256x64_1_0_0_1_n_n 2944 rfl rfl).symm r) = ix2 g r := funext fun a => Fin.ext (by
    match a with
    | ⟨0, _⟩ => exact lhs_pool_0 _ _
    | ⟨1, _⟩ => exact (lhs_pool_1 _ _).trans hr)
  have er : dot_S256x2944_S2944x64_S256x64_1_0_0_1_n_n.rhsIdx (ix2 g q) ((contrEquiv1 dot_S256x2944_S2944x64_S256x64_1_0_0_1_n_n 2944 rfl rfl).symm r) = ix2 r q := funext fun a => Fin.ext (by
    match a with
    | ⟨0, _⟩ => exact (rhs_pool_0 _ _).trans hr
    | ⟨1, _⟩ => exact rhs_pool_1 _ _)
  rw [el, er]

/-! ## The indicator matrix -/

/-- A comparison's bit, widened to a word and converted: one where the two words are equal, zero elsewhere. -/
theorem indicator_word (a b : BitVec 32) :
    (FloatOps.sitofp (F := Ideal) .f32 ((IntOp.cmpi .eq a b).setWidth 32) : EReal) = if a = b then 1 else 0 := by
  unfold IntOp.cmpi
  by_cases h : a = b
  · subst h
    rw [if_pos rfl]
    show ((((BitVec.ofBool (a == a)).setWidth 32).toInt : ℝ) : EReal) = 1
    simp
  · rw [if_neg h]
    show ((((BitVec.ofBool (a == b)).setWidth 32).toInt : ℝ) : EReal) = 0
    have : (a == b) = false := by simpa using h
    rw [this]
    simp

/-- The 256×2944 indicator matrix the body builds from the rows' graph ids. -/
def indicatorRows (ids : Vec Ideal S1x2944 .i32) : FVec Ideal S256x2944 .bf16 :=
  truncf .bf16 (sitofp (F := Ideal) .f32 (extui 32 (cmpi .eq (broadcastTo S256x2944 ids broadcasts_S1x2944_S256x2944) (iota .tc S256x2944 32 [0] iota_S256x2944_d0_w32)) natLt_1_32)) bitsLt_bf16_f32

/-- At graph `g` and row `r`: whether row `r`'s id word is the number `g`. -/
theorem indicatorRows_apply (ids : Vec Ideal S1x2944 .i32) (g : Fin 256) (r : Fin 2944) :
    indicatorRows ids (ix2 g r) = if (ids : S1x2944.Idx → BitVec 32) (ix2 (0 : Fin 1) r) = BitVec.ofNat 32 g.val then (1 : EReal) else 0 := by
  unfold indicatorRows
  rw [truncf_apply, sitofp_apply, extui_apply]
  show FloatOps.sitofp (F := Ideal) .f32 ((IntOp.cmpi .eq ((broadcastTo S256x2944 ids broadcasts_S1x2944_S256x2944 : IVec S256x2944 32) (ix2 g r)) ((iota .tc S256x2944 32 [0] iota_S256x2944_d0_w32) (ix2 g r))).setWidth 32) = _
  rw [broadcastTo_1b_ab_apply, iota_single_apply, indicator_word]

/-! ## The rows' second layer -/

/-- The second layer of the block's 2944 rows, as the body computes it. -/
def layer2Rows (a : Vec Ideal S2944x64 .f32) (h : FVec Ideal S2944x64 .bf16) (wrel wroot : Vec Ideal S64x64 .f32) (b : Vec Ideal S1x64 .f32) : FVec Ideal S2944x64 .f32 :=
  tanh (addf (addf (matmul dot_S2944x64_S64x64_S2944x64_1_0_0_1_n_n none (truncf .bf16 a bitsLt_bf16_f32) (truncf .bf16 wrel bitsLt_bf16_f32) (constant (F := Ideal) S2944x64 .f32 0x00000000#32)) (broadcastTo S2944x64 b broadcasts_S1x64_S2944x64))
    (matmul dot_S2944x64_S64x64_S2944x64_1_0_0_1_n_n none (h : FVec Ideal S2944x64 .bf16) (truncf .bf16 wroot bitsLt_bf16_f32) (constant (F := Ideal) S2944x64 .f32 0x00000000#32)))

/-- At row `r` and feature `q`. -/
theorem layer2Rows_apply (a : Vec Ideal S2944x64 .f32) (h : FVec Ideal S2944x64 .bf16) (wrel wroot : Vec Ideal S64x64 .f32) (b : Vec Ideal S1x64 .f32) (r : Fin 2944) (q : Fin 64) :
    layer2Rows a h wrel wroot b (ix2 r q)
      = Ideal.tanh ((∑ k : Fin 64, (a : S2944x64.Idx → EReal) (ix2 r k) * (wrel : S64x64.Idx → EReal) (ix2 k q) + (b : S1x64.Idx → EReal) (ix2 (0 : Fin 1) q))
          + ∑ k : Fin 64, (h : S2944x64.Idx → EReal) (ix2 r k) * (wroot : S64x64.Idx → EReal) (ix2 k q)) := by
  unfold layer2Rows
  show Ideal.tanh ((matmul dot_S2944x64_S64x64_S2944x64_1_0_0_1_n_n none (truncf .bf16 a bitsLt_bf16_f32) (truncf .bf16 wrel bitsLt_bf16_f32) (constant (F := Ideal) S2944x64 .f32 0x00000000#32) (ix2 r q)
      + (broadcastTo S2944x64 b broadcasts_S1x64_S2944x64 : FVec Ideal S2944x64 .f32) (ix2 r q))
      + matmul dot_S2944x64_S64x64_S2944x64_1_0_0_1_n_n none (h : FVec Ideal S2944x64 .bf16) (truncf .bf16 wroot bitsLt_bf16_f32) (constant (F := Ideal) S2944x64 .f32 0x00000000#32) (ix2 r q)) = _
  rw [layer2_matmul_apply, layer2_matmul_apply, layer2_bias_apply]
  rfl

/-! ## One point's update of the accumulator, at an index -/

/-- What a point adds to the accumulator at graph `g` and feature `q`, from its six blocks: over the block's rows, the
    rows of graph `g` select their second layer's feature `q`. -/
def pooledRows (a : Vec Ideal S2944x64 .f32) (h : Vec Ideal S2944x64 .bf16) (wrel wroot : Vec Ideal S64x64 .f32) (b : Vec Ideal S1x64 .f32) (ids : Vec Ideal S1x2944 .i32)
    (g : Fin 256) (q : Fin 64) : EReal :=
  ∑ r : Fin 2944, (if (ids : S1x2944.Idx → BitVec 32) (ix2 (0 : Fin 1) r) = BitVec.ofNat 32 g.val then (1 : EReal) else 0)
    * Ideal.tanh ((∑ k : Fin 64, (a : S2944x64.Idx → EReal) (ix2 r k) * (wrel : S64x64.Idx → EReal) (ix2 k q) + (b : S1x64.Idx → EReal) (ix2 (0 : Fin 1) q))
        + ∑ k : Fin 64, (h : S2944x64.Idx → EReal) (ix2 r k) * (wroot : S64x64.Idx → EReal) (ix2 k q))

/-- THE UPDATE AT AN INDEX: the accumulator's entry plus the point's pooled rows. The payloads take the blocks in the
    order of the body's loads: messages, hidden layer, `W_rel`, `W_root`, bias, ids. -/
theorem pool_update_apply (a : Vec Ideal S2944x64 .f32) (h : Vec Ideal S2944x64 .bf16) (wrel wroot : Vec Ideal S64x64 .f32) (b : Vec Ideal S1x64 .f32) (ids : Vec Ideal S1x2944 .i32)
    (s : Vec Ideal S1x256x64 .f32) (g : Fin 256) (q : Fin 64) :
    (k1_pay1 (F := Ideal) (k1_pay3 (F := Ideal) a h wrel wroot b ids s) : S1x256x64.Idx → EReal) (ix3 (0 : Fin 1) g q)
      = (s : S1x256x64.Idx → EReal) (ix3 (0 : Fin 1) g q) + pooledRows a h wrel wroot b ids g q := by
  unfold k1_pay1 k1_pay3
  simp only [shapeCast_self]
  show (s : S1x256x64.Idx → EReal) (ix3 (0 : Fin 1) g q)
      + (shapeCast S1x256x64 (matmul dot_S256x2944_S2944x64_S256x64_1_0_0_1_n_n none (indicatorRows ids) (truncf .bf16 (layer2Rows a h wrel wroot b) bitsLt_bf16_f32) (constant (F := Ideal) S256x64 .f32 0x00000000#32)) shapeCasts_S256x64_S1x256x64 : FVec Ideal S1x256x64 .f32) (ix3 (0 : Fin 1) g q) = _
  rw [shapeCast_ab_1ab_apply, pool_matmul_apply]
  unfold pooledRows
  refine congrArg _ (Finset.sum_congr rfl fun r _ => ?_)
  rw [indicatorRows_apply, truncf_apply, layer2Rows_apply]

/-- The reset value: zero everywhere. -/
theorem pool_reset_apply (i : S1x256x64.Idx) : (k1_pay2 (F := Ideal) : S1x256x64.Idx → EReal) i = 0 := by
  unfold k1_pay2
  simp only [shapeCast_self]
  show Ideal.ofBits .f32 0x00000000#32 = 0
  exact Ideal.ofBits_zero_f32

end Cert.KernelIdeal.HandValue

end
-- ==== Proof.KI.Value1.lean ====
/-
  The value of the pooling call's output array at the ideal instance.
  Its grid is 2 × 17: point n = 17·c + j handles rows 2944·n … 2944·n + 2943 of the padded node arrays, and the two sweeps
  c = 0, 1 accumulate separately. Within a sweep the accumulator is reset at j = 0 and every point adds, at graph g and
  feature f, the second-layer feature f of its rows that belong to graph g (KI/PoolStep.lean); the accumulator is stored
  into block c of the 2 × 256 × 64 output at j = 16 only. So after the run
      out[c,g,f] = ∑ j < 17, ∑ r < 2944, [ids[0,ρ] = g] · tanh((∑ k, a[ρ,k]·W_rel[k,f] + b[0,f]) + ∑ k, h[ρ,k]·W_root[k,f]),
  ρ = (17·c + j)·2944 + r: the sum over the half of the rows the sweep visits.
-/
import proofs.«410272_j33930241638933_2_alg».proof.Proof.KI.Region1
import proofs.«410272_j33930241638933_2_alg».proof.Proof.KI.PoolStep
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HandValue

open Cert.KernelIdeal Cert.KernelIdeal.Gen
open Idealize.ShloMosaic Idealize.ShloMosaic.TcCoe Idealize.SL.Sem
open Idealize.ShloMosaic.Pipeline (Dat)
open Idealize.ShloMosaic.ValueIdx

/-! ## A point's contribution, on whole arrays -/

/-- What the point at position `n` adds to the accumulator at graph `g` and feature `f`, from the six arrays whole:
    over rows `2944·n …` of the node arrays, the rows of graph `g` select their second layer's feature `f`. (Zero past
    the grid, so that it is a function of every natural.) -/
def pooledAt (agg h : S100096x64.Idx → EReal) (wrel wroot : S64x64.Idx → EReal) (b : S1x64.Idx → EReal) (ids : S1x100096.Idx → BitVec 32)
    (n : ℕ) (g : Fin 256) (f : Fin 64) : EReal :=
  if hn : n < 34 then
    ∑ r : Fin 2944, (if ids (ix2 (0 : Fin 1) (⟨n * 2944 + r.val, by omega⟩ : Fin 100096)) = BitVec.ofNat 32 g.val then (1 : EReal) else 0)
      * Ideal.tanh ((∑ k : Fin 64, agg (ix2 (⟨n * 2944 + r.val, by omega⟩ : Fin 100096) k) * wrel (ix2 k f) + b (ix2 (0 : Fin 1) f))
          + ∑ k : Fin 64, h (ix2 (⟨n * 2944 + r.val, by omega⟩ : Fin 100096) k) * wroot (ix2 k f))
  else 0

variable (V : (c : Dev nD) → (b : Ref sig .tc) → Buf (Elt Ideal) ((c : Thread nD τ).loc b))

/-! ## Where each window's block sits at a point -/

/-- The printed index maps over the 34 points, decided: the two row-blocked inputs are at block row `t`, the ids at
    column block `t`, the weights and the bias at block (0, 0), the output at block `t / 17` of its leading axis. -/
theorem pool_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = t.val
    ∧ win1_6.index t (0 : Fin 3) = t.val / 17 ∧ win1_6.index t (1 : Fin 3) = 0 ∧ win1_6.index t (2 : Fin 3) = 0
    ∧ t.val < 34 :=
  (by decide +kernel : ∀ t : Fin grid1.N, _)

/-- The aggregated messages' block at point `t` is rows `2944·t …` of the array. -/
theorem msg_block_apply (c : Dev nD) (t : Fin cfg1.N) (p : Fin 2944) (k : Fin 64) (r : Fin 100096) (hr : r.val = 2944 * t.val + p.val) :
    (Hand.iblk1 V c 0 t : S2944x64.Idx → EReal) (ix2 p k) = (V c main_v29 : S100096x64.Idx → EReal) (ix2 r k) := by
  have e := pool_index_facts t
  unfold Hand.iblk1
  rw [View.read_apply]
  show V c main_v29 (((cfg1.win 0).blk t).view.emb (ix2 p k)) = V c main_v29 (ix2 r k)
  congr 1
  funext a
  apply Fin.ext
  match a with
  | ⟨0, _⟩ => show win1_0.index t (0 : Fin 2) * 2944 + 1 * p.val = r.val; omega
  | ⟨1, _⟩ => show win1_0.index t (1 : Fin 2) * 64 + 1 * k.val = k.val; omega

/-- The hidden layer's block at point `t` is rows `2944·t …` of the array. -/
theorem hid_block_apply (c : Dev nD) (t : Fin cfg1.N) (p : Fin 2944) (k : Fin 64) (r : Fin 100096) (hr : r.val = 2944 * t.val + p.val) :
    (Hand.iblk1 V c 1 t : S2944x64.Idx → EReal) (ix2 p k) = (V c main_v18 : S100096x64.Idx → EReal) (ix2 r k) := by
  have e := pool_index_facts t
  unfold Hand.iblk1
  rw [View.read_apply]
  show V c main_v18 (((cfg1.win 1).blk t).view.emb (ix2 p k)) = V c main_v18 (ix2 r k)
  congr 1
  funext a
  apply Fin.ext
  match a with
  | ⟨0, _⟩ => show win1_1.index t (0 : Fin 2) * 2944 + 1 * p.val = r.val; omega
  | ⟨1, _⟩ => show win1_1.index t (1 : Fin 2) * 64 + 1 * k.val = k.val; omega

/-- The first weight matrix's block is the whole matrix at every point. -/
theorem wrel2_block_apply (c : Dev nD) (t : Fin cfg1.N) (k : Fin 64) (q : Fin 64) :
    (Hand.iblk1 V c 2 t : S64x64.Idx → EReal) (ix2 k q) = (V c main_arg6 : S64x64.Idx → EReal) (ix2 k q) := by
  have e := pool_index_facts t
  unfold Hand.iblk1
  rw [View.read_apply]
  show V c main_arg6 (((cfg1.win 2).blk t).view.emb (ix2 k q)) = V c main_arg6 (ix2 k q)
  congr 1
  funext a
  apply Fin.ext
  match a with
  | ⟨0, _⟩ => show win1_2.index t (0 : Fin 2) * 64 + 1 * k.val = k.val; omega
  | ⟨1, _⟩ => show win1_2.index t (1 : Fin 2) * 64 + 1 * q.val = q.val; omega

/-- The bias's block is the whole 1×64 array at every point. -/
theorem bias2_block_apply (c : Dev nD) (t : Fin cfg1.N) (k : Fin 1) (q : Fin 64) :
    (Hand.iblk1 V c 3 t : S1x64.Idx → EReal) (ix2 k q) = (V c main_v32 : S1x64.Idx → EReal) (ix2 k q) := by
  have e := pool_index_facts t
  unfold Hand.iblk1
  rw [View.read_apply]
  show V c main_v32 (((cfg1.win 3).blk t).view.emb (ix2 k q)) = V c main_v32 (ix2 k q)
  congr 1
  funext a
  apply Fin.ext
  match a with
  | ⟨0, _⟩ => show win1_3.index t (0 : Fin 2) * 1 + 1 * k.val = k.val; omega
  | ⟨1, _⟩ => show win1_3.index t (1 : Fin 2) * 64 + 1 * q.val = q.val; omega

/-- The second weight matrix's block is the whole matrix at every point. -/
theorem wroot2_block_apply (c : Dev nD) (t : Fin cfg1.N) (k : Fin 64) (q : Fin 64) :
    (Hand.iblk1 V c 4 t : S64x64.Idx → EReal) (ix2 k q) = (V c main_arg8 : S64x64.Idx → EReal) (ix2 k q) := by
  have e := pool_index_facts t
  unfold Hand.iblk1
  rw [View.read_apply]
  show V c main_arg8 (((cfg1.win 4).blk t).view.emb (ix2 k q)) = V c main_arg8 (ix2 k q)
  congr 1
  funext a
  apply Fin.ext
  match a with
  | ⟨0, _⟩ => show win1_4.index t (0 : Fin 2) * 64 + 1 * k.val = k.val; omega
  | ⟨1, _⟩ => show win1_4.index t (1 : Fin 2) * 64 + 1 * q.val = q.val; omega

/-- The graph ids' block at point `t` is columns `2944·t …` of the 1×100096 array. -/
theorem ids_block_apply (c : Dev nD) (t : Fin cfg1.N) (z : Fin 1) (p : Fin 2944) (r : Fin 100096) (hr : r.val = 2944 * t.val + p.val) :
    (Hand.iblk1 V c 5 t : S1x2944.Idx → BitVec 32) (ix2 z p) = (V c main_v31 : S1x100096.Idx → BitVec 32) (ix2 z r) := by
  have e := pool_index_facts t
  unfold Hand.iblk1
  rw [View.read_apply]
  show V c main_v31 (((cfg1.win 5).blk t).view.emb (ix2 z p)) = V c main_v31 (ix2 z r)
  congr 1
  funext a
  apply Fin.ext
  match a with
  | ⟨0, _⟩ => show win1_5.index t (0 : Fin 2) * 1 + 1 * z.val = z.val; omega
  | ⟨1, _⟩ => show win1_5.index t (1 : Fin 2) * 2944 + 1 * p.val = r.val; omega

/-! ## One point's update, on whole arrays -/

/-- The update of the accumulator at point `t`, at graph `g` and feature `f`: its entry plus the point's contribution. -/
theorem step_apply (c : Dev nD) (t : Fin cfg1.N) (s : Vec Ideal S1x256x64 .f32) (g : Fin 256) (f : Fin 64) :
    (Hand.stepAt1 V c t s : S1x256x64.Idx → EReal) (ix3 (0 : Fin 1) g f)
      = (s : S1x256x64.Idx → EReal) (ix3 (0 : Fin 1) g f) + pooledAt (V c main_v29) (V c main_v18) (V c main_arg6) (V c main_arg8) (V c main_v32) (V c main_v31) t.val g f := by
  have ht : t.val < 34 := lt_of_lt_of_eq t.isLt (show cfg1.N = 34 from N_1)
  unfold Hand.stepAt1
  rw [pool_update_apply]
  unfold pooledRows pooledAt
  rw [dif_pos ht]
  refine congrArg _ (Finset.sum_congr rfl fun r _ => ?_)
  simp only [msg_block_apply V c t r _ ⟨t.val * 2944 + r.val, by omega⟩ (by show t.val * 2944 + r.val = 2944 * t.val + r.val; omega),
    hid_block_apply V c t r _ ⟨t.val * 2944 + r.val, by omega⟩ (by show t.val * 2944 + r.val = 2944 * t.val + r.val; omega),
    ids_block_apply V c t _ r ⟨t.val * 2944 + r.val, by omega⟩ (by show t.val * 2944 + r.val = 2944 * t.val + r.val; omega),
    wrel2_block_apply V c t, bias2_block_apply V c t, wroot2_block_apply V c t]

/-- The same at any index of the accumulator's shape. -/
theorem step_apply_idx (c : Dev nD) (t : Fin cfg1.N) (s : Vec Ideal S1x256x64 .f32) (i : S1x256x64.Idx) :
    (Hand.stepAt1 V c t s : S1x256x64.Idx → EReal) i
      = (s : S1x256x64.Idx → EReal) i + pooledAt (V c main_v29) (V c main_v18) (V c main_arg6) (V c main_arg8) (V c main_v32) (V c main_v31) t.val ⟨(i 1).val, (i 1).isLt⟩ ⟨(i 2).val, (i 2).isLt⟩ := by
  have hi : ix3 (0 : Fin 1) (⟨(i 1).val, (i 1).isLt⟩ : Fin 256) (⟨(i 2).val, (i 2).isLt⟩ : Fin 64) = i := funext fun a => by
    match a with
    | ⟨0, _⟩ => exact Subsingleton.elim (α := Fin 1) _ _
    | ⟨1, _⟩ => rfl
    | ⟨2, _⟩ => rfl
  have h := step_apply V c t s ⟨(i 1).val, (i 1).isLt⟩ ⟨(i 2).val, (i 2).isLt⟩
  rw [hi] at h
  exact h

/-! ## The accumulator over a sweep: the fold, then the sum -/

/-- The accumulator after position `n`. -/
abbrev accAfter (c : Dev nD) (n : ℕ) (hn : n < cfg1.N) : S1x256x64.Idx → EReal := (Hand.outsAt1 V c n hn).2

/-- After position `n` the accumulator is the fold over its sweep's points so far: reset at the sweep's first point
    `17·(n / 17)`, updated at each later point up to `n`. -/
theorem accAfter_eq_fold (c : Dev nD) (n : ℕ) (hn : n < cfg1.N) (h' : 17 * (n / 17) + n % 17 < cfg1.N) :
    accAfter V c n hn
      = Pipeline.accAt (fun n hn => (Hand.stepAt1 V c ⟨n, hn⟩ (k1_pay2 (F := Ideal)) : S1x256x64.Idx → EReal))
          (fun n hn acc => (Hand.stepAt1 V c ⟨n, hn⟩ acc : S1x256x64.Idx → EReal)) (17 * (n / 17)) (n % 17) h' :=
  Pipeline.eq_accAt_of_mod (accAfter V c) 17 _ _
    (fun n hn h0 => Hand.acc_first V c ⟨n, hn⟩ h0)
    (fun n hn hne => Hand.acc_step V c ⟨n + 1, hn⟩ hne) (by decide) n hn h'

/-- So at an index it is the sum of the contributions of the sweep's points so far. -/
theorem accAfter_apply (c : Dev nD) (n : ℕ) (hn : n < cfg1.N) (i : S1x256x64.Idx) :
    accAfter V c n hn i
      = 0 + ∑ s ∈ Finset.range (n % 17 + 1), pooledAt (V c main_v29) (V c main_v18) (V c main_arg6) (V c main_arg8) (V c main_v32) (V c main_v31) (17 * (n / 17) + s) ⟨(i 1).val, (i 1).isLt⟩ ⟨(i 2).val, (i 2).isLt⟩ := by
  have h' : 17 * (n / 17) + n % 17 < cfg1.N := by rw [Nat.div_add_mod]; exact hn
  rw [accAfter_eq_fold V c n hn h']
  exact Pipeline.accAt_add_apply _ _ (fun _ => (0 : EReal))
    (fun m (i : S1x256x64.Idx) => pooledAt (V c main_v29) (V c main_v18) (V c main_arg6) (V c main_arg8) (V c main_v32) (V c main_v31) m ⟨(i 1).val, (i 1).isLt⟩ ⟨(i 2).val, (i 2).isLt⟩)
    (17 * (n / 17)) 16
    (fun hb i => by rw [step_apply_idx, pool_reset_apply])
    (fun m hm acc i _ _ => step_apply_idx V c ⟨m, hm⟩ acc i)
    (n % 17) (by omega) h' i

/-! ## What the two storing points write back -/

/-- A contribution named at equal position, graph and feature. -/
theorem pooledAt_congr {agg h : S100096x64.Idx → EReal} {wrel wroot : S64x64.Idx → EReal} {b : S1x64.Idx → EReal} {ids : S1x100096.Idx → BitVec 32}
    {n n' : ℕ} {g g' : Fin 256} {f f' : Fin 64} (hn : n = n') (hg : g.val = g'.val) (hf : f.val = f'.val) :
    pooledAt agg h wrel wroot b ids n g f = pooledAt agg h wrel wroot b ids n' g' f' := by
  obtain rfl := hn; obtain rfl := Fin.ext hg; obtain rfl := Fin.ext hf; rfl

/-- The whole 2×256×64 array of the pooled sums: at sweep `c'`, graph `g`, feature `f` the contributions of the sweep's
    17 points. -/
def pooledArr (c : Dev nD) : S2x256x64.Idx → EReal := fun j =>
  0 + ∑ s ∈ Finset.range 17, pooledAt (V c main_v29) (V c main_v18) (V c main_arg6) (V c main_arg8) (V c main_v32) (V c main_v31) (17 * (j 0).val + s) ⟨(j 1).val, (j 1).isLt⟩ ⟨(j 2).val, (j 2).isLt⟩

/-- A point that writes the output block back (a sweep's last) writes its block of the pooled sums' array: what it
    stored is the accumulator's contents there, the whole sweep's sum. -/
theorem pool_flushed_eq (c : Dev nD) (t : Fin cfg1.N) (hf : (cfg1.win 6).flush t = true) :
    (Hand.dat1 V c).flushed 6 t = ((cfg1.win 6).blk t).view.read (Elt Ideal) (pooledArr V c) := by
  have h16 : t.val % 17 = 16 := (flush1_6 t).mp hf
  have h0 : ¬t.val % 17 = 0 := by omega
  obtain ⟨-, -, -, -, -, -, -, -, -, -, -, -, e0, e1, e2, ht⟩ := pool_index_facts t
  show (cfg1.win 6).cut (grid1.coords t) ((Hand.dat1 V c).after 6 t) = _
  rw [Hand.after1_6, (Hand.out_last V c t h0 h16).trans (Hand.acc_last V c t h0 h16).symm]
  funext j
  have hj0 : (j 0).val < 1 := (j 0).isLt
  have hj1 : (j 1).val < 256 := (j 1).isLt
  have hj2 : (j 2).val < 64 := (j 2).isLt
  show accAfter V c t.val t.isLt ((cfg1.win 6).xinj (grid1.coords t) j) = pooledArr V c (((cfg1.win 6).blk t).view.emb j)
  rw [accAfter_apply, show t.val % 17 + 1 = 17 from by omega]
  unfold pooledArr
  refine congrArg _ (Finset.sum_congr rfl fun s _ => pooledAt_congr ?_ ?_ ?_)
  · show 17 * (t.val / 17) + s = 17 * (win1_6.index t (0 : Fin 3) * 1 + 1 * (j 0).val) + s; omega
  · show (j 1).val = win1_6.index t (1 : Fin 3) * 256 + 1 * (j 1).val; omega
  · show (j 2).val = win1_6.index t (2 : Fin 3) * 64 + 1 * (j 2).val; omega

/-! ## The two storing points' blocks tile the output -/

/-- An index of the output array is in point `t`'s block iff each coordinate is in the block's range on its axis. -/
theorem pool_mem_block (t : Fin cfg1.N) (i : S2x256x64.Idx) :
    i ∈ ((cfg1.win 6).blk t).view.set ↔ ∀ a : Fin 3, win1_6.index t a * S1x256x64.size a ≤ (i a).val ∧ (i a).val < win1_6.index t a * S1x256x64.size a + S1x256x64.size a := by
  show i ∈ ((View.whole main_v33).slice (win1_6.rect t)).set ↔ _
  rw [View.set_slice_whole, Rect.mem_set_unit]
  exact Iff.rfl

/-- Sweep `c'`'s half of the output is covered by the sweep's last point, `17·c' + 16`, which writes its block back. -/
theorem sweeps_cover (i : S2x256x64.Idx) : ∃ t : Fin cfg1.N, (cfg1.win 6).flush t = true ∧ i ∈ ((cfg1.win 6).blk t).view.set := by
  have hi0 : (i 0).val < 2 := (i 0).isLt
  have hi1 : (i 1).val < 256 := (i 1).isLt
  have hi2 : (i 2).val < 64 := (i 2).isLt
  have hN : cfg1.N = 34 := N_1
  refine ⟨⟨17 * (i 0).val + 16, by rw [hN]; omega⟩, (flush1_6 _).mpr (by show (17 * (i 0).val + 16) % 17 = 16; omega), ?_⟩
  obtain ⟨-, -, -, -, -, -, -, -, -, -, -, -, e0, e1, e2, -⟩ := pool_index_facts ⟨17 * (i 0).val + 16, by rw [hN]; omega⟩
  rw [pool_mem_block]
  intro a
  match a with
  | ⟨0, _⟩ =>
    show win1_6.index _ (0 : Fin 3) * 1 ≤ (i 0).val ∧ (i 0).val < win1_6.index _ (0 : Fin 3) * 1 + 1
    rw [e0]; show (17 * (i 0).val + 16) / 17 * 1 ≤ (i 0).val ∧ (i 0).val < (17 * (i 0).val + 16) / 17 * 1 + 1; omega
  | ⟨1, _⟩ =>
    show win1_6.index _ (1 : Fin 3) * 256 ≤ (i 1).val ∧ (i 1).val < win1_6.index _ (1 : Fin 3) * 256 + 256
    rw [e1]; omega
  | ⟨2, _⟩ =>
    show win1_6.index _ (2 : Fin 3) * 64 ≤ (i 2).val ∧ (i 2).val < win1_6.index _ (2 : Fin 3) * 64 + 64
    rw [e2]; omega

/-! ## The array after the region -/

/-- The output array after the last point is the pooled sums' array. -/
theorem pooled_final (c : Dev nD) : (Hand.dat1 V c).arrAt 6 cfg1.N = pooledArr V c :=
  (Hand.dat1 V c).arrAt_eq_of_cover 6 (pooledArr V c) (fun t hf => pool_flushed_eq V c t hf) sweeps_cover

/-- THE POOLING CALL'S OUTPUT at sweep `cc`, graph `g` and feature `f`, with the six arrays named at their literal
    shapes: over the 17 · 2944 rows the sweep visits, the rows of graph `g` select the second layer's feature `f`. -/
theorem pooled_array_sums (c : Dev nD) (agg h : S100096x64.Idx → EReal) (wrel wroot : S64x64.Idx → EReal) (b : S1x64.Idx → EReal) (ids : S1x100096.Idx → BitVec 32)
    (hagg : V c main_v29 = agg) (hh : V c main_v18 = h) (hwrel : V c main_arg6 = wrel) (hb : V c main_v32 = b) (hwroot : V c main_arg8 = wroot) (hids : V c main_v31 = ids)
    (cc : Fin 2) (g : Fin 256) (f : Fin 64) :
    ((Hand.dat1 V c).arrAt 6 cfg1.N : S2x256x64.Idx → EReal) (ix3 cc g f)
      = ∑ t : Fin 17, ∑ r : Fin 2944, (if ids (ix2 (0 : Fin 1) (⟨(cc.val * 17 + t.val) * 2944 + r.val, by omega⟩ : Fin 100096)) = BitVec.ofNat 32 g.val then (1 : EReal) else 0)
          * Ideal.tanh ((∑ k : Fin 64, agg (ix2 (⟨(cc.val * 17 + t.val) * 2944 + r.val, by omega⟩ : Fin 100096) k) * wrel (ix2 k f) + b (ix2 (0 : Fin 1) f))
              + ∑ k : Fin 64, h (ix2 (⟨(cc.val * 17 + t.val) * 2944 + r.val, by omega⟩ : Fin 100096) k) * wroot (ix2 k f)) := by
  subst hagg hh hwrel hb hwroot hids
  rw [pooled_final]
  show 0 + ∑ s ∈ Finset.range 17, pooledAt (V c main_v29) (V c main_v18) (V c main_arg6) (V c main_arg8) (V c main_v32) (V c main_v31) (17 * cc.val + s) ⟨g.val, g.isLt⟩ ⟨f.val, f.isLt⟩ = _
  rw [zero_add, Finset.sum_range]
  refine Finset.sum_congr rfl fun t _ => ?_
  have hcc : cc.val < 2 := cc.isLt
  have htt : t.val < 17 := t.isLt
  unfold pooledAt
  rw [dif_pos (show 17 * cc.val + t.val < 34 by omega)]
  refine Finset.sum_congr rfl fun r _ => ?_
  have hrr : r.val < 2944 := r.isLt
  have e : (⟨(17 * cc.val + t.val) * 2944 + r.val, by omega⟩ : Fin 100096) = ⟨(cc.val * 17 + t.val) * 2944 + r.val, by omega⟩ := Fin.ext (by show (17 * cc.val + t.val) * 2944 + r.val = (cc.val * 17 + t.val) * 2944 + r.val; omega)
  rw [e]

end Cert.KernelIdeal.HandValue

end
-- ==== Proof.LibRows.lean ====
/-
  Rows of a matrix taken at an index vector, and rows added into a matrix at an index vector, read at one index.

  Two host operations over an operand of shape [n, c], a column of integer words of shape [e, 1], and an
  array of shape [e, c]:

  • the gather with offset axis 1, collapsed slice axis 0, start index map [0], index vector axis 1 and slice
    sizes [1, c] — what h[src] of a matrix h at an index vector src lowers to. Its element (p, q) is the
    operand's element (k, q), where k is the word idx[p, 0] read as a signed integer and clamped into
    [0, n − 1] (rowGather_apply);

  • the scatter with update window axis 1, inserted window axis 0, scatter-dims-to-operand-dims [0] and index
    vector axis 1, whose body adds — what segment_sum(u, dst, num_segments = n) lowers to (over zeros). The
    update (p, q) lands on the operand's element (r, q) exactly when the word idx[p, 0], read signed and NOT
    clamped, is r (rowScatter_resultIdx); so over the extended reals the result's element (r, q) is the
    operand's plus the sum, over all p, of upd[p, q] where idx[p, 0] = r and of 0 elsewhere
    (rowScatterAdd_apply). An index outside [0, n) names no row: its update is dropped.

  The same scatter for a rank-1 operand [n] and updates [e] (no window axis): segment_sum of a vector
  (rowScatter1_resultIdx, rowScatterAdd1_apply).

  Everything is symbolic in the extents n, e, c and the word width w; no index set is enumerated.
-/
import Idealize.ShloMosaic.PureOps.Ideal
import Idealize.ShloMosaic.Lib.ValueIdx

noncomputable section

open scoped BigOperators

namespace Cert.LibRows

open Idealize.ShloMosaic Idealize.ShloMosaic.ValueIdx

/-! ## Rows taken at an index vector -/

section RowGather
variable {α : Type}

/-- The dimension numbers of "rows of an [n, c] operand at an [e, 1] column of start indices": the result
    [e, c] has one offset axis (1), the operand's axis 0 is collapsed and is the one the start index names,
    the slice is one whole row. Their conditions wf are a parameter, decided on a program's literal shapes. -/
abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- THE ROW GATHER READ AT (p, q): the operand at row idx[p, 0] — read signed and clamped into
    [0, n − 1] — and column q. -/
theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>
    -- the row axis: collapsed (no offset), not batching, named by the start index map
    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the column axis: not named by the start index map (start 0), not batching, the result's offset axis
    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

/-! ## Rows added at an index vector -/

section RowScatter

/-- The dimension numbers of "rows of [e, c] updates added into an [n, c] operand at an [e, 1] column of
    scatter indices": the updates' axis 1 is the window axis (a whole row), the operand's axis 0 is inserted
    and is the one the scatter index names. Their conditions wf are a parameter, decided on a program's
    literal shapes. -/
abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

/-- On the row axis the window of update (p, q) starts at the word idx[p, 0], read signed … -/
theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and on the column axis, which no scatter index names, at 0. -/
theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

/-- The row axis is inserted: no window coordinate. -/
theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

/-- The column axis carries the update's column. -/
theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

/-- WHERE UPDATE (p, q) LANDS: on the operand's element (r, q') exactly when the word idx[p, 0], read
    signed, is r, and the columns agree. (An index below 0 or from n on lands nowhere.) -/
theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

/-- THE ROW SCATTER-ADD READ AT (r, q), over the extended reals: the operand's element plus the sum over all
    update rows p of upd[p, q] where idx[p, 0] = r (read signed), of 0 elsewhere. -/
theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

/-! ## Entries added into a vector at an index vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "entries of [e] updates added into an [n] operand at an [e, 1] column of scatter
    indices": the updates have no window axis, the operand's one axis is inserted and is the one the scatter
    index names. Their conditions wf are a parameter, decided on a program's literal shapes. -/
abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

/-- The window of update p starts at the word idx[p, 0], read signed … -/
theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (show (0 : Fin 1) ∈ ([0] : List (Fin 1)) from List.mem_singleton.mpr rfl)]
  have hsi : (rowScatterDims1 n e wf).siIdx (ix1 p) ⟨List.idxOf (0 : Fin 1) (rowScatterDims1 n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and the operand's one axis is inserted: no window coordinate. -/
theorem rowScatter1_window (p : Fin e) : (rowScatterDims1 n e wf).window (ix1 p) 0 = 0 := by
  unfold ScatterDims.window
  rw [dif_neg (fun h => (mem_kept (s := ⟨1, ![n]⟩) [0] 0).mp h (List.mem_singleton.mpr rfl))]

/-- WHERE UPDATE p LANDS: on the operand's element r exactly when the word idx[p, 0], read signed, is r. -/
theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  have h0 := rowScatter1_start wf idx p
  have w0 := rowScatter1_window wf p
  unfold ScatterDims.resultIdx?
  constructor
  · intro h
    split at h
    · rename_i hb
      have hf := Option.some.inj h
      have e0 := congrArg (fun f => (f 0).val) hf
      have b0 := (hb 0).1
      simp only [h0, w0] at e0 b0
      change ((idx (ix2 p (0 : Fin 1))).toInt + ((0 : Nat) : Int)).toNat = r.val at e0
      omega
    · exact absurd h (by simp)
  · intro hr
    have hb : ∀ a, 0 ≤ (rowScatterDims1 n e wf).start (ix1 p) idx a + ((rowScatterDims1 n e wf).window (ix1 p) a : Int)
        ∧ (rowScatterDims1 n e wf).start (ix1 p) idx a + ((rowScatterDims1 n e wf).window (ix1 p) a : Int)
          < ((⟨1, ![n]⟩ : Shape).size a : Int) := by
      intro a
      match a with
      | ⟨0, _⟩ =>
        show 0 ≤ (rowScatterDims1 n e wf).start (ix1 p) idx 0 + ((rowScatterDims1 n e wf).window (ix1 p) 0 : Int)
          ∧ (rowScatterDims1 n e wf).start (ix1 p) idx 0 + ((rowScatterDims1 n e wf).window (ix1 p) 0 : Int) < (n : Int)
        rw [h0, w0, hr]
        have := r.isLt
        omega
    rw [dif_pos hb]
    congr 1
    funext a
    refine Fin.ext ?_
    match a with
    | ⟨0, _⟩ =>
      show ((rowScatterDims1 n e wf).start (ix1 p) idx 0 + ((rowScatterDims1 n e wf).window (ix1 p) 0 : Int)).toNat = r.val
      rw [h0, w0, hr]; omega

/-- THE VECTOR SCATTER-ADD READ AT r, over the extended reals: the operand's element plus the sum over all
    updates p of upd[p] where idx[p, 0] = r (read signed), of 0 elsewhere. -/
theorem rowScatterAdd1_apply (x : (⟨1, ![n]⟩ : Shape).Idx → EReal) (idx : IVec ⟨2, ![e, 1]⟩ w)
    (upd : (⟨1, ![e]⟩ : Shape).Idx → EReal) (r : Fin n) :
    Host.scatterAdd (F := Ideal) (φ := .f32) (rowScatterDims1 n e wf) x idx upd (ix1 r)
      = x (ix1 r) + ∑ p : Fin e, if (idx (ix2 p (0 : Fin 1))).toInt = (r.val : Int) then upd (ix1 p) else 0 := by
  show x (ix1 r) + ∑ j ∈ Finset.univ.filter (fun j => (rowScatterDims1 n e wf).resultIdx? j idx = some (ix1 r)), upd j = _
  congr 1
  rw [Finset.sum_filter, sum_idx1]
  refine Finset.sum_congr rfl fun p _ => ?_
  simp only [rowScatter1_resultIdx]

end VecScatter

end Cert.LibRows

end
-- ==== Proof.Layers.lean ====
/-
  The two graph-convolution layers of the kernel's host side against the reference's, row by row.

  The reference works on the 100000 nodes; the kernel's host side works on arrays padded to 100096 rows. On the
  first 100000 rows the two agree, stage by stage:

  • the first layer's aggregated messages — for node i and feature k, the sum over the edges whose destination is i
    of the features' entry (row of the edge's source, column k) — are the same sum on both sides (agg1_rows): both
    sides normalise a negative source by adding 100000 and clamp it into the features' 100000 rows;
  • the padded features are the features (xPad_rows);
  • so a hidden layer that is tanh (aggregated · W + bias + features · W') on every padded row is the reference's
    hidden layer on the first 100000 rows (hidden_rows);
  • the second layer's aggregated messages take rows of the hidden layer: the kernel's of the padded one, normalising
    by 100096 and clamping to row 100095, the reference's of its own, normalising by 100000 and clamping to row 99999.
    When every source is a node, 0 ≤ source < 100000, neither changes it, and both read the row of the source
    (agg2_rows); and the second layer's output follows as the first's did (out_rows).

  All values are extended reals; sums are finite sums in their commutative monoid; a product is never distributed
  over a sum.
-/
import proofs.«410272_j33930241638933_2_alg».proof.Proof.KI.Stages
import proofs.«410272_j33930241638933_2_alg».proof.Proof.Gen.ReferenceIdeal.Read
import proofs.«410272_j33930241638933_2_alg».proof.Proof.LibRows
import Idealize.ShloMosaic.Lib.KernelVsHost

noncomputable section

open scoped BigOperators

namespace Cert.Bridge

open Idealize.ShloMosaic Idealize.ShloMosaic.ValueIdx Cert.LibRows
open Cert.KernelIdeal.Stages Cert.ReferenceIdeal.Read

/-! ## The printed scatters and gathers read at an index -/

section Records

/-- The kernel's 32-column row scatter-add at (r, q). -/
theorem kScatter32_apply (X : (⟨2, ![100096, 32]⟩ : Shape).Idx → EReal) (I : IVec ⟨2, ![1600000, 1]⟩ 32)
    (U : (⟨2, ![1600000, 32]⟩ : Shape).Idx → EReal) (r : Fin 100096) (q : Fin 32) :
    Host.scatterAdd (F := Ideal) (φ := .f32) Cert.KernelIdeal.scatter_S100096x32_S1600000x1_S1600000x32_1_0_0_1 X I U (ix2 r q)
      = X (ix2 r q) + ∑ p : Fin 1600000, if (I (ix2 p (0 : Fin 1))).toInt = (r.val : Int) then U (ix2 p q) else 0 :=
  rowScatterAdd_apply Cert.KernelIdeal.Facts₀.scatter_S100096x32_S1600000x1_S1600000x32_1_0_0_1_wf X I U r q

/-- The reference's 32-column row scatter-add at (r, q). -/
theorem rScatter32_apply (X : (⟨2, ![100000, 32]⟩ : Shape).Idx → EReal) (I : IVec ⟨2, ![1600000, 1]⟩ 32)
    (U : (⟨2, ![1600000, 32]⟩ : Shape).Idx → EReal) (r : Fin 100000) (q : Fin 32) :
    Host.scatterAdd (F := Ideal) (φ := .f32) Cert.ReferenceIdeal.scatter_S100000x32_S1600000x1_S1600000x32_1_0_0_1 X I U (ix2 r q)
      = X (ix2 r q) + ∑ p : Fin 1600000, if (I (ix2 p (0 : Fin 1))).toInt = (r.val : Int) then U (ix2 p q) else 0 :=
  rowScatterAdd_apply Cert.ReferenceIdeal.Facts₀.scatter_S100000x32_S1600000x1_S1600000x32_1_0_0_1_wf X I U r q

/-- The kernel's 64-column row scatter-add at (r, q). -/
theorem kScatter64_apply (X : (⟨2, ![100096, 64]⟩ : Shape).Idx → EReal) (I : IVec ⟨2, ![1600000, 1]⟩ 32)
    (U : (⟨2, ![1600000, 64]⟩ : Shape).Idx → EReal) (r : Fin 100096) (q : Fin 64) :
    Host.scatterAdd (F := Ideal) (φ := .f32) Cert.KernelIdeal.scatter_S100096x64_S1600000x1_S1600000x64_1_0_0_1 X I U (ix2 r q)
      = X (ix2 r q) + ∑ p : Fin 1600000, if (I (ix2 p (0 : Fin 1))).toInt = (r.val : Int) then U (ix2 p q) else 0 :=
  rowScatterAdd_apply Cert.KernelIdeal.Facts₀.scatter_S100096x64_S1600000x1_S1600000x64_1_0_0_1_wf X I U r q

/-- The reference's 64-column row scatter-add at (r, q). -/
theorem rScatter64_apply (X : (⟨2, ![100000, 64]⟩ : Shape).Idx → EReal) (I : IVec ⟨2, ![1600000, 1]⟩ 32)
    (U : (⟨2, ![1600000, 64]⟩ : Shape).Idx → EReal) (r : Fin 100000) (q : Fin 64) :
    Host.scatterAdd (F := Ideal) (φ := .f32) Cert.ReferenceIdeal.scatter_S100000x64_S1600000x1_S1600000x64_1_0_0_1 X I U (ix2 r q)
      = X (ix2 r q) + ∑ p : Fin 1600000, if (I (ix2 p (0 : Fin 1))).toInt = (r.val : Int) then U (ix2 p q) else 0 :=
  rowScatterAdd_apply Cert.ReferenceIdeal.Facts₀.scatter_S100000x64_S1600000x1_S1600000x64_1_0_0_1_wf X I U r q

/-- The kernel's 64-column row gather at (p, k): row r of the operand, once the start index idx[p, 0], read signed and
    clamped into the operand's 100096 rows, is known to be r. -/
theorem kGather64_apply (H : (⟨2, ![100096, 64]⟩ : Shape).Idx → EReal) (I : IVec ⟨2, ![1600000, 1]⟩ 32) (p : Fin 1600000)
    (k : Fin 64) (r : Fin 100096) (hr : min (I (ix2 p (0 : Fin 1))).toInt.toNat (100096 - 1) = r.val) :
    Host.gather Cert.KernelIdeal.gather_S100096x64_S1600000x1_S1600000x64_1_0_n_n_0_1_164 H I (ix2 p k) = H (ix2 r k) :=
  (rowGather_apply (by omega) Cert.KernelIdeal.Facts₀.gather_S100096x64_S1600000x1_S1600000x64_1_0_n_n_0_1_164_wf H I p k).trans
    (congrArg (fun r => H (ix2 r k)) (Fin.ext hr))

/-- The reference's 64-column row gather at (p, k): row r of the operand, once the start index idx[p, 0], read signed
    and clamped into the operand's 100000 rows, is known to be r. -/
theorem rGather64_apply (H : (⟨2, ![100000, 64]⟩ : Shape).Idx → EReal) (I : IVec ⟨2, ![1600000, 1]⟩ 32) (p : Fin 1600000)
    (k : Fin 64) (r : Fin 100000) (hr : min (I (ix2 p (0 : Fin 1))).toInt.toNat (100000 - 1) = r.val) :
    Host.gather Cert.ReferenceIdeal.gather_S100000x64_S1600000x1_S1600000x64_1_0_n_n_0_1_164 H I (ix2 p k) = H (ix2 r k) :=
  (rowGather_apply (by omega) Cert.ReferenceIdeal.Facts₀.gather_S100000x64_S1600000x1_S1600000x64_1_0_n_n_0_1_164_wf H I p k).trans
    (congrArg (fun r => H (ix2 r k)) (Fin.ext hr))

end Records

/-! ## Layer 1 -/

section Layer1
variable (x0 : (⟨2, ![100000, 32]⟩ : Shape).Idx → EReal) (x1 : IVec ⟨2, ![2, 1600000]⟩ 32)

/-- The first layer's aggregated messages on a node's row: the kernel's padded array and the reference's agree. -/
theorem agg1_rows (i : Fin 100000) (k : Fin 32) :
    agg1 (F := Ideal) x0 x1 (ix2 (⟨i.val, by omega⟩ : Fin 100096) k) = val_main_v13 (F := Ideal) x0 x1 (ix2 i k) := by
  unfold agg1 val_main_v13
  rw [kScatter32_apply, rScatter32_apply]
  rfl

/-- With no low padding and no interior padding, a padded coordinate is the operand's. -/
theorem unpadded (n : Nat) : n = 0 + n * (0 + 1) := by omega

/-- The node features padded with 96 zero rows are the features on a node's row. -/
theorem xPad_rows (i : Fin 100000) (k : Fin 32) :
    xPad (F := Ideal) x0 (ix2 (⟨i.val, by omega⟩ : Fin 100096) k) = x0 (ix2 i k) := by
  unfold xPad
  refine pad_apply_of_inside ![0, 0] ![96, 0] ![0, 0] x0 _ _ _ _ (ix2 i k) fun a => ?_
  match a with
  | ⟨0, _⟩ => show i.val = 0 + i.val * _; show _ = _ + _ * ((0 : Nat) + 1); exact unpadded i.val
  | ⟨1, _⟩ => show k.val = 0 + k.val * _; show _ = _ + _ * ((0 : Nat) + 1); exact unpadded k.val

/-- A bias as a 1×64 row, read at column f. -/
theorem biasRow_apply (b : (⟨1, ![64]⟩ : Shape).Idx → EReal) (f : Fin 64) :
    biasRow (F := Ideal) b (ix2 (0 : Fin 1) f) = b (ix1 f) := by
  unfold biasRow
  exact shapeCast_apply b _ (ix2 (0 : Fin 1) f) (ix1 f)
    (by rewrite [Shape.rowMajor_val_two, Shape.rowMajor_val_one]; show f.val = 0 * 64 + f.val; omega)

variable (x3 : (⟨2, ![32, 64]⟩ : Shape).Idx → EReal) (x4 : (⟨1, ![64]⟩ : Shape).Idx → EReal)
  (x5 : (⟨2, ![32, 64]⟩ : Shape).Idx → EReal)

/-- A hidden layer that is tanh (aggregated · W + bias + features · W') on every padded row is the reference's hidden
    layer on a node's row. -/
theorem hidden_rows (h : (⟨2, ![100096, 64]⟩ : Shape).Idx → EReal)
    (hh : ∀ (i : Fin 100096) (f : Fin 64), h (ix2 i f)
      = Ideal.tanh ((∑ k : Fin 32, agg1 (F := Ideal) x0 x1 (ix2 i k) * x3 (ix2 k f) + biasRow (F := Ideal) x4 (ix2 (0 : Fin 1) f))
          + ∑ k : Fin 32, xPad (F := Ideal) x0 (ix2 i k) * x5 (ix2 k f)))
    (i : Fin 100000) (f : Fin 64) :
    h (ix2 (⟨i.val, by omega⟩ : Fin 100096) f) = val_main_v20 (F := Ideal) x0 x1 x3 x4 x5 (ix2 i f) := by
  rw [hh, val_main_v20_apply, val_main_v19_apply, val_main_v17_apply, val_main_v14_apply, val_main_v18_apply,
    val_main_v16_apply, val_main_v15_apply, biasRow_apply, Ideal.hostUnary_tanh_def, Ideal.addf_def, Ideal.addf_def]
  -- the operand indices the reference's products and broadcasts read, by coordinates
  have eb : idx_main_v15 (idx_main_v16 (ix2 i f)) = ix1 f := funext fun a => match a with | ⟨0, _⟩ => rfl
  have e1 : ∀ k : Fin 32, lidx_main_v14 (ix2 i f) k = ix2 i k := fun k => funext fun a => match a with | ⟨0, _⟩ => rfl | ⟨1, _⟩ => rfl
  have e2 : ∀ k : Fin 32, ridx_main_v14 (ix2 i f) k = ix2 k f := fun k => funext fun a => match a with | ⟨0, _⟩ => rfl | ⟨1, _⟩ => rfl
  have e3 : ∀ k : Fin 32, lidx_main_v18 (ix2 i f) k = ix2 i k := fun k => funext fun a => match a with | ⟨0, _⟩ => rfl | ⟨1, _⟩ => rfl
  have e4 : ∀ k : Fin 32, ridx_main_v18 (ix2 i f) k = ix2 k f := fun k => funext fun a => match a with | ⟨0, _⟩ => rfl | ⟨1, _⟩ => rfl
  simp only [eb, e1, e2, e3, e4, agg1_rows, xPad_rows]

end Layer1

/-! ## Layer 2 -/

section Layer2
variable (x0 : (⟨2, ![100000, 32]⟩ : Shape).Idx → EReal) (x1 : IVec ⟨2, ![2, 1600000]⟩ 32)
  (x3 : (⟨2, ![32, 64]⟩ : Shape).Idx → EReal) (x4 : (⟨1, ![64]⟩ : Shape).Idx → EReal)
  (x5 : (⟨2, ![32, 64]⟩ : Shape).Idx → EReal)

/-- The source of edge p is the edge list's entry (0, p). -/
theorem src_apply (p : Fin 1600000) : src x1 (ix1 p) = x1 (ix2 (0 : Fin 2) p) := by
  unfold src
  rw [shapeCast_apply _ _ (ix1 p) (ix2 (0 : Fin 1) p)
    (by rewrite [Shape.rowMajor_val_two, Shape.rowMajor_val_one]; show 0 * 1600000 + p.val = p.val; omega)]
  exact extractStridedSlice_apply ![0, 0] x1 _ _ (ix2 (0 : Fin 2) p) (fun a => match a with
    | ⟨0, _⟩ => rfl
    | ⟨1, _⟩ => by show p.val = 0 + p.val; omega)

/-- The start index of edge p into an array of n rows: the source, with n added when it is negative. -/
theorem startsOf_apply (n : BitVec 32) (p : Fin 1600000) :
    startsOf n x1 (ix2 p (0 : Fin 1))
      = Scalar.select (IntOp.cmpi .slt (x1 (ix2 (0 : Fin 2) p)) 0#32) (IntOp.addi (x1 (ix2 (0 : Fin 2) p)) n) (x1 (ix2 (0 : Fin 2) p)) := by
  unfold startsOf
  rw [broadcastInDim_apply _ _ _ (ix2 p (0 : Fin 1)) (ix1 p) (fun a => match a with
    | ⟨0, _⟩ => by show p.val = if (1600000 : Nat) = 1 then 0 else p.val; rw [if_neg (by decide)])]
  show Scalar.select (IntOp.cmpi .slt (src x1 (ix1 p)) _) (IntOp.addi (src x1 (ix1 p)) _) (src x1 (ix1 p)) = _
  rw [src_apply]
  rfl

/-- A source that is not negative is its own start index, whatever n. -/
theorem startsOf_of_nonneg (n : BitVec 32) (p : Fin 1600000) (h0 : 0 ≤ (x1 (ix2 (0 : Fin 2) p)).toInt) :
    startsOf n x1 (ix2 p (0 : Fin 1)) = x1 (ix2 (0 : Fin 2) p) := by
  rw [startsOf_apply]
  have hs : (x1 (ix2 (0 : Fin 2) p)).slt 0#32 = false := by
    rw [BitVec.slt, decide_eq_false_iff_not]
    have : (0#32 : BitVec 32).toInt = 0 := by decide
    rw [this]; omega
  have : IntOp.cmpi .slt (x1 (ix2 (0 : Fin 2) p)) 0#32 = 0#1 := by
    show BitVec.ofBool ((x1 (ix2 (0 : Fin 2) p)).slt 0#32) = 0#1
    rw [hs]; rfl
  rw [this, select_zero]

/-- The second layer's aggregated messages on a node's row, when every edge's source is a node: the kernel's, taken from
    a padded hidden layer that is the reference's on the nodes' rows, are the reference's. Neither side's normalisation
    of a negative source nor its clamp changes a source in [0, 100000), so both read the source's row. -/
theorem agg2_rows (hsrc : ∀ e : Fin 1600000, 0 ≤ (x1 (ix2 (0 : Fin 2) e)).toInt ∧ (x1 (ix2 (0 : Fin 2) e)).toInt < 100000)
    (h : (⟨2, ![100096, 64]⟩ : Shape).Idx → EReal)
    (hrows : ∀ (i : Fin 100000) (f : Fin 64), h (ix2 (⟨i.val, by omega⟩ : Fin 100096) f) = val_main_v20 (F := Ideal) x0 x1 x3 x4 x5 (ix2 i f))
    (i : Fin 100000) (k : Fin 64) :
    agg2 (F := Ideal) h x1 (ix2 (⟨i.val, by omega⟩ : Fin 100096) k) = val_main_v30 (F := Ideal) x0 x1 x3 x4 x5 (ix2 i k) := by
  unfold agg2 val_main_v30
  rw [kScatter64_apply, rScatter64_apply]
  -- the zero operands agree, and the two sums agree edge by edge
  have hz : broadcastInDim Cert.KernelIdeal.S100096x64 ![] Cert.KernelIdeal.Facts₀.bcast_S_S100096x64
      (constant (F := Ideal) Cert.KernelIdeal.S_ .f32 0x00000000#32) (ix2 (⟨i.val, by omega⟩ : Fin 100096) k)
      = val_main_v28 (F := Ideal) (ix2 i k) := rfl
  rw [hz]
  refine congrArg (fun s => val_main_v28 (F := Ideal) (ix2 i k) + s) (Finset.sum_congr rfl fun p _ => ?_)
  refine if_congr Iff.rfl ?_ rfl
  obtain ⟨h0, h1⟩ := hsrc p
  have hK : startsOf 100096#32 x1 (ix2 p (0 : Fin 1)) = x1 (ix2 (0 : Fin 2) p) := startsOf_of_nonneg x1 _ p h0
  have hR : val_main_v26 (F := Ideal) x1 (ix2 p (0 : Fin 1)) = x1 (ix2 (0 : Fin 2) p) := startsOf_of_nonneg x1 100000#32 p h0
  have hlt : (x1 (ix2 (0 : Fin 2) p)).toInt.toNat < 100000 := by omega
  rw [extf_apply, kGather64_apply h _ p k ⟨(x1 (ix2 (0 : Fin 2) p)).toInt.toNat, by omega⟩
    (by rw [hK]; show min (x1 (ix2 (0 : Fin 2) p)).toInt.toNat (100096 - 1) = (x1 (ix2 (0 : Fin 2) p)).toInt.toNat; omega)]
  unfold val_main_v27
  rw [rGather64_apply _ _ p k ⟨(x1 (ix2 (0 : Fin 2) p)).toInt.toNat, hlt⟩
    (by rw [hR]; show min (x1 (ix2 (0 : Fin 2) p)).toInt.toNat (100000 - 1) = (x1 (ix2 (0 : Fin 2) p)).toInt.toNat; omega)]
  exact hrows ⟨(x1 (ix2 (0 : Fin 2) p)).toInt.toNat, hlt⟩ k

variable (x6 : (⟨2, ![64, 64]⟩ : Shape).Idx → EReal) (x7 : (⟨1, ![64]⟩ : Shape).Idx → EReal)
  (x8 : (⟨2, ![64, 64]⟩ : Shape).Idx → EReal)

/-- The second layer's output on a node's row, from the kernel's aggregated messages and padded hidden layer, is the
    reference's. -/
theorem out_rows (hsrc : ∀ e : Fin 1600000, 0 ≤ (x1 (ix2 (0 : Fin 2) e)).toInt ∧ (x1 (ix2 (0 : Fin 2) e)).toInt < 100000)
    (h : (⟨2, ![100096, 64]⟩ : Shape).Idx → EReal)
    (hrows : ∀ (i : Fin 100000) (f : Fin 64), h (ix2 (⟨i.val, by omega⟩ : Fin 100096) f) = val_main_v20 (F := Ideal) x0 x1 x3 x4 x5 (ix2 i f))
    (i : Fin 100000) (f : Fin 64) :
    Ideal.tanh ((∑ k : Fin 64, agg2 (F := Ideal) h x1 (ix2 (⟨i.val, by omega⟩ : Fin 100096) k) * x6 (ix2 k f)
          + biasRow (F := Ideal) x7 (ix2 (0 : Fin 1) f))
        + ∑ k : Fin 64, h (ix2 (⟨i.val, by omega⟩ : Fin 100096) k) * x8 (ix2 k f))
      = val_main_v37 (F := Ideal) x0 x1 x3 x4 x5 x6 x7 x8 (ix2 i f) := by
  rw [val_main_v37_apply, val_main_v36_apply, val_main_v34_apply, val_main_v31_apply, val_main_v35_apply,
    val_main_v33_apply, val_main_v32_apply, biasRow_apply, Ideal.hostUnary_tanh_def, Ideal.addf_def, Ideal.addf_def]
  -- the operand indices the reference's products and broadcasts read, by coordinates
  have eb : idx_main_v32 (idx_main_v33 (ix2 i f)) = ix1 f := funext fun a => match a with | ⟨0, _⟩ => rfl
  have e1 : ∀ k : Fin 64, lidx_main_v31 (ix2 i f) k = ix2 i k := fun k => funext fun a => match a with | ⟨0, _⟩ => rfl | ⟨1, _⟩ => rfl
  have e2 : ∀ k : Fin 64, ridx_main_v31 (ix2 i f) k = ix2 k f := fun k => funext fun a => match a with | ⟨0, _⟩ => rfl | ⟨1, _⟩ => rfl
  have e3 : ∀ k : Fin 64, lidx_main_v35 (ix2 i f) k = ix2 i k := fun k => funext fun a => match a with | ⟨0, _⟩ => rfl | ⟨1, _⟩ => rfl
  have e4 : ∀ k : Fin 64, ridx_main_v35 (ix2 i f) k = ix2 k f := fun k => funext fun a => match a with | ⟨0, _⟩ => rfl | ⟨1, _⟩ => rfl
  simp only [eb, e1, e2, e3, e4, agg2_rows x0 x1 x3 x4 x5 hsrc h hrows, hrows]

end Layer2

end Cert.Bridge

end
-- ==== Proof.Pool.lean ====
/-
  The pooling step of the bridge between the kernel and the reference: per-graph means of the second hidden layer.

  The reference pools by a scatter-add over the N = 100000 nodes: the sum for graph g and feature f is the sum,
  over the nodes i whose graph id is g, of h2[i, f]; it then divides by max(count, 1).

  The kernel pads the node axis to 100096 = 2 · 17 · 2944 rows and the graph ids with 96 entries −1, and forms,
  on each of 2 cores and over the 17 tiles of 2944 rows of that core, the product of the one-hot matrix
  [ids[row] = g] with the tile of h2; it adds the two cores' partial sums and divides by the same counts.

  The two agree: the triple sum over (core, tile, row in tile) is the sum over all 100096 rows
  (row = (core · 17 + tile) · 2944 + r is a bijection); a padded row has id −1, which is no graph g < 256, so its
  term is 0 · h2 = 0; on a row below 100000 the one-hot factor is 1 exactly when the id word, read as a signed
  integer, is g, and then the term is h2[i, f], else 0 — the scatter-add's summand.  Only 0 · x = 0 and
  1 · x = x are used of the product, and reindexing of finite sums in a commutative monoid.
-/
import proofs.«410272_j33930241638933_2_alg».proof.Proof.KI.Stages
import proofs.«410272_j33930241638933_2_alg».proof.Proof.Gen.ReferenceIdeal.Read
import proofs.«410272_j33930241638933_2_alg».proof.Proof.LibRows
import Idealize.ShloMosaic.Lib.KernelVsHost
import Idealize.ShloMosaic.Lib.Pipeline.Value
import Idealize.ShloMosaic.Lib.ValueIdx
import Idealize.ShloMosaic.PureOps.Ideal.Laws
import Mathlib.Algebra.BigOperators.Fin
import Mathlib.Logic.Equiv.Fin.Basic
import Mathlib.Data.EReal.Basic

noncomputable section

open scoped BigOperators

namespace Cert.Bridge

open Idealize.ShloMosaic Idealize.ShloMosaic.ValueIdx

/-! ## Finite sums: tiles of an index range, and a range whose tail contributes nothing -/

section Sums
variable {M : Type*} [AddCommMonoid M]

/-- Position b of tile a, of m tiles of n positions, lies below m · n. -/
theorem tile_lt {m n N : ℕ} (h : m * n = N) (a : Fin m) (b : Fin n) : a.val * n + b.val < N := by
  subst h
  calc a.val * n + b.val < a.val * n + n := by have := b.isLt; omega
    _ = (a.val + 1) * n := by rw [Nat.add_mul, Nat.one_mul]
    _ ≤ m * n := Nat.mul_le_mul_right n a.isLt

/-- Summing tile by tile is summing over the whole range: (a, b) ↦ a · n + b is a bijection onto [0, m · n). -/
theorem sum_tiles {m n N : ℕ} (h : m * n = N) (f : Fin N → M) :
    ∑ a : Fin m, ∑ b : Fin n, f ⟨a.val * n + b.val, tile_lt h a b⟩ = ∑ j : Fin N, f j := by
  subst h
  rw [← Fintype.sum_prod_type', ← finProdFinEquiv.sum_comp]
  refine Finset.sum_congr rfl fun x _ => ?_
  refine congrArg f (Fin.ext ?_)
  show x.1.val * n + x.2.val = x.2.val + n * x.1.val
  rw [Nat.mul_comm, Nat.add_comm]

/-- A sum over [0, N) whose terms from n on are zero is the sum over [0, n). -/
theorem sum_fin_of_tail_zero {n N : ℕ} (hn : n ≤ N) (f : Fin N → M) (h0 : ∀ j : Fin N, n ≤ j.val → f j = 0) :
    ∑ j : Fin N, f j = ∑ i : Fin n, f ⟨i.val, lt_of_lt_of_le i.isLt hn⟩ := by
  obtain ⟨k, rfl⟩ := Nat.exists_eq_add_of_le hn
  rw [Fin.sum_univ_add]
  have hz : ∑ i : Fin k, f (Fin.natAdd n i) = 0 :=
    Finset.sum_eq_zero fun i _ => h0 _ (by show n ≤ n + i.val; omega)
  rw [hz, add_zero]
  rfl

end Sums

/-! ## Graph ids as 32-bit words -/

/-- A graph number below 256, as a 32-bit word, reads back signed as itself. -/
theorem toInt_ofNat_graph (g : Fin 256) : (BitVec.ofNat 32 g.val).toInt = (g.val : Int) := by
  have hg := g.isLt
  rw [BitVec.toInt_eq_toNat_cond, BitVec.toNat_ofNat]
  have h1 : g.val % 2 ^ 32 = g.val := Nat.mod_eq_of_lt (by omega)
  rw [h1, if_pos (by omega)]

/-- A word is graph g's word exactly when its signed reading is g. -/
theorem word_eq_graph_iff (w : BitVec 32) (g : Fin 256) : w = BitVec.ofNat 32 g.val ↔ w.toInt = (g.val : Int) := by
  rw [← toInt_ofNat_graph g]
  exact BitVec.toInt_inj.symm

/-- The padding id, −1, is no graph's word. -/
theorem padId_ne_graph (g : Fin 256) : ¬ ((4294967295#32 : BitVec 32) = BitVec.ofNat 32 g.val) := by
  rw [word_eq_graph_iff]
  have h : (4294967295#32 : BitVec 32).toInt = -1 := by decide
  rw [h]
  omega

/-! ## The kernel's side: the padded ids at a row, and the two cores' partial sums added -/

section KernelSide
open Cert.KernelIdeal Cert.KernelIdeal.Facts₀

/-- Below row 100000 the padded id row holds the graph ids … -/
theorem idsPad_of_lt (x2 : IVec ⟨1, ![100000]⟩ 32) (i : Fin 100000) :
    Cert.KernelIdeal.Stages.idsPad x2 (ix2 (0 : Fin 1) (⟨i.val, by omega⟩ : Fin 100096)) = x2 (ix1 i) := by
  unfold Cert.KernelIdeal.Stages.idsPad
  refine (shapeCast_apply _ shapeCasts_S100096_S1x100096 (ix2 (0 : Fin 1) (⟨i.val, by omega⟩ : Fin 100096))
    (ix1 (⟨i.val, by omega⟩ : Fin 100096)) ?_).trans ?_
  · rw [Shape.rowMajor_val_two, Shape.rowMajor_val_one]
    show i.val = 0 * 100096 + i.val
    omega
  · exact pad_apply_of_inside _ _ _ x2 _ pads_S100000_S100096_0960 h_S_ (ix1 (⟨i.val, by omega⟩ : Fin 100096)) (ix1 i)
      (fun a => match a with
        | ⟨0, _⟩ => by show i.val = 0 + i.val * (0 + 1); omega)

/-- … and from row 100000 on the padding id −1. -/
theorem idsPad_of_ge (x2 : IVec ⟨1, ![100000]⟩ 32) (j : Fin 100096) (hj : 100000 ≤ j.val) :
    Cert.KernelIdeal.Stages.idsPad x2 (ix2 (0 : Fin 1) j) = 4294967295#32 := by
  unfold Cert.KernelIdeal.Stages.idsPad
  refine (shapeCast_apply _ shapeCasts_S100096_S1x100096 (ix2 (0 : Fin 1) j) (ix1 j) ?_).trans ?_
  · rw [Shape.rowMajor_val_two, Shape.rowMajor_val_one]
    show j.val = 0 * 100096 + j.val
    omega
  · refine (pad_apply_of_not_inside _ _ _ x2 _ pads_S100000_S100096_0960 h_S_ (ix1 j) (0 : Fin 1) ?_).trans rfl
    show ¬ (0 ≤ j.val ∧ (j.val - 0) % (0 + 1) = 0 ∧ (j.val - 0) / (0 + 1) < 100000)
    omega

/-- The pooled sum at (g, f): the two cores' partial sums there, added. -/
theorem pooledSum_apply (p : (⟨3, ![2, 256, 64]⟩ : Shape).Idx → EReal) (g : Fin 256) (f : Fin 64) :
    Cert.KernelIdeal.Stages.pooledSum (F := Ideal) p (ix2 g f) = ∑ cc : Fin 2, p (ix3 cc g f) := by
  have h : S2x256x64.Reduces [0] S256x64 := by decide
  unfold Cert.KernelIdeal.Stages.pooledSum
  refine (Ideal.hostReduceAdd_single reducesTo_S2x256x64_S256x64_d0 h p _ (ix2 g f)).trans ?_
  have h0 : (constant (F := Ideal) S_ .f32 0x00000000#32) (Shape.Idx.first h_S_) = 0 := Ideal.ofBits_zero_f32
  rw [h0, zero_add]
  refine Finset.sum_congr rfl fun cc _ => congrArg p ?_
  funext c
  match c with
  | ⟨0, _⟩ => rfl
  | ⟨1, _⟩ => rfl
  | ⟨2, _⟩ => rfl

/-- The result at an index: the pooled sum over the count. -/
theorem means_apply {F : FTy → Type} [FloatOps F] (p : FVec F ⟨3, ![2, 256, 64]⟩ .f32) (x2 : IVec ⟨1, ![100000]⟩ 32)
    (i : (⟨2, ![256, 64]⟩ : Shape).Idx) :
    Cert.KernelIdeal.Stages.means (F := F) p x2 i
      = FloatOps.hostDivf (Cert.KernelIdeal.Stages.pooledSum (F := F) p i) (Cert.KernelIdeal.Stages.counts (F := F) x2 i) := rfl

end KernelSide

/-! ## The reference's side: the scatter-added sums at (g, f), and the counts -/

section ReferenceSide
open Cert.ReferenceIdeal Cert.ReferenceIdeal.Facts₀ Cert.ReferenceIdeal.Read

/-- The reference's pooled sum at (g, f): the sum over the nodes whose id, read signed, is g of the second hidden layer. -/
theorem sums_apply (x0 : (⟨S100000x32, .f32⟩ : BufTy).Contents (Elt Ideal)) (x1 : (⟨S2x1600000, .i32⟩ : BufTy).Contents (Elt Ideal))
    (x2 : IVec ⟨1, ![100000]⟩ 32) (x3 : (⟨S32x64, .f32⟩ : BufTy).Contents (Elt Ideal)) (x4 : (⟨S64, .f32⟩ : BufTy).Contents (Elt Ideal))
    (x5 : (⟨S32x64, .f32⟩ : BufTy).Contents (Elt Ideal)) (x6 : (⟨S64x64, .f32⟩ : BufTy).Contents (Elt Ideal))
    (x7 : (⟨S64, .f32⟩ : BufTy).Contents (Elt Ideal)) (x8 : (⟨S64x64, .f32⟩ : BufTy).Contents (Elt Ideal)) (g : Fin 256) (f : Fin 64) :
    val_main_v40 (F := Ideal) x0 x1 x2 x3 x4 x5 x6 x7 x8 (ix2 g f)
      = ∑ i : Fin 100000, if (x2 (ix1 i)).toInt = (g.val : Int) then val_main_v37 (F := Ideal) x0 x1 x3 x4 x5 x6 x7 x8 (ix2 i f) else 0 := by
  unfold val_main_v40
  generalize val_main_v37 (F := Ideal) x0 x1 x3 x4 x5 x6 x7 x8 = V
  refine (Cert.LibRows.rowScatterAdd_apply scatter_S256x64_S100000x1_S100000x64_1_0_0_1_wf (val_main_v38 (F := Ideal))
    (val_main_v39 (F := Ideal) x2) V g f).trans ?_
  have h0 : val_main_v38 (F := Ideal) (ix2 g f) = 0 := by
    rw [val_main_v38_apply, val_main_cst_4_apply]
    exact Ideal.ofBits_zero_f32
  rw [h0, zero_add]
  refine Finset.sum_congr rfl fun i _ => ?_
  have hi : val_main_v39 (F := Ideal) x2 (ix2 i (0 : Fin 1)) = x2 (ix1 i) := by
    rw [val_main_v39_apply]
    refine congrArg x2 ?_
    funext a
    match a with
    | ⟨0, _⟩ => rfl
  rw [hi]

end ReferenceSide

/-- The counts are one and the same chain of operations on the graph ids in the two programs. -/
theorem counts_eq {F : FTy → Type} [FloatOps F] (x2 : IVec ⟨1, ![100000]⟩ 32) :
    Cert.KernelIdeal.Stages.counts (F := F) x2 = Cert.ReferenceIdeal.Read.val_main_v48 (F := F) x2 := by
  unfold Cert.KernelIdeal.Stages.counts Cert.ReferenceIdeal.Read.val_main_v48 Cert.ReferenceIdeal.Read.val_main_v47
    Cert.ReferenceIdeal.Read.val_main_v46 Cert.ReferenceIdeal.Read.val_main_v45 Cert.ReferenceIdeal.Read.val_main_v44
    Cert.ReferenceIdeal.Read.val_main_v43 Cert.ReferenceIdeal.Read.val_main_v42 Cert.ReferenceIdeal.Read.val_main_v41
    Cert.ReferenceIdeal.Read.val_main_cst_5 Cert.ReferenceIdeal.Read.val_main_cst_6 Cert.ReferenceIdeal.Read.val_main_cst_7
  rfl

/-! ## The one-hot sums over the tiles are the scatter-add -/

/-- For a graph g and a feature f: the sum, over the 2 cores, the 17 tiles of a core and the 2944 rows of a tile, of the
    one-hot factor [padded id of the row = g] times the hidden layer's entry is the sum over the nodes whose id, read
    signed, is g of the entry — where the hidden layer H2 on 100096 rows agrees with V on the first 100000. -/
theorem onehot_tiles_eq_segment_sum (x2 : IVec ⟨1, ![100000]⟩ 32)
    (H2 : (⟨2, ![100096, 64]⟩ : Shape).Idx → EReal) (V : (⟨2, ![100000, 64]⟩ : Shape).Idx → EReal)
    (hrows : ∀ (i : Fin 100000) (f : Fin 64), H2 (ix2 (⟨i.val, by omega⟩ : Fin 100096) f) = V (ix2 i f))
    (g : Fin 256) (f : Fin 64) :
    (∑ cc : Fin 2, ∑ t : Fin 17, ∑ r : Fin 2944,
        (if Cert.KernelIdeal.Stages.idsPad x2 (ix2 (0 : Fin 1) (⟨(cc.val * 17 + t.val) * 2944 + r.val, by omega⟩ : Fin 100096))
            = BitVec.ofNat 32 g.val then (1 : EReal) else 0)
          * H2 (ix2 (⟨(cc.val * 17 + t.val) * 2944 + r.val, by omega⟩ : Fin 100096) f))
      = ∑ i : Fin 100000, if (x2 (ix1 i)).toInt = (g.val : Int) then V (ix2 i f) else 0 := by
  -- the term of row j
  let T : Fin 100096 → EReal := fun j =>
    (if Cert.KernelIdeal.Stages.idsPad x2 (ix2 (0 : Fin 1) j) = BitVec.ofNat 32 g.val then (1 : EReal) else 0) * H2 (ix2 j f)
  -- cores × tiles × rows of a tile = all rows
  have e1 : (∑ cc : Fin 2, ∑ t : Fin 17, ∑ r : Fin 2944, T (⟨(cc.val * 17 + t.val) * 2944 + r.val, by omega⟩ : Fin 100096))
      = ∑ j : Fin 100096, T j :=
    (sum_tiles (m := 2) (n := 17) (N := 34) (by decide)
      (fun a : Fin 34 => ∑ r : Fin 2944, T ⟨a.val * 2944 + r.val, tile_lt (m := 34) (n := 2944) (N := 100096) (by decide) a r⟩)).trans
      (sum_tiles (m := 34) (n := 2944) (N := 100096) (by decide) T)
  -- a padded row's id is −1: its one-hot factor is 0
  have e2 : ∑ j : Fin 100096, T j = ∑ i : Fin 100000, T ⟨i.val, lt_of_lt_of_le i.isLt (by decide)⟩ :=
    sum_fin_of_tail_zero (by decide) T (fun j hj => by
      show (if Cert.KernelIdeal.Stages.idsPad x2 (ix2 (0 : Fin 1) j) = BitVec.ofNat 32 g.val then (1 : EReal) else 0) * H2 (ix2 j f) = 0
      rw [idsPad_of_ge x2 j hj, if_neg (padId_ne_graph g), zero_mul])
  refine (e1.trans e2).trans (Finset.sum_congr rfl fun i _ => ?_)
  -- a node's row: the factor is 1 exactly when the id, read signed, is g
  show (if Cert.KernelIdeal.Stages.idsPad x2 (ix2 (0 : Fin 1) (⟨i.val, by omega⟩ : Fin 100096)) = BitVec.ofNat 32 g.val then (1 : EReal) else 0)
      * H2 (ix2 (⟨i.val, by omega⟩ : Fin 100096) f) = _
  rw [idsPad_of_lt x2 i, hrows i f]
  by_cases h : (x2 (ix1 i)).toInt = (g.val : Int)
  · rw [if_pos h, if_pos ((word_eq_graph_iff _ g).mpr h), one_mul]
  · rw [if_neg h, if_neg (fun h' => h ((word_eq_graph_iff _ g).mp h')), zero_mul]

/-! ## The pooled means -/

/-- THE POOLING STEP. If the kernel's second hidden layer H2 agrees on the 100000 node rows with the reference's, and the
    per-core partial sums p are the one-hot products accumulated over each core's 17 tiles of 2944 rows, then the kernel's
    result — the two cores' sums added, over the counts — is the reference's: its scatter-added sums over the same counts. -/
theorem means_eq_of_rows
    (x0 : (⟨Cert.ReferenceIdeal.S100000x32, .f32⟩ : BufTy).Contents (Elt Ideal))
    (x1 : (⟨Cert.ReferenceIdeal.S2x1600000, .i32⟩ : BufTy).Contents (Elt Ideal))
    (x2 : IVec ⟨1, ![100000]⟩ 32)
    (x3 : (⟨Cert.ReferenceIdeal.S32x64, .f32⟩ : BufTy).Contents (Elt Ideal))
    (x4 : (⟨Cert.ReferenceIdeal.S64, .f32⟩ : BufTy).Contents (Elt Ideal))
    (x5 : (⟨Cert.ReferenceIdeal.S32x64, .f32⟩ : BufTy).Contents (Elt Ideal))
    (x6 : (⟨Cert.ReferenceIdeal.S64x64, .f32⟩ : BufTy).Contents (Elt Ideal))
    (x7 : (⟨Cert.ReferenceIdeal.S64, .f32⟩ : BufTy).Contents (Elt Ideal))
    (x8 : (⟨Cert.ReferenceIdeal.S64x64, .f32⟩ : BufTy).Contents (Elt Ideal))
    (H2 : (⟨2, ![100096, 64]⟩ : Shape).Idx → EReal)
    (hrows : ∀ (i : Fin 100000) (f : Fin 64), H2 (ix2 (⟨i.val, by omega⟩ : Fin 100096) f)
      = Cert.ReferenceIdeal.Read.val_main_v37 (F := Ideal) x0 x1 x3 x4 x5 x6 x7 x8 (ix2 i f))
    (p : (⟨3, ![2, 256, 64]⟩ : Shape).Idx → EReal)
    (hp : ∀ (cc : Fin 2) (g : Fin 256) (f : Fin 64), p (ix3 cc g f) = ∑ t : Fin 17, ∑ r : Fin 2944,
      (if Cert.KernelIdeal.Stages.idsPad x2 (ix2 (0 : Fin 1) (⟨(cc.val * 17 + t.val) * 2944 + r.val, by omega⟩ : Fin 100096))
          = BitVec.ofNat 32 g.val then (1 : EReal) else 0)
        * H2 (ix2 (⟨(cc.val * 17 + t.val) * 2944 + r.val, by omega⟩ : Fin 100096) f)) :
    Cert.KernelIdeal.Stages.means (F := Ideal) p x2 = Cert.ReferenceIdeal.Read.val_main_v49 (F := Ideal) x0 x1 x2 x3 x4 x5 x6 x7 x8 := by
  funext i
  obtain ⟨g, f, rfl⟩ : ∃ (g : Fin 256) (f : Fin 64), i = ix2 g f := ⟨i 0, i 1, eq_ix2 i⟩
  rw [means_apply, Cert.ReferenceIdeal.Read.val_main_v49_apply, counts_eq (F := Ideal) x2, pooledSum_apply, sums_apply]
  refine congrArg (fun s : EReal => FloatOps.hostDivf (F := Ideal) (φ := .f32) s (Cert.ReferenceIdeal.Read.val_main_v48 (F := Ideal) x2 (ix2 g f))) ?_
  rw [Finset.sum_congr rfl fun cc _ => hp cc g f]
  exact onehot_tiles_eq_segment_sum x2 H2 _ hrows g f

end Cert.Bridge

end
-- ==== Proof.KI.KernelValue.lean ====
/-
  The idealized kernel's result as the reference's function of the launch arrays, when every source index lies in
  [0, 100000). The first pallas_call leaves, on every one of the 100096 rows, tanh((A₁·W_rel + b) + X·W_root) of the
  arrays it was entered with; on the 100000 real rows that is the reference's first hidden layer. With in-range
  sources the second layer's aggregated messages and hidden layer agree with the reference's on the real rows too, and
  the second pallas_call's two partial sums, added and divided by the node counts, are the reference's pooled means.
-/
import proofs.«410272_j33930241638933_2_alg».proof.Proof.KI.HostValue
import proofs.«410272_j33930241638933_2_alg».proof.Proof.KI.Value0
import proofs.«410272_j33930241638933_2_alg».proof.Proof.KI.Value1
import proofs.«410272_j33930241638933_2_alg».proof.Proof.Layers
import proofs.«410272_j33930241638933_2_alg».proof.Proof.Pool

noncomputable section

namespace Cert.KernelIdeal.HandValue

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ)

/-- The hidden layer the first pallas_call leaves, on every padded row. -/
theorem hidden_value (c : Dev nD) (i : Fin 100096) (f : Fin 64) :
    (Hand.hiddenArr m c : S100096x64.Idx → EReal) (ix2 i f)
      = Ideal.tanh ((∑ k : Fin 32, Stages.agg1 (F := Ideal) (m ((c.tc : Thread nD τ).loc main_arg0)) (m ((c.tc : Thread nD τ).loc main_arg1)) (ix2 i k) * (m ((c.tc : Thread nD τ).loc main_arg3)) (ix2 k f)
            + Stages.biasRow (F := Ideal) (m ((c.tc : Thread nD τ).loc main_arg4)) (ix2 (0 : Fin 1) f))
          + ∑ k : Fin 32, Stages.xPad (F := Ideal) (m ((c.tc : Thread nD τ).loc main_arg0)) (ix2 i k) * (m ((c.tc : Thread nD τ).loc main_arg5)) (ix2 k f)) :=
  hidden_array_sums (Hand.enter0 m) c _ _ _ _ _ (Hand.enter0_agg1 m c) (Hand.enter0_xPad m c) (Hand.enter0_wrel m c)
    (Hand.enter0_bias m c) (Hand.enter0_wroot m c) i f

/-- One graph-convolution layer on the padded rows, from aggregated messages `agg` and node values `h`:
    row i, feature f ↦ tanh((∑ₖ agg[i,k]·W_rel[k,f] + b[f]) + ∑ₖ h[i,k]·W_root[k,f]). -/
def layer2 (agg h : S100096x64.Idx → EReal) (wrel wroot : S64x64.Idx → EReal) (b : S1x64.Idx → EReal) (i : Fin 100096) (f : Fin 64) : EReal :=
  Ideal.tanh ((∑ k : Fin 64, agg (ix2 i k) * wrel (ix2 k f) + b (ix2 (0 : Fin 1) f)) + ∑ k : Fin 64, h (ix2 i k) * wroot (ix2 k f))

/-- The kernel's second hidden layer, on every padded row, from the hidden layer the first pallas_call left. -/
def hidden2 (c : Dev nD) : S100096x64.Idx → EReal := fun j =>
  layer2 (Stages.agg2 (F := Ideal) (Hand.hiddenArr m c) (m ((c.tc : Thread nD τ).loc main_arg1))) (Hand.hiddenArr m c) (m ((c.tc : Thread nD τ).loc main_arg6)) (m ((c.tc : Thread nD τ).loc main_arg8))
    (Stages.biasRow (F := Ideal) (m ((c.tc : Thread nD τ).loc main_arg7))) ⟨(j 0).val, idx2_lt0 j⟩ ⟨(j 1).val, idx2_lt1 j⟩

/-- The result of the idealized kernel is the reference's. -/
theorem kernel_value
    (hsrc : ∀ (c : Dev nD) (e : Fin 1600000), 0 ≤ (((m ((c.tc : Thread nD τ).loc main_arg1)) : (⟨2, ![2, 1600000]⟩ : Shape).Idx → BitVec 32) (ix2 (0 : Fin 2) e)).toInt
      ∧ (((m ((c.tc : Thread nD τ).loc main_arg1)) : (⟨2, ![2, 1600000]⟩ : Shape).Idx → BitVec 32) (ix2 (0 : Fin 2) e)).toInt < 100000)
    (c : Dev nD) :
    Gen.V9 m (Hand.left m) c (main_v43 : Ref sig .tc)
      = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [Hand.fold_result]
  have hrows1 := Cert.Bridge.hidden_rows (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (Hand.hiddenArr m c) (hidden_value m c)
  have hrows2 := Cert.Bridge.out_rows (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (hsrc c) (Hand.hiddenArr m c) hrows1
  exact Cert.Bridge.means_eq_of_rows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (hidden2 m c) (fun i f => hrows2 i f)
    (Hand.pooledArr m c) (fun cc g f =>
      pooled_array_sums (Hand.enter1 m) c _ _ _ _ _ _ (Hand.enter1_agg2 m c) (Hand.enter1_hidden m c) (Hand.enter1_wrel m c)
        (Hand.enter1_bias m c) (Hand.enter1_wroot m c) (Hand.enter1_ids m c) cc g f)

end Cert.KernelIdeal.HandValue

end
-- ==== Proof.PreRange.lean ====
/-
  The certificate's precondition, read back at the one place the proof uses it.

  The printed predicate is a conjunction, folded left to right by `and`, of nine `jnp.all`s. Seven of them say that
  every entry of a float argument is finite. The last two speak of row 0 of the [2, 1600000] edge list, the source
  node of every edge: every entry is ≥ 0, and every entry is < 100000, both compared SIGNED. Each of these two is
  printed as: slice row 0 of the edge list, reshape the [1, 1600000] slice to [1600000], compare entrywise with the
  constant broadcast to [1600000], and reduce the resulting [1600000] array of bits by `and`, starting from 1.

  Read back: a conjunction that is 1 has both conjuncts 1; a reduction by `and` over all entries that is 1 met a 1 at
  every entry; the bit at entry e compares the word at row 0, column e of the edge list with the constant; and a
  signed comparison that is 1 is the inequality between the words' signed values. Hence for every edge e the source
  word edge_index[0, e], read as a signed integer, lies in [0, 100000). The edge e is symbolic throughout; the
  1600000 entries are never enumerated.
-/
import proofs.«410272_j33930241638933_2_alg».proof.Defs
import proofs.«410272_j33930241638933_2_alg».proof.Proof.Gen.Pre_finite_inputs
import Idealize.ShloMosaic.Lib.ReduceAll
import Idealize.ShloMosaic.Lib.ValueIdx
import Idealize.ShloMosaic.Lib.Pipeline.Value

noncomputable section

namespace Cert.PreRange

open Idealize.ShloMosaic Idealize.ShloMosaic.ValueIdx Idealize.SL.Sem
open Cert.Pre_finite_inputs Cert.Pre_finite_inputs.Facts

/-- The scalar shape has exactly one index, so a reduction into it is a reduction over every entry. -/
instance scalarIdx_subsingleton : Subsingleton S_.Idx := ⟨fun a b => funext fun d => d.elim0⟩

/-- Row 0 of the [2, 1600000] edge list, flattened to [1600000] and read at e, is the entry (0, e): the reshape keeps
    the row-major position (0 · 1600000 + e = e) and the slice starts at offset (0, 0). -/
theorem srcRow_apply (x : IVec S2x1600000 32) (e : Fin 1600000) :
    shapeCast S1600000 (extractStridedSlice S1x1600000 ![0, 0] x slices_S2x1600000_S1x1600000_0_0)
      shapeCasts_S1x1600000_S1600000 (ix1 e) = x (ix2 (0 : Fin 2) e) := by
  refine (shapeCast_apply _ shapeCasts_S1x1600000_S1600000 (ix1 e) (ix2 (0 : Fin 1) e) ?_).trans ?_
  · rw [Shape.rowMajor_val_two, Shape.rowMajor_val_one]
    show 0 * 1600000 + e.val = e.val
    omega
  · exact extractStridedSlice_apply ![0, 0] x slices_S2x1600000_S1x1600000_0_0 (ix2 (0 : Fin 1) e) (ix2 (0 : Fin 2) e)
      (fun a => match a with
        | ⟨0, _⟩ => by show (0 : Nat) = 0 + 0; rfl
        | ⟨1, _⟩ => by show e.val = 0 + e.val; omega)

/-- The last two conjuncts of the predicate, whatever the conjunction of the earlier ones is: if the tail of the
    printed chain is 1 then every source word is in [0, 100000) signed. -/
theorem src_of_tail {F : FTy → Type} [FloatOps F] (x : IVec S2x1600000 32) (v : IVec S_ 1)
    (h : fn_part2 (F := F) x v ix0 = 1#1) (e : Fin 1600000) :
    0 ≤ (x (ix2 (0 : Fin 2) e)).toInt ∧ (x (ix2 (0 : Fin 2) e)).toInt < 100000 := by
  dsimp only [fn_part2] at h
  -- the outer conjunction: (earlier ∧ all ≥ 0) ∧ all < 100000
  obtain ⟨h1, hlt⟩ := IntOp.andi_eq_one.1 h
  obtain ⟨-, hge⟩ := IntOp.andi_eq_one.1 h1
  -- each reduction over all 1600000 entries, at entry e
  have hge_e := Host.reduce_andi_all _ _ _ _ _ hge (ix1 e)
  have hlt_e := Host.reduce_andi_all _ _ _ _ _ hlt (ix1 e)
  -- the compared words at entry e: the source word and the broadcast constant
  have hge_w : IntOp.cmpi .sge (x (ix2 (0 : Fin 2) e)) 0#32 = 1#1 := by
    rw [← srcRow_apply x e]; exact hge_e
  have hlt_w : IntOp.cmpi .slt (x (ix2 (0 : Fin 2) e)) 100000#32 = 1#1 := by
    rw [← srcRow_apply x e]; exact hlt_e
  have h0 : (0#32 : BitVec 32).toInt = 0 := by decide
  have hN : (100000#32 : BitVec 32).toInt = 100000 := by decide
  refine ⟨?_, ?_⟩
  · have := IntOp.cmpi_sge.1 hge_w; rw [h0] at this; exact this
  · have := IntOp.cmpi_slt.1 hlt_w; rw [hN] at this; exact this

/-- THE PRECONDITION DECODED: on every device, every edge's source word, read signed, is a node number in
    [0, 100000). -/
theorem src_in_range (m : (ℓ : Loc Cert.KernelIdeal.nD Cert.KernelIdeal.τ Cert.KernelIdeal.sig) → Buf (Elt Ideal) ℓ)
    (hpre : Cert.Pre_KernelIdeal m) (c : Dev Cert.KernelIdeal.nD) (e : Fin 1600000) :
    0 ≤ ((m ((c.tc : Thread Cert.KernelIdeal.nD Cert.KernelIdeal.τ).loc Cert.KernelIdeal.main_arg1) :
          (⟨2, ![2, 1600000]⟩ : Shape).Idx → BitVec 32) (ix2 (0 : Fin 2) e)).toInt
    ∧ ((m ((c.tc : Thread Cert.KernelIdeal.nD Cert.KernelIdeal.τ).loc Cert.KernelIdeal.main_arg1) :
          (⟨2, ![2, 1600000]⟩ : Shape).Idx → BitVec 32) (ix2 (0 : Fin 2) e)).toInt < 100000 := by
  have h := congrFun (hpre c) ix0
  dsimp only [Cert.Pre_finite_inputs.fn, Cert.Pre_finite_inputs.fn_part1] at h
  exact src_of_tail _ _ h e

end Cert.PreRange

end
-- ==== Proof.lean ====
/-
  A two-layer graph convolution with mean pooling — per layer tanh((A·W_rel + b) + H·W_root) with A the rows of H taken
  at the edges' sources and summed into their destinations, then each graph's mean over its nodes — computed by two
  pallas_calls on node rows padded from 100000 to 100096, against the plain jnp reference.
  Over the extended reals the two agree when every source index lies in [0, 100000), the range of the node array it
  indexes: the kernel takes the second layer's rows from its PADDED hidden layer, so a negative source is counted from
  row 100096 and a large one clamped to row 100095, where the reference counts from and clamps to the 100000 real rows;
  inside the range neither adjustment acts. Padded rows never reach the result: no in-range source reads them, and their
  graph id −1 matches no graph in the pooling's one-hot product. Destinations and graph ids need no condition (both
  programs drop what falls outside). The rest is re-association of sums in the commutative monoid of extended reals:
  the pooling's one-hot matrix product over 34 row tiles on two cores is the reference's sum over each graph's nodes.
  The three frames: each kernel program is a chain of nine items (host stretches and the two pallas_calls) run from the
  launch memory; the reference is its generated run.
-/
import proofs.«410272_j33930241638933_2_alg».proof.Defs
import proofs.«410272_j33930241638933_2_alg».proof.Proof.Gen.Kernel
import proofs.«410272_j33930241638933_2_alg».proof.Proof.Gen.KernelIdeal
import proofs.«410272_j33930241638933_2_alg».proof.Proof.Gen.ReferenceIdeal
import proofs.«410272_j33930241638933_2_alg».proof.Proof.Gen.Pre_finite_inputs
import proofs.«410272_j33930241638933_2_alg».proof.Proof.Gen.ReferenceIdeal.Run
import proofs.«410272_j33930241638933_2_alg».proof.Proof.Gen.ReferenceIdeal.Read
import proofs.«410272_j33930241638933_2_alg».proof.Proof.K.Run
import proofs.«410272_j33930241638933_2_alg».proof.Proof.KI.Run
import proofs.«410272_j33930241638933_2_alg».proof.Proof.KI.KernelValue
import proofs.«410272_j33930241638933_2_alg».proof.Proof.PreRange
import Idealize.ShloMosaic.Adequacy
import Idealize.ShloMosaic.Init

noncomputable section

namespace Cert.Proof

open Idealize.ShloMosaic Idealize.SL.Sem

/-- The word-level program runs to the end and leaves its arguments: its run, the result dropped. -/
theorem frame_kernel : Cert.frame_Kernel := fun m ρ _ =>
  (θ_run Cert.Kernel.defs _ _).mono (fun _ h c => (h c).2) (Cert.Kernel.Hand.run_all m ρ)

/-- The same for its idealization. -/
theorem frame_ideal : Cert.frame_KernelIdeal := fun m ρ _ =>
  (θ_run Cert.KernelIdeal.defs _ _).mono (fun _ h c => (h c).2) (Cert.KernelIdeal.Hand.run_all m ρ)

/-- The reference is a host program: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the reference's value of the arguments: the kernel by its run and the bridge
    (which uses the sources' range), the reference by its generated run, the arguments' agreement rewritten. -/
theorem algebraic : Cert.algebraic_KernelIdeal_ReferenceIdeal := by
  intro m ρ m' ρ' hpre hagree
  refine ⟨fun c => Cert.ReferenceIdeal.Read.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.HandValue.kernel_value m (fun c e => Cert.PreRange.src_in_range m hpre c e) c), (h c).2⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v49_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
